-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x3 .f32) (main_arg1 : IVec S2x1600000 32) (main_arg2 : IVec S100000 32) (main_arg3 : FVec F S3x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S100000x1 : Shape := ⟨2, ![100000, 1]⟩
abbrev S1x64 : Shape := ⟨2, ![1, 64]⟩
abbrev S100000x64 : Shape := ⟨2, ![100000, 64]⟩
abbrev S5000x3 : Shape := ⟨2, ![5000, 3]⟩
abbrev S5000x1 : Shape := ⟨2, ![5000, 1]⟩
abbrev S5000x64 : Shape := ⟨2, ![5000, 64]⟩
abbrev S1600000x64 : Shape := ⟨2, ![1600000, 64]⟩
abbrev S1x10 : Shape := ⟨2, ![1, 10]⟩
abbrev S64x1 : Shape := ⟨2, ![64, 1]⟩

abbrev nBuf : Space → Nat
  | .hbm => 84
  | .vmem => 25
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x3, .f32⟩
  | .hbm, ⟨52, _⟩ => ⟨S1600000x1, .f32⟩
  | .hbm, ⟨53, _⟩ => ⟨S1600000x3, .f32⟩
  | .hbm, ⟨54, _⟩ => ⟨S1600000x3, .f32⟩
  | .hbm, ⟨55, _⟩ => ⟨S_, .f32⟩
  | .hbm, ⟨56, _⟩ => ⟨S100000x3, .f32⟩
  | .hbm, ⟨57, _⟩ => ⟨S1600000x1, .i32⟩
  | .hbm, ⟨58, _⟩ => ⟨S100000x3, .f32⟩
  | .hbm, ⟨59, _⟩ => ⟨S100000x1, .f32⟩
  | .hbm, ⟨60, _⟩ => ⟨S1x64, .f32⟩
  | .hbm, ⟨61, _⟩ => ⟨S100000x64, .bf16⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .bf16⟩
  | .hbm, ⟨71, _⟩ => ⟨S1600000x64, .f32⟩
  | .hbm, ⟨72, _⟩ => ⟨S1600000x1, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x1, .i32⟩
  | .hbm, ⟨80, _⟩ => ⟨S100000x1, .f32⟩
  | .hbm, ⟨81, _⟩ => ⟨S1x64, .f32⟩
  | .hbm, ⟨82, _⟩ => ⟨S1x10, .f32⟩
  | .hbm, ⟨83, _⟩ => ⟨S64x10, .f32⟩
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S5000x1, .f32⟩
  | .local _ .vmem, ⟨5, _⟩ => ⟨S5000x1, .f32⟩
  | .local _ .vmem, ⟨6, _⟩ => ⟨S3x64, .f32⟩
  | .local _ .vmem, ⟨7, _⟩ => ⟨S1x64, .f32⟩
  | .local _ .vmem, ⟨8, _⟩ => ⟨S64x64, .f32⟩
  | .local _ .vmem, ⟨9, _⟩ => ⟨S5000x64, .bf16⟩
  | .local _ .vmem, ⟨10, _⟩ => ⟨S5000x64, .bf16⟩
  | .local _ .vmem, ⟨11, _⟩ => ⟨S5000x1, .i32⟩
  | .local _ .vmem, ⟨12, _⟩ => ⟨S5000x1, .i32⟩
  | .local _ .vmem, ⟨13, _⟩ => ⟨S5000x64, .f32⟩
  | .local _ .vmem, ⟨14, _⟩ => ⟨S5000x64, .f32⟩
  | .local _ .vmem, ⟨15, _⟩ => ⟨S5000x64, .bf16⟩
  | .local _ .vmem, ⟨16, _⟩ => ⟨S5000x64, .bf16⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S64x10, .f32⟩
  | .local _ .vmem, ⟨21, _⟩ => ⟨S1x10, .f32⟩
  | .local _ .vmem, ⟨22, _⟩ => ⟨S64x10, .f32⟩
  | .local _ .vmem, ⟨23, _⟩ => ⟨S64x64, .f32⟩
  | .local _ .vmem, ⟨24, _⟩ => ⟨S64x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_21 : BitVec 32 := 0#32
  let v44 : BitVec 1 := Scalar.cmpi .ne v43 c0_i32_21
  v44

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  shapeCasts_S100000_S100000x1 : S100000.ShapeCasts S100000x1
  shapeCasts_S64_S1x64 : S64.ShapeCasts S1x64
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x3 : S5000x1.Broadcasts S5000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10_S1x10 : S10.ShapeCasts S1x10
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S5000x64_S5000x64 : S5000x64.ShapeCasts S5000x64
  broadcasts_S5000x1_S5000x64 : S5000x1.Broadcasts S5000x64
  iota_S1x64_d1_w32 : S1x64.Iotas .tc 32 [1]
  natLt_1_32 : 1 < 32
  broadcasts_S64x1_S64x64 : S64x1.Broadcasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  dot_S5000x3_S3x64_S5000x64_1_0_0_1_n_n_wf : DotDims.WF S5000x3 S3x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S5000x64_S64x64_0_0_1_1_n_n_wf : DotDims.WF S5000x64 S5000x64 S64x64 [0] [0] [1] [1] [] []
  dot_S5000x64_S5000x1_S64x1_0_0_1_1_n_n_wf : DotDims.WF S5000x64 S5000x1 S64x1 [0] [0] [1] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .f32 = 32 ∨ (Rect.block (s := S100000x3) S5000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .i32 = 32 ∨ (Rect.block (s := S100000x1) S5000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .bf16 = 32 ∨ (Rect.block (s := S100000x64) S5000x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x10.size a ≤ S64x10.size a
  hwx1_5 : ∀ i : grid1.Coords, EltTy.bits .f32 = 32 ∨ (Rect.block (s := S64x10) S64x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x10.size a ≤ S64x10.size a
  hwx1_7 : ∀ i : grid1.Coords, EltTy.bits .f32 = 32 ∨ (Rect.block (s := S64x10) S64x10.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_v39) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v57) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S64x10.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x10 : Shape := ⟨2, ![1, 10]⟩

abbrev nBuf : Space → Nat
  | .hbm => 147
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x1, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .f32⟩
  | _ => ⟨S100000x3, .f32⟩

abbrev hbmTy0_1 (i : Nat) : BufTy := match i % 128 with
  | 0 => ⟨S100000, .f32⟩
  | 1 => ⟨S_, .f32⟩
  | 2 => ⟨S64, .f32⟩
  | 3 => ⟨S100000x1, .i32⟩
  | 4 => ⟨S64, .f32⟩
  | 5 => ⟨S_, .f32⟩
  | 6 => ⟨S64x64, .f32⟩
  | 7 => ⟨S100000x1, .i32⟩
  | 8 => ⟨S64x64, .f32⟩
  | 9 => ⟨S_, .f32⟩
  | 10 => ⟨S64, .f32⟩
  | 11 => ⟨S64, .f32⟩
  | 12 => ⟨S64x1, .f32⟩
  | 13 => ⟨S64x64, .f32⟩
  | 14 => ⟨S64x64, .f32⟩
  | 15 => ⟨S64x10, .f32⟩
  | 16 => ⟨S1x10, .f32⟩
  | 17 => ⟨S64x10, .f32⟩
  | 18 => ⟨S64x10, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x3_S3x64_S100000x64_1_0_0_1_n_n_wf : DotDims.WF S100000x3 S3x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x10_S64x10_1_0_0_1_n_n_wf : DotDims.WF S64x64 S64x10 S64x10 [1] [0] [0] [1] [] []

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.KReg0.lean ====
/-
  Kernel region 0 (the first graph-convolution layer fused with the second layer's matrix product), as the
  pipeline runs it, at the buffer contents `V` the region is entered with.

  The grid has 20 points; point `t` is handed rows [5000 t, 5000 t + 5000) of the aggregated features, of the node
  features and of the squared inverse-root degrees, and the whole of the two weight matrices and the bias row (fetched
  once, at the first point). The body loads all six, stores ONE value — the skeleton's payload of the six loads — over
  the whole of the output block, and keeps nothing between points. So the output block after the body is that payload
  of the point's six input blocks, every input block is left in place, and the region's invariant is the bare one
  (the scoped buffers no window stages, the generator register).
-/
import proofs.«428876_j16381005267207_3_alg».proof.Proof.Gen.Kernel.Launch
import proofs.«428876_j16381005267207_3_alg».proof.Proof.Gen.Kernel.Skeleton
import proofs.«428876_j16381005267207_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not (unfetched, the block index has not moved), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not (unfetched, the block index has not moved), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not (unfetched, the block index has not moved), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not (unfetched, the block index has not moved), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or not (unfetched, the block index has not moved), for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there
    or not (unfetched, the block index has not moved), for any proof data whose array is `V`'s and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rNx3 : Rect S5000x3 := Rect.unit (s := S5000x3) ![0, 0] S5000x3.size inb_S5000x3_S5000x3_0_0
abbrev rNx1 : Rect S5000x1 := Rect.unit (s := S5000x1) ![0, 0] S5000x1.size inb_S5000x1_S5000x1_0_0
abbrev r3xH : Rect S3x64 := Rect.unit (s := S3x64) ![0, 0] S3x64.size inb_S3x64_S3x64_0_0
abbrev r1xH : Rect S1x64 := Rect.unit (s := S1x64) ![0, 0] S1x64.size inb_S1x64_S1x64_0_0
abbrev rHxH : Rect S64x64 := Rect.unit (s := S64x64) ![0, 0] S64x64.size inb_S64x64_S64x64_0_0
abbrev rNxH : Rect S5000x64 := Rect.unit (s := S5000x64) ![0, 0] S5000x64.size inb_S5000x64_S5000x64_0_0

/-! ## What the body leaves in the output window's buffer -/

/-- The output block after the body, from the six input blocks: its one store, of the payload of the six loads. -/
def out0_6 (x0 : Vec F S5000x3 .f32) (x1 : Vec F S5000x3 .f32) (x2 : Vec F S5000x1 .f32) (x3 : Vec F S3x64 .f32)
    (x4 : Vec F S1x64 .f32) (x5 : Vec F S64x64 .f32) : Vec F S5000x64 .bf16 :=
  View.canon [⟨rNxH, k0_pay1 (View.ld x0 rNx3) (View.ld x1 rNx3) (View.ld x2 rNx1) (View.ld x3 r3xH) (View.ld x4 r1xH) (View.ld x5 rHxH)⟩]

/-- The one store covers the buffer. -/
theorem cover0_6 (p0 : Vec F S5000x64 .bf16) (y : S5000x64.Idx) :
    ∃ pc ∈ ([⟨rNxH, p0⟩] : List (View.Piece (Elt F) S5000x64 .bf16)), y ∈ pc.1.set :=
  View.cover_of_tiled [⟨rNxH, p0⟩] S5000x64.size (by rfl) y

/-! ## The body's triple -/

set_option maxHeartbeats 2000000 in
/-- The body on whole staging memrefs — the six inputs' at their contents, the output's at anything — runs to the
    continuation holding the inputs' as they were and the output's at `out0_6` of them. -/
theorem sound_kernel0 (c : Dev nD) (E : Set ℕ) (i : grid0.Coords)
    (arg1 : Memref sig .tc .vmem S5000x3 .f32) (harg1 : arg1.IsWhole) (arg2 : Memref sig .tc .vmem S5000x3 .f32) (harg2 : arg2.IsWhole)
    (arg3 : Memref sig .tc .vmem S5000x1 .f32) (harg3 : arg3.IsWhole) (arg4 : Memref sig .tc .vmem S3x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S5000x64 .bf16) (harg7 : arg7.IsWhole)
    (x0 : Vec F S5000x3 .f32) (x1 : Vec F S5000x3 .f32) (x2 : Vec F S5000x1 .f32) (x3 : Vec F S3x64 .f32)
    (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gcn1_matmul_kernel i arg1 harg1 arg2 harg2 arg3 harg3 arg4 harg4 arg5 harg5 arg6 harg6 arg7 harg7) K := by
  simp only [cc0__gcn1_matmul_kernel_eq_skeleton]; unfold cc0__gcn1_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at `out0_6` of the six input blocks; the bare invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1Runs.lean ====
import proofs.«428876_j16381005267207_3_alg».proof.Proof.Gen.Kernel.Launch
import proofs.«428876_j16381005267207_3_alg».proof.Proof.Gen.Kernel.Skeleton
import proofs.«428876_j16381005267207_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

-- membership in a rectangle of large extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 1 (the pooling-and-classifier call): what its three runs share

The region is entered with the TensorCore's buffers at contents `V`. Its grid has twenty points; two
scratch accumulators — a 64×64 sum and a 64×1 count — are reset at the first point, added to at every
point, and turned into the 64×10 output at the last point. -/

variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the point
    fetches it: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the point
    fetches it: where it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the point
    fetches it: where it is not fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the point
    fetches it: where it is not fetched the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the point
    fetches it: where it is not fetched the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the point
    fetches it: where it is not fetched the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether or not the point
    fetches it: where it is not fetched the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first branch (reset both accumulators): the grid coordinate is zero. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second branch (divide, multiply by the classifier, store the output): the grid coordinate is nineteen. -/
abbrev cond1_1 (i : grid1.Coords) : Prop := k1_cond2 i = 1#1
/-- It holds at the last point only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- Window 0 is an input: never idle. -/
theorem liveAt1_0 : ∀ t : Fin cfg1.N, cfg1.idle 0 (grid1.coords t) = false := by decide +kernel
/-- Window 1 is an input: never idle. -/
theorem liveAt1_1 : ∀ t : Fin cfg1.N, cfg1.idle 1 (grid1.coords t) = false := by decide +kernel
/-- Window 2 is an input: never idle. -/
theorem liveAt1_2 : ∀ t : Fin cfg1.N, cfg1.idle 2 (grid1.coords t) = false := by decide +kernel
/-- Window 3 is an input: never idle. -/
theorem liveAt1_3 : ∀ t : Fin cfg1.N, cfg1.idle 3 (grid1.coords t) = false := by decide +kernel
/-- Window 4 is an input: never idle. -/
theorem liveAt1_4 : ∀ t : Fin cfg1.N, cfg1.idle 4 (grid1.coords t) = false := by decide +kernel
/-- Window 5 is an input: never idle. -/
theorem liveAt1_5 : ∀ t : Fin cfg1.N, cfg1.idle 5 (grid1.coords t) = false := by decide +kernel
/-- Window 6 is an input: never idle. -/
theorem liveAt1_6 : ∀ t : Fin cfg1.N, cfg1.idle 6 (grid1.coords t) = false := by decide +kernel
/-- At the first point the output window is idle: nothing is stored into it. -/
theorem idleAt1_7_A : ∀ t : Fin cfg1.N, cond1_0 (grid1.coords t) → ¬cond1_1 (grid1.coords t) → cfg1.idle 7 (grid1.coords t) = true := by decide +kernel
/-- And its block is not written back there. -/
theorem noFlush1_7_A : ∀ t : Fin cfg1.N, cond1_0 (grid1.coords t) → ¬cond1_1 (grid1.coords t) → (cfg1.win 7).flush t = false := by decide +kernel
/-- At the middle points the output window is idle. -/
theorem idleAt1_7_B : ∀ t : Fin cfg1.N, ¬cond1_0 (grid1.coords t) → ¬cond1_1 (grid1.coords t) → cfg1.idle 7 (grid1.coords t) = true := by decide +kernel
/-- And its block is not written back there. -/
theorem noFlush1_7_B : ∀ t : Fin cfg1.N, ¬cond1_0 (grid1.coords t) → ¬cond1_1 (grid1.coords t) → (cfg1.win 7).flush t = false := by decide +kernel
/-- At the last point the output window is live: the body stores into it. -/
theorem liveAt1_7_C : ∀ t : Fin cfg1.N, ¬cond1_0 (grid1.coords t) → cond1_1 (grid1.coords t) → cfg1.idle 7 (grid1.coords t) = false := by decide +kernel

/-! ## The memrefs the body is called with -/

/-- The output window's one staging buffer as a view: its contents are stated through it. -/
abbrev VO1_7 : View sig .tc .vmem S64x10 .f32 := (Memref.whole cc1_stg7_0 : Memref sig .tc .vmem S64x10 .f32).view
abbrev ms1_0 (t : Fin cfg1.N) : Memref sig .tc .vmem S5000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x10 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x10 .f32 := win1_7.stage (cfg1.slots t 7)
abbrev hs1_7 (t : Fin cfg1.N) : (ms1_7 t).IsWhole := hstage1_7 ((cfg1.slots t 7).cast nbuf1_7)
/-- The two accumulators: whole scoped buffers of the kernel's own, passed beside the windows. -/
abbrev scM1_0 : Memref sig .tc .vmem S64x64 .f32 := Memref.whole cc1_scratch0
abbrev scM1_1 : Memref sig .tc .vmem S64x1 .f32 := Memref.whole cc1_scratch1
/-- The same as views. -/
abbrev VS1_0 : View sig .tc .vmem S64x64 .f32 := scM1_0.view
abbrev VS1_1 : View sig .tc .vmem S64x1 .f32 := scM1_1.view

/-! ## The region's invariant, its parts named -/

/-- The scoped buffers that belong to the other region (its staging buffers), each at some contents: this region
    never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class's invariant, read as: the other region's eleven buffers, the two accumulators owned at some
    contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body's run at the first point -/

set_option maxHeartbeats 1000000 in
/-- CASE A (first branch taken, second not: the first point). On whole memrefs — the inputs' at their contents, the
    output's at contents handed back untouched, both accumulators at anything — the body runs to the continuation
    holding the inputs' as they were and each accumulator with its stores written, as pieces (last first): a
    reset and then an update. The pieces are the witness the run finds. -/
noncomputable def kernelRun1_A (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) :
    Σ' (L7 : List (View.Piece (Elt F) S64x10 .f32)) (LS0 : List (View.Piece (Elt F) S64x64 .f32)), { LS1 : List (View.Piece (Elt F) S64x1 .f32) //
      ∀ (xi7 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__combine_pool_fc_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc1__combine_pool_fc_kernel_eq_skeleton]; unfold cc1__combine_pool_fc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-! ## The body's run at a middle point -/

set_option maxHeartbeats 1000000 in
/-- CASE B (neither branch taken: points 1 to 18). On whole memrefs — the inputs' at their contents, the output's at
    contents handed back untouched, the accumulators at what the point before left (`xs0`, `xs1`) — the body runs to
    the continuation holding the inputs' as they were and each accumulator with its one update written. -/
noncomputable def kernelRun1_B (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) :
    Σ' (L7 : List (View.Piece (Elt F) S64x10 .f32)) (LS0 : List (View.Piece (Elt F) S64x64 .f32)), { LS1 : List (View.Piece (Elt F) S64x1 .f32) //
      ∀ (xi7 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__combine_pool_fc_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc1__combine_pool_fc_kernel_eq_skeleton]; unfold cc1__combine_pool_fc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-! ## The body's run at the last point -/

set_option maxHeartbeats 1000000 in
/-- CASE C (first branch not taken, second taken: the last point). On whole memrefs — the inputs' at their contents,
    the output's at anything, the accumulators at what the point before left — the body runs to the continuation
    holding the inputs' as they were, each accumulator with its one update written and the output's buffer with
    its one store written. -/
noncomputable def kernelRun1_C (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) :
    Σ' (L7 : List (View.Piece (Elt F) S64x10 .f32)) (LS0 : List (View.Piece (Elt F) S64x64 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__combine_pool_fc_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__combine_pool_fc_kernel_eq_skeleton]; unfold cc1__combine_pool_fc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.Kernel.Hand

end
-- ==== Proof.KReg1.lean ====
import proofs.«428876_j16381005267207_3_alg».proof.Proof.KReg1Runs

-- membership in a rectangle of large extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 1: what each point leaves, the invariant, the proof data and the body obligation

Stated at the TensorCore's buffer contents `V` when the region is entered. -/

variable (V : (c : Dev nD) → (b : Ref sig .tc) → Buf (Elt F) ((c : Thread nD τ).loc b))

/-! ## What the body leaves at the first point -/

/-- At the first point nothing is stored into the output window (it is idle there and not written back): no pieces — a
    placeholder, junk read back, that nothing consults. -/
def outA_7 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) : Vec F S64x10 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 hc1 x0 x1 x2 x3 x4 x5 x6).1)

/-- The pieces written into the 64×64 accumulator cover it. -/
theorem acoverA_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (y : S64x64.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5 x6).2.1 S64x64.size (by sl_kernel_rfl) y

/-- What is left in the 64×64 accumulator: its pieces read back over junk. -/
def accA_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) : Vec F S64x64 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 hc0 hc1 x0 x1 x2 x3 x4 x5 x6).2.1)

/-- The pieces written into the 64×1 accumulator cover it. -/
theorem acoverA_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (y : S64x1.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5 x6).2.2.1 S64x1.size (by sl_kernel_rfl) y

/-- What is left in the 64×1 accumulator: its pieces read back over junk. -/
def accA_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) : Vec F S64x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 hc0 hc1 x0 x1 x2 x3 x4 x5 x6).2.2.1)

/-! ## What the body leaves at a middle point -/

/-- At a middle point nothing is stored into the output window (it is idle there and not written back): no pieces — a
    placeholder, junk read back, that nothing consults. -/
def outB_7 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x10 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).1)

/-- The pieces written into the 64×64 accumulator cover it. -/
theorem acoverB_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x64.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.1 S64x64.size (by sl_kernel_rfl) y

/-- What is left in the 64×64 accumulator: its pieces read back over junk. -/
def accB_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x64 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.1)

/-- The pieces written into the 64×1 accumulator cover it. -/
theorem acoverB_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x1.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1 S64x1.size (by sl_kernel_rfl) y

/-- What is left in the 64×1 accumulator: its pieces read back over junk. -/
def accB_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1)

/-! ## What the body leaves at the last point -/

/-- At the last point the one store into the output window covers its block. -/
theorem coverC_7 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x10.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).1 S64x10.size (by sl_kernel_rfl) y

/-- What the last point leaves in the output window's staging buffer: its pieces read back over junk. -/
def outC_7 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x10 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).1)

/-- The pieces written into the 64×64 accumulator cover it. -/
theorem acoverC_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x64.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.1 S64x64.size (by sl_kernel_rfl) y

/-- What is left in the 64×64 accumulator: its pieces read back over junk. -/
def accC_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x64 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.1)

/-- The pieces written into the 64×1 accumulator cover it. -/
theorem acoverC_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x1.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1 S64x1.size (by sl_kernel_rfl) y

/-- What is left in the 64×1 accumulator: its pieces read back over junk. -/
def accC_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1)

/-! ## What the output window's buffer and the two accumulators hold after each point -/

/-- THE ACCUMULATION. After the body at position `n`: (the output window's staging buffer, the 64×64 accumulator, the
    64×1 accumulator). Position 0 is the first point's case; a later position is the last point's case where
    `n % 20 = 19` and the middle case otherwise, each run at the point's memrefs and input blocks over what the position
    before left in the accumulators. -/
def outsAt1 (c : Dev nD) : (n : ℕ) → n < cfg1.N → Vec F S64x10 .f32 × Vec F S64x64 .f32 × Vec F S64x1 .f32
  | 0, hn =>
     (outA_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
      accA_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
      accA_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h1 : (n + 1) % 20 = 19 then
       (outC_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        accC_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        accC_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)
    else
       (outB_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        accB_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        accB_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)

/-- `outsAt1` at the first point. -/
theorem outsAt1_A (c : Dev nD) (t : Fin cfg1.N) (h0 : t.val % 20 = 0) (h1 : ¬t.val % 20 = 19) :
    outsAt1 V c t.val t.isLt =
     (outA_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
      accA_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
      accA_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (by exfalso; have hN : n + 1 < 20 := lt_of_lt_of_eq hn (show cfg1.N = 20 from N_1); (try dsimp only at h0); omega)

/-- `outsAt1` at a middle point: over what the point before left. -/
theorem outsAt1_B (c : Dev nD) (t : Fin cfg1.N) (h0 : ¬t.val % 20 = 0) (h1 : ¬t.val % 20 = 19) :
    outsAt1 V c t.val t.isLt =
     (outB_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      accB_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      accB_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- `outsAt1` at the last point: over what the point before left. -/
theorem outsAt1_C (c : Dev nD) (t : Fin cfg1.N) (h0 : ¬t.val % 20 = 0) (h1 : t.val % 20 = 19) :
    outsAt1 V c t.val t.isLt =
     (outC_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      accC_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      accC_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The invariant between points -/

/-- Before position `n`: before the first point the class's invariant (every scoped buffer that is no staging buffer of
    this region at anything, the generator register at some state); afterwards the other region's buffers at anything,
    each accumulator at what the point before left in it, the generator register at some state. -/
def PhiS (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others1 c ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop(others1 c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The region's proof data -/

/-- The proof data of this region on core `c`: the arrays as the region finds them; after the body at point `t` each
    input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the closed forms say which of the three cases the
    point is in; the invariant hands the body both accumulators — at anything at the first point, at what the point
    before left afterwards — and takes them back at this point's contents (the pieces cover them); the other region's
    buffers and the generator register pass through; the output window is handed back untouched where it is idle. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 20 = 0
  · have h1 : ¬t.val % 20 = 19 := by omega
    have hz : t.val = 0 := by omega
    rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
    rw [outsAt1_A V c t h0 h1]
    unfold accA_0 accA_1; (try dsimp only)
    rw [PhiS_castSucc V c t, PhiS_zero V c _ _ hz, PhiA1_eq]
    iintro ⟨⟨⟨R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [R1 R2 R3 R4 R5 R6 R7 R8 R9 R10 R11 HS0 HS1 Hg]
    · isplitl [R1 R2 R3 R4 R5 R6 R7 R8 R9 R10 R11 HS0 HS1]
      · isplitl [R1 R2 R3 R4 R5 R6 R7 R8 R9 R10 R11]
        · unfold others1
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          iexact R11
        isplitl [HS0]
        · unfold owns; iexists _; isplitr
          swap; · iexact HS0
          ipureintro; exact View.read_writes_of_cover _ _ _ _ _ (acoverA_0 c _ _ _ _ _ _ _ _ _ _ _ _ _ _ _ _ _ _ _ _ _ _ _ _ _ _ _ _ _ _)
        unfold owns; iexists _; isplitr
        swap; · iexact HS1
        ipureintro; exact View.read_writes_of_cover _ _ _ _ _ (acoverA_1 c _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun e => h0 (by rw [e])
    by_cases h1 : t.val % 20 = 19
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold outC_7 accC_0 accC_1; (try dsimp only)
      rw [PhiS_castSucc V c t, PhiS_pos V c _ _ hz]
      iintro ⟨⟨⟨R, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [R HS0 HS1 Hg]
      · isplitl [R HS0 HS1]
        · isplitl [R]; · iexact R
          isplitl [HS0]
          · unfold owns; iexists _; isplitr
            swap; · iexact HS0
            ipureintro; exact View.read_writes_of_cover _ _ _ _ _ (acoverC_0 c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (acoverC_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverC_7 c _ _ _ _ _ _ _ _ _ _ _ _ _ _ _ _ _ _ _ _ _ _ _ _ _ _ _ _ _ _ _ _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold accB_0 accB_1; (try dsimp only)
      rw [PhiS_castSucc V c t, PhiS_pos V c _ _ hz]
      iintro ⟨⟨⟨R, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [R HS0 HS1 Hg]
      · isplitl [R HS0 HS1]
        · isplitl [R]; · iexact R
          isplitl [HS0]
          · unfold owns; iexists _; isplitr
            swap; · iexact HS0
            ipureintro; exact View.read_writes_of_cover _ _ _ _ _ (acoverB_0 c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (acoverB_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the accumulators hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 20 := N_1; omega), PhiA1_eq]
  unfold others1
  iintro ⟨⟨⟨R1, R2, R3, R4, R5, R6, R7, R8, R9, R10, R11⟩, HS0, HS1⟩, Hg⟩
  isplitl [R1 R2 R3 R4 R5 R6 R7 R8 R9 R10 R11 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    iexists _; iexact HS1
  iexact Hg

end Cert.Kernel.Hand

end
-- ==== Proof.KRun.lean ====
/-
  The whole program as the pipeline library runs it: a stretch of host operations, kernel region 0, a second stretch,
  kernel region 1.

  Between two items a core holds every unscoped buffer whole. The contents are named in order: the launch memory;
  after the first stretch; after region 0, which changes one array only (its output, 100000 × 64) and leaves there what
  its proof data's write-backs fold to; after the second stretch; after region 1, which changes its 64 × 10 output
  only. Each region is entered by splitting its windows' arrays out of the unscoped buffers and left by putting
  them back at the exit contents; the generator register goes into the region's invariant and comes back; no core
  owes another anything. Every weakly fair execution then terminates, and the final memory holds the last
  contents: the result array at what region 1's write-back leaves, every argument as launched.
-/
import proofs.«428876_j16381005267207_3_alg».proof.Proof.KReg0
import proofs.«428876_j16381005267207_3_alg».proof.Proof.KReg1
import proofs.«428876_j16381005267207_3_alg».proof.Proof.Gen.Kernel.Regions
import Idealize.ShloMosaic.Lib.Pipeline.RegionsLoop
import Idealize.ShloMosaic.Lib.Pipeline.FrameSuffix

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents between items -/

/-- After the first host stretch, read at the TensorCore's references: what region 0 is entered with. -/
abbrev V1r : (c : Dev nD) → (b : Ref sig .tc) → Buf (Elt F) ((c : Thread nD τ).loc b) := fun c b => V1 m c b

/-- After region 0: its arrays at what the pipeline leaves (the inputs as entered, the output's write-backs folded),
    every other buffer as entered. -/
def W2 (c : Dev nD) : Valuation τ sig (Elt F) :=
  Pipeline.withArrays spec0 c (V1 m c) fun w => (dat0 (V1r m) c).arrAt w cfg0.N
theorem W2_arr (c : Dev nD) (w : Fin cfg0.W) :
    W2 m c (Proc.devRef .tc (Pipeline.arrRef spec0 w)) = (dat0 (V1r m) c).arrAt w cfg0.N := by
  unfold W2; exact Pipeline.withArrays_arr spec0 launch0.win.arr_inj c _ _ w

/-- What region 0 leaves in the buffers it may change, for the generated valuations: only `main_v42` is read. -/
def outs0 : Outs (F := F) := fun _ r c => W2 m c (Proc.devRef .tc r)

/-- After the second host stretch, read at the TensorCore's references: what region 1 is entered with. -/
abbrev V3r : (c : Dev nD) → (b : Ref sig .tc) → Buf (Elt F) ((c : Thread nD τ).loc b) := fun c b => V3 m (outs0 m) c b

/-- After region 1: likewise. -/
def W4 (c : Dev nD) : Valuation τ sig (Elt F) :=
  Pipeline.withArrays spec1 c (V3 m (outs0 m) c) fun w => (dat1 (V3r m) c).arrAt w cfg1.N
theorem W4_arr (c : Dev nD) (w : Fin cfg1.W) :
    W4 m c (Proc.devRef .tc (Pipeline.arrRef spec1 w)) = (dat1 (V3r m) c).arrAt w cfg1.N := by
  unfold W4; exact Pipeline.withArrays_arr spec1 launch1.win.arr_inj c _ _ w

/-- What the two regions leave, as the generated valuations read it: after item 1 (`J = 2`) region 0's, after item 3
    region 1's. -/
def outs : Outs (F := F) := fun J r c => if J = 2 then W2 m c (Proc.devRef .tc r) else W4 m c (Proc.devRef .tc r)

theorem outs_two (r : Ref sig .tc) (c : Dev nD) : outs m 2 r c = W2 m c (Proc.devRef .tc r) := rfl
theorem outs_four (r : Ref sig .tc) (c : Dev nD) : outs m 4 r c = W4 m c (Proc.devRef .tc r) := rfl
/-- The generated valuations do not see the difference between `outs` and `outs0` before region 1. -/
theorem V2_outs (c : Dev nD) : V2 m (outs m) c = V2 m (outs0 m) c := rfl
theorem V3_outs (c : Dev nD) : V3 m (outs m) c = V3 m (outs0 m) c := rfl

abbrev V2r : (c : Dev nD) → (b : Ref sig .tc) → Buf (Elt F) ((c : Thread nD τ).loc b) := fun c b => V2 m (outs m) c b
abbrev V4r : (c : Dev nD) → (b : Ref sig .tc) → Buf (Elt F) ((c : Thread nD τ).loc b) := fun c b => V4 m (outs m) c b

/-- Region 0's output array is `main_v42`, region 1's `main_v61`. -/
theorem arr0_6 : Pipeline.arrRef spec0 6 = main_v42 := rfl
theorem arr1_7 : Pipeline.arrRef spec1 7 = main_v61 := rfl

/-- The result array ends at what region 1's write-back leaves. -/
theorem V4_v61 (c : Dev nD) : V4 m (outs m) c main_v61 = (dat1 (V3r m) c).arrAt 7 cfg1.N := by
  show Function.update (V3 m (outs m) c) main_v61 (outs m 4 main_v61 c) main_v61 = _
  rw [Function.update_self, outs_four]
  exact W4_arr m c 7
/-- Region 0's output array, as the second stretch and region 1 find it. -/
theorem V2_v42 (c : Dev nD) : V2 m (outs m) c main_v42 = (dat0 (V1r m) c).arrAt 6 cfg0.N := by
  show Function.update (V1 m c) main_v42 (outs m 2 main_v42 c) main_v42 = _
  rw [Function.update_self, outs_two]
  exact W2_arr m c 6

/-! ## Each region's arrays at its exit -/

theorem hF0 (c : Dev nD) (w : Fin cfg0.W) : (dat0 (V1r m) c).arrAt w cfg0.N = V2r m c (Pipeline.arrRef spec0 w) := by
  match w with
  | ⟨0, _⟩ => exact (((dat0 (V1r m) c).arrAt_in 0 rfl _).trans (A_eq0 (V1r m) c 0)).trans (V2_of m (outs m) c _ (by decide)).symm
  | ⟨1, _⟩ => exact (((dat0 (V1r m) c).arrAt_in 1 rfl _).trans (A_eq0 (V1r m) c 1)).trans (V2_of m (outs m) c _ (by decide)).symm
  | ⟨2, _⟩ => exact (((dat0 (V1r m) c).arrAt_in 2 rfl _).trans (A_eq0 (V1r m) c 2)).trans (V2_of m (outs m) c _ (by decide)).symm
  | ⟨3, _⟩ => exact (((dat0 (V1r m) c).arrAt_in 3 rfl _).trans (A_eq0 (V1r m) c 3)).trans (V2_of m (outs m) c _ (by decide)).symm
  | ⟨4, _⟩ => exact (((dat0 (V1r m) c).arrAt_in 4 rfl _).trans (A_eq0 (V1r m) c 4)).trans (V2_of m (outs m) c _ (by decide)).symm
  | ⟨5, _⟩ => exact (((dat0 (V1r m) c).arrAt_in 5 rfl _).trans (A_eq0 (V1r m) c 5)).trans (V2_of m (outs m) c _ (by decide)).symm
  | ⟨6, _⟩ => exact (V2_v42 m c).symm
theorem hrest0 (c : Dev nD) : ∀ b, b ∉ Finset.univ.image (Pipeline.arrRef spec0) → V2r m c b = V1r m c b :=
  fun b hb => V2_of m (outs m) c b (fun h => hb (Finset.mem_image.mpr ⟨6, Finset.mem_univ _, (List.mem_singleton.mp h).symm⟩))

theorem hF1 (c : Dev nD) (w : Fin cfg1.W) : (dat1 (V3r m) c).arrAt w cfg1.N = V4r m c (Pipeline.arrRef spec1 w) := by
  have key : ∀ (w : Fin cfg1.W), (cfg1.win w).isOut = false → Pipeline.arrRef spec1 w ∉ ([main_v61] : List (Ref sig .tc)) →
      (dat1 (V3r m) c).arrAt w cfg1.N = V4 m (outs m) c (Pipeline.arrRef spec1 w) := fun w hw hne =>
    (((dat1 (V3r m) c).arrAt_in w hw _).trans (A_eq1 (V3r m) c w)).trans
      ((congrFun (V3_outs m c) (Proc.devRef .tc (Pipeline.arrRef spec1 w))).symm.trans (V4_of m (outs m) c (Pipeline.arrRef spec1 w) hne).symm)
  match w with
  | ⟨0, _⟩ => exact key 0 rfl (by decide)
  | ⟨1, _⟩ => exact key 1 rfl (by decide)
  | ⟨2, _⟩ => exact key 2 rfl (by decide)
  | ⟨3, _⟩ => exact key 3 rfl (by decide)
  | ⟨4, _⟩ => exact key 4 rfl (by decide)
  | ⟨5, _⟩ => exact key 5 rfl (by decide)
  | ⟨6, _⟩ => exact key 6 rfl (by decide)
  | ⟨7, _⟩ => exact (V4_v61 m c).symm
theorem hrest1 (c : Dev nD) : ∀ b, b ∉ Finset.univ.image (Pipeline.arrRef spec1) → V4r m c b = V3r m c b :=
  fun b hb => (V4_of m (outs m) c b (fun h => hb (Finset.mem_image.mpr ⟨7, Finset.mem_univ _, (List.mem_singleton.mp h).symm⟩))).trans
    (congrFun (V3_outs m c) (Proc.devRef .tc b))

/-! ## The proof data family and the thread state -/

/-- Every pipeline's proof data, each at its region's entry contents: a literal match. -/
def pdats : (p : Fin 2) → (c : Dev nD) → Dat τ (Elt F) Unit ℕ (UR sig nD τ) ℕ (Pipeline.pin (pcfgs (F := F)) adm p) c
  | ⟨0, _⟩ => fun c => dat0 (V1r m) c
  | ⟨1, _⟩ => fun c => dat1 (V3r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0: entered from the contents after the first stretch, left at the contents the second stretch starts from. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1r m c) (V2r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from the contents after the second stretch, left at the last contents. Its invariant starts as
    the bare one and gives the bare one back at the end (the running sums it kept between points are forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none, show V3 m (outs m) c = V3 m (outs0 m) c from V3_outs m c]
    have hsplit := Pipeline.arrays_of_unscopedBufs (p := 1) (pcfgs (F := F)) adm (pdats m) launch1.win launch1.arr_whole c
      ((pdats m 1 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V3r m) c)
    unfold Pipeline.ΦA
    iintro ⟨Hp, -, Hr⟩
    isplitl [Hr]; · iexact Hr
    iexact Hp
  hout c := by
    rw [Pipeline.ownSems0_none]
    refine (hout1 (V3r m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3r m c) (V4r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The riding state ends owing nothing. -/
theorem howes (c : Dev nD) : (Rst c : sProp 𝕄) ⊢ iprop(∃ W, owes (c : Thread nD τ) (0 : CellTallies nD τ sig Unit) W) := by
  iintro ⟨-, H⟩; iexact H

/-! ## The launch -/

set_option backward.isDefEq.respectTransparency.types false in
/-- THE RUN. From any memory with zero counters every weakly fair execution of the program terminates, nothing
    faulting; the final memory has the result array at what region 1's write-back leaves and every argument array
    as launched. -/
theorem run_main : θ_run defs (onTc (τ := τ) (main (F := F))) ⟨m, fun _ => 0, ρ⟩ (fun r => ∀ c : Dev nD,
      r.2.mem ((c.tc : Thread nD τ).loc main_v61) = (dat1 (V3r m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m) () cellOf_inj emb₁ defs₀ 𝒱₀ L lv m ρ main
    (segs m (outs m) 𝒱₀ L lv Est () (pdats m) (reg0 m) (reg1 m))
    (fun c Q => by
      rewrite [main_chain c, Seg.run_eq_chain,
        show (segs m (outs m) 𝒱₀ L lv Est () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V4 m (outs m) c))
    (hch := fun c => ⟨.rfl, .rfl, .rfl, .rfl, (BI.Entails.refl _).trans (sep_mono .rfl (howes c))⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v61) = (dat1 (V3r m) c).arrAt 7 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => by
      unfold StableHlo.held
      iintro ⟨Hh, HSI⟩
      ihave Hr := (pointsTo_read_all (Pipeline.ucRefs τ sig) (fun b => ((c : Thread nD τ).1, b)) (V4 m (outs m) c) s') $$ [Hh HSI]
      · isplitl [Hh] <;> iassumption
      icases Hr with ⟨%h, HSI⟩
      imodintro
      isplitr
      · ipureintro
        exact ⟨(h (Proc.devRef .tc main_v61) (mem_uc main_v61 (by decide))).trans (V4_v61 m c),
          (h (Proc.devRef .tc main_arg0) (mem_uc main_arg0 (by decide))).trans (V4_main_arg0 m (outs m) c),
          (h (Proc.devRef .tc main_arg1) (mem_uc main_arg1 (by decide))).trans (V4_main_arg1 m (outs m) c),
          (h (Proc.devRef .tc main_arg2) (mem_uc main_arg2 (by decide))).trans (V4_main_arg2 m (outs m) c),
          (h (Proc.devRef .tc main_arg3) (mem_uc main_arg3 (by decide))).trans (V4_main_arg3 m (outs m) c),
          (h (Proc.devRef .tc main_arg4) (mem_uc main_arg4 (by decide))).trans (V4_main_arg4 m (outs m) c),
          (h (Proc.devRef .tc main_arg5) (mem_uc main_arg5 (by decide))).trans (V4_main_arg5 m (outs m) c),
          (h (Proc.devRef .tc main_arg6) (mem_uc main_arg6 (by decide))).trans (V4_main_arg6 m (outs m) c),
          (h (Proc.devRef .tc main_arg7) (mem_uc main_arg7 (by decide))).trans (V4_main_arg7 m (outs m) c),
          (h (Proc.devRef .tc main_arg8) (mem_uc main_arg8 (by decide))).trans (V4_main_arg8 m (outs m) c)⟩
      · iexact HSI)
    (hQ := fun _ h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Hand

end
-- ==== Proof.Spec.lean ====
/-
  The two programs' results as index-by-index formulas over the argument arrays, at the extended reals.

  A graph of 100000 nodes and 1600000 directed edges (row 0 of the edge array: sources, row 1: targets). Two
  graph-convolution layers with self loops and symmetric normalisation, a rectifier after each, then the mean of
  the node features over each of 64 graphs and a linear layer.

  A node's degree counts the edges whose target word, read as a signed integer, is that node, plus one for the
  self loop (a target word naming no node is dropped by the accumulating scatter). An edge's weight is the
  product of the inverse square roots of the degrees of its two end nodes, each end read as a table row: a
  negative word is first raised by 100000, then the word is clamped into the table.

  `out` is the reference's arrangement: each layer multiplies by its weight matrix first and then sums over
  the edges. `outK` is the kernel's: the first layer sums the raw three-column features over the edges and
  multiplies afterwards, and the per-graph sums are accumulated over twenty blocks of 5000 nodes through 0/1
  membership factors.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![100000, 3]⟩
abbrev SE : Shape := ⟨2, ![2, 1600000]⟩
abbrev SB : Shape := ⟨1, ![100000]⟩
abbrev SW1 : Shape := ⟨2, ![3, 64]⟩
abbrev SH : Shape := ⟨1, ![64]⟩
abbrev SW2 : Shape := ⟨2, ![64, 64]⟩
abbrev SWf : Shape := ⟨2, ![64, 10]⟩
abbrev SO : Shape := ⟨1, ![10]⟩

/-- The nine argument arrays. -/
structure In where
  x : FVec Ideal SX .f32
  ei : IVec SE 32
  batch : IVec SB 32
  W1 : FVec Ideal SW1 .f32
  b1 : FVec Ideal SH .f32
  W2 : FVec Ideal SW2 .f32
  b2 : FVec Ideal SH .f32
  Wfc : FVec Ideal SWf .f32
  bfc : FVec Ideal SO .f32

/-- The float words the programs spell: 0.0 and 1.0 in f32, 1.0 in bf16. -/
def zero : EReal := Ideal.ofBits .f32 0x00000000#32
def one : EReal := Ideal.ofBits .f32 0x3F800000#32
def oneB : EReal := Ideal.ofBits .bf16 0x3F80#16

/-- A negative index word is raised by the table's length (jnp's indexing of a table by a word). -/
def nrm (w : BitVec 32) : BitVec 32 := Scalar.select (IntOp.cmpi .slt w 0#32) (IntOp.addi w 100000#32) w

/-- The table row an index word reads: raised if negative, then clamped into the table. -/
def row (w : BitVec 32) : Fin 100000 := ⟨min (nrm w).toInt.toNat (100000 - 1), by omega⟩

/-- The 0/1 factor "node word `b` names graph `g`", as the kernel computes it. -/
def oh (b : BitVec 32) (g : Fin 64) : EReal :=
  FloatOps.sitofp (F := Ideal) .f32 ((IntOp.cmpi .eq b (BitVec.ofNat 32 g.val)).setWidth 32)

/-- Row `r` of block `t` of the node axis (blocks of 5000 rows). -/
def rowAt (t : ℕ) (r : Fin 5000) : Fin 100000 := ⟨(5000 * t + r.val) % 100000, Nat.mod_lt _ (by norm_num)⟩

variable (a : In)

def srcW (e : Fin 1600000) : BitVec 32 := a.ei (ix2 0 e)
def dstW (e : Fin 1600000) : BitVec 32 := a.ei (ix2 1 e)

/-- The edges whose target is node `n`. -/
def into (n : Fin 100000) : Finset (Fin 1600000) :=
  Finset.univ.filter fun e => (dstW a e).toInt = (n.val : ℤ)

def deg (n : Fin 100000) : EReal := (zero + ∑ _e ∈ into a n, one) + one
def dinv (n : Fin 100000) : EReal := Ideal.rsqrt (deg a n)
def dinv2 (n : Fin 100000) : EReal := dinv a n * dinv a n
def norm (e : Fin 1600000) : EReal := dinv a (row (srcW a e)) * dinv a (row (dstW a e))

/-! ## The reference's arrangement -/

def xw (n : Fin 100000) (k : Fin 64) : EReal := ∑ i : Fin 3, a.x (ix2 n i) * a.W1 (ix2 i k)
def agg1 (n : Fin 100000) (k : Fin 64) : EReal := zero + ∑ e ∈ into a n, xw a (row (srcW a e)) k * norm a e
def h1 (n : Fin 100000) (k : Fin 64) : EReal := max ((agg1 a n k + xw a n k * dinv2 a n) + a.b1 (ix1 k)) zero
def hw2 (n : Fin 100000) (j : Fin 64) : EReal := ∑ k : Fin 64, h1 a n k * a.W2 (ix2 k j)
def agg2 (n : Fin 100000) (j : Fin 64) : EReal := zero + ∑ e ∈ into a n, hw2 a (row (srcW a e)) j * norm a e
def h2 (n : Fin 100000) (j : Fin 64) : EReal := max ((agg2 a n j + hw2 a n j * dinv2 a n) + a.b2 (ix1 j)) zero

/-- The nodes of graph `g`. -/
def members (g : Fin 64) : Finset (Fin 100000) :=
  Finset.univ.filter fun n => (a.batch (ix1 n)).toInt = (g.val : ℤ)

def cnt (g : Fin 64) : EReal := zero + ∑ _n ∈ members a g, one
def pool (g : Fin 64) (j : Fin 64) : EReal := zero + ∑ n ∈ members a g, h2 a n j
def out (g : Fin 64) (o : Fin 10) : EReal :=
  (∑ j : Fin 64, Ideal.div (pool a g j) (max (cnt a g) one) * a.Wfc (ix2 j o)) + a.bfc (ix1 o)

/-! ## The kernel's arrangement -/

def aggx (n : Fin 100000) (i : Fin 3) : EReal := zero + ∑ e ∈ into a n, a.x (ix2 (row (srcW a e)) i) * norm a e
def h1K (n : Fin 100000) (k : Fin 64) : EReal :=
  max ((∑ i : Fin 3, (aggx a n i + a.x (ix2 n i) * dinv2 a n) * a.W1 (ix2 i k)) + a.b1 (ix1 k)) zero
def hw2K (n : Fin 100000) (j : Fin 64) : EReal := ∑ k : Fin 64, h1K a n k * a.W2 (ix2 k j)
def agg2K (n : Fin 100000) (j : Fin 64) : EReal := zero + ∑ e ∈ into a n, hw2K a (row (srcW a e)) j * norm a e
def h2K (n : Fin 100000) (j : Fin 64) : EReal := max ((agg2K a n j + hw2K a n j * dinv2 a n) + a.b2 (ix1 j)) zero

/-- The per-graph feature sums after the first `t` blocks: zero, then block by block. -/
def accK : ℕ → Fin 64 → Fin 64 → EReal
  | 0, _, _ => zero
  | t + 1, g, j => accK t g j + ∑ r : Fin 5000, oh (a.batch (ix1 (rowAt t r))) g * h2K a (rowAt t r) j

/-- The per-graph node counts after the first `t` blocks. -/
def cntK : ℕ → Fin 64 → EReal
  | 0, _ => zero
  | t + 1, g => cntK t g + ∑ r : Fin 5000, oh (a.batch (ix1 (rowAt t r))) g * oneB

def outK (g : Fin 64) (o : Fin 10) : EReal :=
  (∑ j : Fin 64, Ideal.div (accK a 20 g j) (max (cntK a 20 g) one) * a.Wfc (ix2 j o)) + a.bfc (ix1 o)

end Cert.Spec

end
-- ==== Proof.KIForms.lean ====
/-
  What the two kernel regions compute, as index-by-index formulas over the arrays a region is entered with, at the
  extended reals.

  Region 0 takes the aggregated raw features (100000 × 3), the node features, the squared inverse-root degrees as a
  column, the first weight matrix, the first bias as a row and the second weight matrix, and leaves at (n, q)
      Σ_k max((Σ_i (aggx[n,i] + x[n,i] · d2[n,0]) · W1[i,k]) + b1[0,k], 0) · W2[k,q].
  Region 1 takes the graph words as a column, the aggregated second-layer features, region 0's array, the same column of
  squared inverse-root degrees, the second bias as a row, the last weight matrix and the last bias as a row; over its
  twenty blocks of 5000 rows it accumulates, per graph g, the 0/1-weighted sums of max(agg[n,j] + h[n,j] · d2[n,0] +
  b2[0,j], 0) and of ones, and at the end leaves at (g, o)
      (Σ_j (ACC[g,j] / max(CNT[g], 1)) · Wfc[j,o]) + bfc[0,o].
-/
import proofs.«428876_j16381005267207_3_alg».proof.KernelIdeal
import proofs.«428876_j16381005267207_3_alg».proof.Proof.Spec
import Idealize.ShloMosaic.PureOps.Ideal
import Idealize.ShloMosaic.Lib.ValueIdx

noncomputable section

open scoped BigOperators

namespace Cert.KernelIdeal.Hand

open Cert.KernelIdeal Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-! ## The arrays, each named at its literal type -/

abbrev aAggx : S100000x3.Idx → EReal := V c main_v39
abbrev aX : S100000x3.Idx → EReal := V c main_arg0
abbrev aD2 : S100000x1.Idx → EReal := V c main_v40
abbrev aW1 : S3x64.Idx → EReal := V c main_arg3
abbrev aB1 : S1x64.Idx → EReal := V c main_v41
abbrev aW2 : S64x64.Idx → EReal := V c main_arg5
abbrev bBatch : S100000x1.Idx → BitVec 32 := V c main_v57
abbrev bAgg : S100000x64.Idx → EReal := V c main_v56
abbrev bH : S100000x64.Idx → EReal := V c main_v42
abbrev bD2 : S100000x1.Idx → EReal := V c main_v58
abbrev bB2 : S1x64.Idx → EReal := V c main_v59
abbrev bWfc : S64x10.Idx → EReal := V c main_arg7
abbrev bBfc : S1x10.Idx → EReal := V c main_v60

/-! ## Region 0 -/

/-- Region 0's result at row `n`, column `q`, over the arrays `V` holds at its six input windows. -/
def H2pre (n : Fin 100000) (q : Fin 64) : EReal :=
  ∑ k : Fin 64, max ((∑ i : Fin 3, (aAggx V c (ix2 n i) + aX V c (ix2 n i) * aD2 V c (ix2 n 0)) * aW1 V c (ix2 i k))
      + aB1 V c (ix2 0 k)) Cert.Spec.zero * aW2 V c (ix2 k q)

/-! ## Region 1 -/

/-- The rectified second-layer feature of node `n`, column `j`, over the arrays `V` holds at region 1's windows. -/
def Relu2 (n : Fin 100000) (j : Fin 64) : EReal :=
  max ((bAgg V c (ix2 n j) + bH V c (ix2 n j) * bD2 V c (ix2 n 0)) + bB2 V c (ix2 0 j)) Cert.Spec.zero

/-- The 0/1 factor "node `n` is in graph `g`", from the graph words' column. -/
def Memb (n : Fin 100000) (g : Fin 64) : EReal := Cert.Spec.oh (bBatch V c (ix2 n 0)) g

/-- The per-graph feature sums after the first `t` blocks. -/
def ACC : ℕ → Fin 64 → Fin 64 → EReal
  | 0, _, _ => Cert.Spec.zero
  | t + 1, g, j => ACC t g j + ∑ r : Fin 5000, Memb V c (Cert.Spec.rowAt t r) g * Relu2 V c (Cert.Spec.rowAt t r) j

/-- The per-graph node counts after the first `t` blocks. -/
def CNT : ℕ → Fin 64 → EReal
  | 0, _ => Cert.Spec.zero
  | t + 1, g => CNT t g + ∑ r : Fin 5000, Memb V c (Cert.Spec.rowAt t r) g * Cert.Spec.oneB

/-- Region 1's result at graph `g`, column `o`. -/
def OUT1 (g : Fin 64) (o : Fin 10) : EReal :=
  (∑ j : Fin 64, Ideal.div (ACC V c 20 g j) (max (CNT V c 20 g) Cert.Spec.one) * bWfc V c (ix2 j o)) + bBfc V c (ix2 0 o)

end Cert.KernelIdeal.Hand

end
-- ==== Proof.KIReg0.lean ====
/-
  Kernel region 0 (the first graph-convolution layer fused with the second layer's matrix product), as the
  pipeline runs it, at the buffer contents `V` the region is entered with.

  The grid has 20 points; point `t` is handed rows [5000 t, 5000 t + 5000) of the aggregated features, of the node
  features and of the squared inverse-root degrees, and the whole of the two weight matrices and the bias row (fetched
  once, at the first point). The body loads all six, stores ONE value — the skeleton's payload of the six loads — over
  the whole of the output block, and keeps nothing between points. So the output block after the body is that payload
  of the point's six input blocks, every input block is left in place, and the region's invariant is the bare one
  (the scoped buffers no window stages, the generator register).
-/
import proofs.«428876_j16381005267207_3_alg».proof.Proof.Gen.KernelIdeal.Launch
import proofs.«428876_j16381005267207_3_alg».proof.Proof.Gen.KernelIdeal.Skeleton
import proofs.«428876_j16381005267207_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not (unfetched, the block index has not moved), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not (unfetched, the block index has not moved), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not (unfetched, the block index has not moved), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not (unfetched, the block index has not moved), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or not (unfetched, the block index has not moved), for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there
    or not (unfetched, the block index has not moved), for any proof data whose array is `V`'s and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rNx3 : Rect S5000x3 := Rect.unit (s := S5000x3) ![0, 0] S5000x3.size inb_S5000x3_S5000x3_0_0
abbrev rNx1 : Rect S5000x1 := Rect.unit (s := S5000x1) ![0, 0] S5000x1.size inb_S5000x1_S5000x1_0_0
abbrev r3xH : Rect S3x64 := Rect.unit (s := S3x64) ![0, 0] S3x64.size inb_S3x64_S3x64_0_0
abbrev r1xH : Rect S1x64 := Rect.unit (s := S1x64) ![0, 0] S1x64.size inb_S1x64_S1x64_0_0
abbrev rHxH : Rect S64x64 := Rect.unit (s := S64x64) ![0, 0] S64x64.size inb_S64x64_S64x64_0_0
abbrev rNxH : Rect S5000x64 := Rect.unit (s := S5000x64) ![0, 0] S5000x64.size inb_S5000x64_S5000x64_0_0

/-! ## What the body leaves in the output window's buffer -/

/-- The output block after the body, from the six input blocks: its one store, of the payload of the six loads. -/
def out0_6 (x0 : Vec F S5000x3 .f32) (x1 : Vec F S5000x3 .f32) (x2 : Vec F S5000x1 .f32) (x3 : Vec F S3x64 .f32)
    (x4 : Vec F S1x64 .f32) (x5 : Vec F S64x64 .f32) : Vec F S5000x64 .bf16 :=
  View.canon [⟨rNxH, k0_pay1 (View.ld x0 rNx3) (View.ld x1 rNx3) (View.ld x2 rNx1) (View.ld x3 r3xH) (View.ld x4 r1xH) (View.ld x5 rHxH)⟩]

/-- The one store covers the buffer. -/
theorem cover0_6 (p0 : Vec F S5000x64 .bf16) (y : S5000x64.Idx) :
    ∃ pc ∈ ([⟨rNxH, p0⟩] : List (View.Piece (Elt F) S5000x64 .bf16)), y ∈ pc.1.set :=
  View.cover_of_tiled [⟨rNxH, p0⟩] S5000x64.size (by rfl) y

/-! ## The body's triple -/

set_option maxHeartbeats 2000000 in
/-- The body on whole staging memrefs — the six inputs' at their contents, the output's at anything — runs to the
    continuation holding the inputs' as they were and the output's at `out0_6` of them. -/
theorem sound_kernel0 (c : Dev nD) (E : Set ℕ) (i : grid0.Coords)
    (arg1 : Memref sig .tc .vmem S5000x3 .f32) (harg1 : arg1.IsWhole) (arg2 : Memref sig .tc .vmem S5000x3 .f32) (harg2 : arg2.IsWhole)
    (arg3 : Memref sig .tc .vmem S5000x1 .f32) (harg3 : arg3.IsWhole) (arg4 : Memref sig .tc .vmem S3x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S5000x64 .bf16) (harg7 : arg7.IsWhole)
    (x0 : Vec F S5000x3 .f32) (x1 : Vec F S5000x3 .f32) (x2 : Vec F S5000x1 .f32) (x3 : Vec F S3x64 .f32)
    (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gcn1_matmul_kernel i arg1 harg1 arg2 harg2 arg3 harg3 arg4 harg4 arg5 harg5 arg6 harg6 arg7 harg7) K := by
  simp only [cc0__gcn1_matmul_kernel_eq_skeleton]; unfold cc0__gcn1_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at `out0_6` of the six input blocks; the bare invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1Runs.lean ====
import proofs.«428876_j16381005267207_3_alg».proof.Proof.Gen.KernelIdeal.Launch
import proofs.«428876_j16381005267207_3_alg».proof.Proof.Gen.KernelIdeal.Skeleton
import proofs.«428876_j16381005267207_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 1 (the pooling-and-classifier call): what its three runs share

The region is entered with the TensorCore's buffers at contents `V`. Its grid has twenty points; two
scratch accumulators — a 64×64 sum and a 64×1 count — are reset at the first point, added to at every
point, and turned into the 64×10 output at the last point. -/

variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the point
    fetches it: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the point
    fetches it: where it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the point
    fetches it: where it is not fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the point
    fetches it: where it is not fetched the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the point
    fetches it: where it is not fetched the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the point
    fetches it: where it is not fetched the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether or not the point
    fetches it: where it is not fetched the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first branch (reset both accumulators): the grid coordinate is zero. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second branch (divide, multiply by the classifier, store the output): the grid coordinate is nineteen. -/
abbrev cond1_1 (i : grid1.Coords) : Prop := k1_cond2 i = 1#1
/-- It holds at the last point only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- Window 0 is an input: never idle. -/
theorem liveAt1_0 : ∀ t : Fin cfg1.N, cfg1.idle 0 (grid1.coords t) = false := by decide +kernel
/-- Window 1 is an input: never idle. -/
theorem liveAt1_1 : ∀ t : Fin cfg1.N, cfg1.idle 1 (grid1.coords t) = false := by decide +kernel
/-- Window 2 is an input: never idle. -/
theorem liveAt1_2 : ∀ t : Fin cfg1.N, cfg1.idle 2 (grid1.coords t) = false := by decide +kernel
/-- Window 3 is an input: never idle. -/
theorem liveAt1_3 : ∀ t : Fin cfg1.N, cfg1.idle 3 (grid1.coords t) = false := by decide +kernel
/-- Window 4 is an input: never idle. -/
theorem liveAt1_4 : ∀ t : Fin cfg1.N, cfg1.idle 4 (grid1.coords t) = false := by decide +kernel
/-- Window 5 is an input: never idle. -/
theorem liveAt1_5 : ∀ t : Fin cfg1.N, cfg1.idle 5 (grid1.coords t) = false := by decide +kernel
/-- Window 6 is an input: never idle. -/
theorem liveAt1_6 : ∀ t : Fin cfg1.N, cfg1.idle 6 (grid1.coords t) = false := by decide +kernel
/-- At the first point the output window is idle: nothing is stored into it. -/
theorem idleAt1_7_A : ∀ t : Fin cfg1.N, cond1_0 (grid1.coords t) → ¬cond1_1 (grid1.coords t) → cfg1.idle 7 (grid1.coords t) = true := by decide +kernel
/-- And its block is not written back there. -/
theorem noFlush1_7_A : ∀ t : Fin cfg1.N, cond1_0 (grid1.coords t) → ¬cond1_1 (grid1.coords t) → (cfg1.win 7).flush t = false := by decide +kernel
/-- At the middle points the output window is idle. -/
theorem idleAt1_7_B : ∀ t : Fin cfg1.N, ¬cond1_0 (grid1.coords t) → ¬cond1_1 (grid1.coords t) → cfg1.idle 7 (grid1.coords t) = true := by decide +kernel
/-- And its block is not written back there. -/
theorem noFlush1_7_B : ∀ t : Fin cfg1.N, ¬cond1_0 (grid1.coords t) → ¬cond1_1 (grid1.coords t) → (cfg1.win 7).flush t = false := by decide +kernel
/-- At the last point the output window is live: the body stores into it. -/
theorem liveAt1_7_C : ∀ t : Fin cfg1.N, ¬cond1_0 (grid1.coords t) → cond1_1 (grid1.coords t) → cfg1.idle 7 (grid1.coords t) = false := by decide +kernel

/-! ## The memrefs the body is called with -/

/-- The output window's one staging buffer as a view: its contents are stated through it. -/
abbrev VO1_7 : View sig .tc .vmem S64x10 .f32 := (Memref.whole cc1_stg7_0 : Memref sig .tc .vmem S64x10 .f32).view
abbrev ms1_0 (t : Fin cfg1.N) : Memref sig .tc .vmem S5000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x10 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x10 .f32 := win1_7.stage (cfg1.slots t 7)
abbrev hs1_7 (t : Fin cfg1.N) : (ms1_7 t).IsWhole := hstage1_7 ((cfg1.slots t 7).cast nbuf1_7)
/-- The two accumulators: whole scoped buffers of the kernel's own, passed beside the windows. -/
abbrev scM1_0 : Memref sig .tc .vmem S64x64 .f32 := Memref.whole cc1_scratch0
abbrev scM1_1 : Memref sig .tc .vmem S64x1 .f32 := Memref.whole cc1_scratch1
/-- The same as views. -/
abbrev VS1_0 : View sig .tc .vmem S64x64 .f32 := scM1_0.view
abbrev VS1_1 : View sig .tc .vmem S64x1 .f32 := scM1_1.view

/-! ## The region's invariant, its parts named -/

/-- The scoped buffers that belong to the other region (its staging buffers), each at some contents: this region
    never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class's invariant, read as: the other region's eleven buffers, the two accumulators owned at some
    contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body's run at the first point -/

set_option maxHeartbeats 1000000 in
/-- CASE A (first branch taken, second not: the first point). On whole memrefs — the inputs' at their contents, the
    output's at contents handed back untouched, both accumulators at anything — the body runs to the continuation
    holding the inputs' as they were and each accumulator with its stores written, as pieces (last first): a
    reset and then an update. The pieces are the witness the run finds. -/
noncomputable def kernelRun1_A (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) :
    Σ' (L7 : List (View.Piece (Elt F) S64x10 .f32)) (LS0 : List (View.Piece (Elt F) S64x64 .f32)), { LS1 : List (View.Piece (Elt F) S64x1 .f32) //
      ∀ (xi7 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__combine_pool_fc_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc1__combine_pool_fc_kernel_eq_skeleton]; unfold cc1__combine_pool_fc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-! ## The body's run at a middle point -/

set_option maxHeartbeats 1000000 in
/-- CASE B (neither branch taken: points 1 to 18). On whole memrefs — the inputs' at their contents, the output's at
    contents handed back untouched, the accumulators at what the point before left (`xs0`, `xs1`) — the body runs to
    the continuation holding the inputs' as they were and each accumulator with its one update written. -/
noncomputable def kernelRun1_B (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) :
    Σ' (L7 : List (View.Piece (Elt F) S64x10 .f32)) (LS0 : List (View.Piece (Elt F) S64x64 .f32)), { LS1 : List (View.Piece (Elt F) S64x1 .f32) //
      ∀ (xi7 : Vec F S64x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__combine_pool_fc_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc1__combine_pool_fc_kernel_eq_skeleton]; unfold cc1__combine_pool_fc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

/-! ## The body's run at the last point -/

set_option maxHeartbeats 1000000 in
/-- CASE C (first branch not taken, second taken: the last point). On whole memrefs — the inputs' at their contents,
    the output's at anything, the accumulators at what the point before left — the body runs to the continuation
    holding the inputs' as they were, each accumulator with its one update written and the output's buffer with
    its one store written. -/
noncomputable def kernelRun1_C (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) :
    Σ' (L7 : List (View.Piece (Elt F) S64x10 .f32)) (LS0 : List (View.Piece (Elt F) S64x64 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__combine_pool_fc_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__combine_pool_fc_kernel_eq_skeleton]; unfold cc1__combine_pool_fc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelIdeal.Hand

end
-- ==== Proof.KIReg1.lean ====
import proofs.«428876_j16381005267207_3_alg».proof.Proof.KIReg1Runs

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 1: what each point leaves, the invariant, the proof data and the body obligation

Stated at the TensorCore's buffer contents `V` when the region is entered. -/

variable (V : (c : Dev nD) → (b : Ref sig .tc) → Buf (Elt F) ((c : Thread nD τ).loc b))

/-! ## What the body leaves at the first point -/

/-- At the first point nothing is stored into the output window (it is idle there and not written back): no pieces — a
    placeholder, junk read back, that nothing consults. -/
def outA_7 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) : Vec F S64x10 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 hc1 x0 x1 x2 x3 x4 x5 x6).1)

/-- The pieces written into the 64×64 accumulator cover it. -/
theorem acoverA_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (y : S64x64.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5 x6).2.1 S64x64.size (by sl_kernel_rfl) y

/-- What is left in the 64×64 accumulator: its pieces read back over junk. -/
def accA_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) : Vec F S64x64 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 hc0 hc1 x0 x1 x2 x3 x4 x5 x6).2.1)

/-- The pieces written into the 64×1 accumulator cover it. -/
theorem acoverA_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (y : S64x1.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3 x4 x5 x6).2.2.1 S64x1.size (by sl_kernel_rfl) y

/-- What is left in the 64×1 accumulator: its pieces read back over junk. -/
def accA_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) : Vec F S64x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 hc0 hc1 x0 x1 x2 x3 x4 x5 x6).2.2.1)

/-! ## What the body leaves at a middle point -/

/-- At a middle point nothing is stored into the output window (it is idle there and not written back): no pieces — a
    placeholder, junk read back, that nothing consults. -/
def outB_7 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x10 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).1)

/-- The pieces written into the 64×64 accumulator cover it. -/
theorem acoverB_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x64.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.1 S64x64.size (by sl_kernel_rfl) y

/-- What is left in the 64×64 accumulator: its pieces read back over junk. -/
def accB_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x64 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.1)

/-- The pieces written into the 64×1 accumulator cover it. -/
theorem acoverB_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x1.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1 S64x1.size (by sl_kernel_rfl) y

/-- What is left in the 64×1 accumulator: its pieces read back over junk. -/
def accB_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1)

/-! ## What the body leaves at the last point -/

/-- At the last point the one store into the output window covers its block. -/
theorem coverC_7 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x10.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).1 S64x10.size (by sl_kernel_rfl) y

/-- What the last point leaves in the output window's staging buffer: its pieces read back over junk. -/
def outC_7 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x10 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).1)

/-- The pieces written into the 64×64 accumulator cover it. -/
theorem acoverC_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x64.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.1 S64x64.size (by sl_kernel_rfl) y

/-- What is left in the 64×64 accumulator: its pieces read back over junk. -/
def accC_0 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x64 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.1)

/-- The pieces written into the 64×1 accumulator cover it. -/
theorem acoverC_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) (y : S64x1.Idx) :
    ∃ pc ∈ (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1 S64x1.size (by sl_kernel_rfl) y

/-- What is left in the 64×1 accumulator: its pieces read back over junk. -/
def accC_1 (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) : Vec F S64x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1)

/-! ## What the output window's buffer and the two accumulators hold after each point -/

/-- THE ACCUMULATION. After the body at position `n`: (the output window's staging buffer, the 64×64 accumulator, the
    64×1 accumulator). Position 0 is the first point's case; a later position is the last point's case where
    `n % 20 = 19` and the middle case otherwise, each run at the point's memrefs and input blocks over what the position
    before left in the accumulators. -/
def outsAt1 (c : Dev nD) : (n : ℕ) → n < cfg1.N → Vec F S64x10 .f32 × Vec F S64x64 .f32 × Vec F S64x1 .f32
  | 0, hn =>
     (outA_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
      accA_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
      accA_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h1 : (n + 1) % 20 = 19 then
       (outC_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        accC_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        accC_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)
    else
       (outB_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        accB_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2,
        accB_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => (fun h => by have hN : n + 1 < 20 := lt_of_lt_of_eq hn (show cfg1.N = 20 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)

/-- `outsAt1` at the first point. -/
theorem outsAt1_A (c : Dev nD) (t : Fin cfg1.N) (h0 : t.val % 20 = 0) (h1 : ¬t.val % 20 = 19) :
    outsAt1 V c t.val t.isLt =
     (outA_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
      accA_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
      accA_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (by exfalso; have hN : n + 1 < 20 := lt_of_lt_of_eq hn (show cfg1.N = 20 from N_1); (try dsimp only at h0); omega)

/-- `outsAt1` at a middle point: over what the point before left. -/
theorem outsAt1_B (c : Dev nD) (t : Fin cfg1.N) (h0 : ¬t.val % 20 = 0) (h1 : ¬t.val % 20 = 19) :
    outsAt1 V c t.val t.isLt =
     (outB_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      accB_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      accB_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- `outsAt1` at the last point: over what the point before left. -/
theorem outsAt1_C (c : Dev nD) (t : Fin cfg1.N) (h0 : ¬t.val % 20 = 0) (h1 : t.val % 20 = 19) :
    outsAt1 V c t.val t.isLt =
     (outC_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      accC_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      accC_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The invariant between points -/

/-- Before position `n`: before the first point the class's invariant (every scoped buffer that is no staging buffer of
    this region at anything, the generator register at some state); afterwards the other region's buffers at anything,
    each accumulator at what the point before left in it, the generator register at some state. -/
def PhiS (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others1 c ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop(others1 c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The region's proof data -/

/-- The proof data of this region on core `c`: the arrays as the region finds them; after the body at point `t` each
    input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the closed forms say which of the three cases the
    point is in; the invariant hands the body both accumulators — at anything at the first point, at what the point
    before left afterwards — and takes them back at this point's contents (the pieces cover them); the other region's
    buffers and the generator register pass through; the output window is handed back untouched where it is idle. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 20 = 0
  · have h1 : ¬t.val % 20 = 19 := by omega
    have hz : t.val = 0 := by omega
    rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
    rw [outsAt1_A V c t h0 h1]
    unfold accA_0 accA_1; (try dsimp only)
    rw [PhiS_castSucc V c t, PhiS_zero V c _ _ hz, PhiA1_eq]
    iintro ⟨⟨⟨R1, R2, R3, R4, R5, R6, R7, R8, R9, R10, R11, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [R1 R2 R3 R4 R5 R6 R7 R8 R9 R10 R11 HS0 HS1 Hg]
    · isplitl [R1 R2 R3 R4 R5 R6 R7 R8 R9 R10 R11 HS0 HS1]
      · isplitl [R1 R2 R3 R4 R5 R6 R7 R8 R9 R10 R11]
        · unfold others1
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          iexact R11
        isplitl [HS0]
        · unfold owns; iexists _; isplitr
          swap; · iexact HS0
          ipureintro; exact View.read_writes_of_cover _ _ _ _ _ (acoverA_0 c _ _ _ _ _ _ _ _ _ _ _ _ _ _ _ _ _ _ _ _ _ _ _ _ _ _ _ _ _ _)
        unfold owns; iexists _; isplitr
        swap; · iexact HS1
        ipureintro; exact View.read_writes_of_cover _ _ _ _ _ (acoverA_1 c _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun e => h0 (by rw [e])
    by_cases h1 : t.val % 20 = 19
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold outC_7 accC_0 accC_1; (try dsimp only)
      rw [PhiS_castSucc V c t, PhiS_pos V c _ _ hz]
      iintro ⟨⟨⟨R, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [R HS0 HS1 Hg]
      · isplitl [R HS0 HS1]
        · isplitl [R]; · iexact R
          isplitl [HS0]
          · unfold owns; iexists _; isplitr
            swap; · iexact HS0
            ipureintro; exact View.read_writes_of_cover _ _ _ _ _ (acoverC_0 c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (acoverC_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverC_7 c _ _ _ _ _ _ _ _ _ _ _ _ _ _ _ _ _ _ _ _ _ _ _ _ _ _ _ _ _ _ _ _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold accB_0 accB_1; (try dsimp only)
      rw [PhiS_castSucc V c t, PhiS_pos V c _ _ hz]
      iintro ⟨⟨⟨R, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [R HS0 HS1 Hg]
      · isplitl [R HS0 HS1]
        · isplitl [R]; · iexact R
          isplitl [HS0]
          · unfold owns; iexists _; isplitr
            swap; · iexact HS0
            ipureintro; exact View.read_writes_of_cover _ _ _ _ _ (acoverB_0 c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (acoverB_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the accumulators hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 20 := N_1; omega), PhiA1_eq]
  unfold others1
  iintro ⟨⟨⟨R1, R2, R3, R4, R5, R6, R7, R8, R9, R10, R11⟩, HS0, HS1⟩, Hg⟩
  isplitl [R1 R2 R3 R4 R5 R6 R7 R8 R9 R10 R11 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    iexists _; iexact HS1
  iexact Hg

end Cert.KernelIdeal.Hand

end
-- ==== Proof.KIRun.lean ====
/-
  The whole program as the pipeline library runs it: a stretch of host operations, kernel region 0, a second stretch,
  kernel region 1.

  Between two items a core holds every unscoped buffer whole. The contents are named in order: the launch memory;
  after the first stretch; after region 0, which changes one array only (its output, 100000 × 64) and leaves there what
  its proof data's write-backs fold to; after the second stretch; after region 1, which changes its 64 × 10 output
  only. Each region is entered by splitting its windows' arrays out of the unscoped buffers and left by putting
  them back at the exit contents; the generator register goes into the region's invariant and comes back; no core
  owes another anything. Every weakly fair execution then terminates, and the final memory holds the last
  contents: the result array at what region 1's write-back leaves, every argument as launched.
-/
import proofs.«428876_j16381005267207_3_alg».proof.Proof.KIReg0
import proofs.«428876_j16381005267207_3_alg».proof.Proof.KIReg1
import proofs.«428876_j16381005267207_3_alg».proof.Proof.Gen.KernelIdeal.Regions
import Idealize.ShloMosaic.Lib.Pipeline.RegionsLoop
import Idealize.ShloMosaic.Lib.Pipeline.FrameSuffix

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents between items -/

/-- After the first host stretch, read at the TensorCore's references: what region 0 is entered with. -/
abbrev V1r : (c : Dev nD) → (b : Ref sig .tc) → Buf (Elt F) ((c : Thread nD τ).loc b) := fun c b => V1 m c b

/-- After region 0: its arrays at what the pipeline leaves (the inputs as entered, the output's write-backs folded),
    every other buffer as entered. -/
def W2 (c : Dev nD) : Valuation τ sig (Elt F) :=
  Pipeline.withArrays spec0 c (V1 m c) fun w => (dat0 (V1r m) c).arrAt w cfg0.N
theorem W2_arr (c : Dev nD) (w : Fin cfg0.W) :
    W2 m c (Proc.devRef .tc (Pipeline.arrRef spec0 w)) = (dat0 (V1r m) c).arrAt w cfg0.N := by
  unfold W2; exact Pipeline.withArrays_arr spec0 launch0.win.arr_inj c _ _ w

/-- What region 0 leaves in the buffers it may change, for the generated valuations: only `main_v42` is read. -/
def outs0 : Outs (F := F) := fun _ r c => W2 m c (Proc.devRef .tc r)

/-- After the second host stretch, read at the TensorCore's references: what region 1 is entered with. -/
abbrev V3r : (c : Dev nD) → (b : Ref sig .tc) → Buf (Elt F) ((c : Thread nD τ).loc b) := fun c b => V3 m (outs0 m) c b

/-- After region 1: likewise. -/
def W4 (c : Dev nD) : Valuation τ sig (Elt F) :=
  Pipeline.withArrays spec1 c (V3 m (outs0 m) c) fun w => (dat1 (V3r m) c).arrAt w cfg1.N
theorem W4_arr (c : Dev nD) (w : Fin cfg1.W) :
    W4 m c (Proc.devRef .tc (Pipeline.arrRef spec1 w)) = (dat1 (V3r m) c).arrAt w cfg1.N := by
  unfold W4; exact Pipeline.withArrays_arr spec1 launch1.win.arr_inj c _ _ w

/-- What the two regions leave, as the generated valuations read it: after item 1 (`J = 2`) region 0's, after item 3
    region 1's. -/
def outs : Outs (F := F) := fun J r c => if J = 2 then W2 m c (Proc.devRef .tc r) else W4 m c (Proc.devRef .tc r)

theorem outs_two (r : Ref sig .tc) (c : Dev nD) : outs m 2 r c = W2 m c (Proc.devRef .tc r) := rfl
theorem outs_four (r : Ref sig .tc) (c : Dev nD) : outs m 4 r c = W4 m c (Proc.devRef .tc r) := rfl
/-- The generated valuations do not see the difference between `outs` and `outs0` before region 1. -/
theorem V2_outs (c : Dev nD) : V2 m (outs m) c = V2 m (outs0 m) c := rfl
theorem V3_outs (c : Dev nD) : V3 m (outs m) c = V3 m (outs0 m) c := rfl

abbrev V2r : (c : Dev nD) → (b : Ref sig .tc) → Buf (Elt F) ((c : Thread nD τ).loc b) := fun c b => V2 m (outs m) c b
abbrev V4r : (c : Dev nD) → (b : Ref sig .tc) → Buf (Elt F) ((c : Thread nD τ).loc b) := fun c b => V4 m (outs m) c b

/-- Region 0's output array is `main_v42`, region 1's `main_v61`. -/
theorem arr0_6 : Pipeline.arrRef spec0 6 = main_v42 := rfl
theorem arr1_7 : Pipeline.arrRef spec1 7 = main_v61 := rfl

/-- The result array ends at what region 1's write-back leaves. -/
theorem V4_v61 (c : Dev nD) : V4 m (outs m) c main_v61 = (dat1 (V3r m) c).arrAt 7 cfg1.N := by
  show Function.update (V3 m (outs m) c) main_v61 (outs m 4 main_v61 c) main_v61 = _
  rw [Function.update_self, outs_four]
  exact W4_arr m c 7
/-- Region 0's output array, as the second stretch and region 1 find it. -/
theorem V2_v42 (c : Dev nD) : V2 m (outs m) c main_v42 = (dat0 (V1r m) c).arrAt 6 cfg0.N := by
  show Function.update (V1 m c) main_v42 (outs m 2 main_v42 c) main_v42 = _
  rw [Function.update_self, outs_two]
  exact W2_arr m c 6

/-! ## Each region's arrays at its exit -/

theorem hF0 (c : Dev nD) (w : Fin cfg0.W) : (dat0 (V1r m) c).arrAt w cfg0.N = V2r m c (Pipeline.arrRef spec0 w) := by
  match w with
  | ⟨0, _⟩ => exact (((dat0 (V1r m) c).arrAt_in 0 rfl _).trans (A_eq0 (V1r m) c 0)).trans (V2_of m (outs m) c _ (by decide)).symm
  | ⟨1, _⟩ => exact (((dat0 (V1r m) c).arrAt_in 1 rfl _).trans (A_eq0 (V1r m) c 1)).trans (V2_of m (outs m) c _ (by decide)).symm
  | ⟨2, _⟩ => exact (((dat0 (V1r m) c).arrAt_in 2 rfl _).trans (A_eq0 (V1r m) c 2)).trans (V2_of m (outs m) c _ (by decide)).symm
  | ⟨3, _⟩ => exact (((dat0 (V1r m) c).arrAt_in 3 rfl _).trans (A_eq0 (V1r m) c 3)).trans (V2_of m (outs m) c _ (by decide)).symm
  | ⟨4, _⟩ => exact (((dat0 (V1r m) c).arrAt_in 4 rfl _).trans (A_eq0 (V1r m) c 4)).trans (V2_of m (outs m) c _ (by decide)).symm
  | ⟨5, _⟩ => exact (((dat0 (V1r m) c).arrAt_in 5 rfl _).trans (A_eq0 (V1r m) c 5)).trans (V2_of m (outs m) c _ (by decide)).symm
  | ⟨6, _⟩ => exact (V2_v42 m c).symm
theorem hrest0 (c : Dev nD) : ∀ b, b ∉ Finset.univ.image (Pipeline.arrRef spec0) → V2r m c b = V1r m c b :=
  fun b hb => V2_of m (outs m) c b (fun h => hb (Finset.mem_image.mpr ⟨6, Finset.mem_univ _, (List.mem_singleton.mp h).symm⟩))

theorem hF1 (c : Dev nD) (w : Fin cfg1.W) : (dat1 (V3r m) c).arrAt w cfg1.N = V4r m c (Pipeline.arrRef spec1 w) := by
  have key : ∀ (w : Fin cfg1.W), (cfg1.win w).isOut = false → Pipeline.arrRef spec1 w ∉ ([main_v61] : List (Ref sig .tc)) →
      (dat1 (V3r m) c).arrAt w cfg1.N = V4 m (outs m) c (Pipeline.arrRef spec1 w) := fun w hw hne =>
    (((dat1 (V3r m) c).arrAt_in w hw _).trans (A_eq1 (V3r m) c w)).trans
      ((congrFun (V3_outs m c) (Proc.devRef .tc (Pipeline.arrRef spec1 w))).symm.trans (V4_of m (outs m) c (Pipeline.arrRef spec1 w) hne).symm)
  match w with
  | ⟨0, _⟩ => exact key 0 rfl (by decide)
  | ⟨1, _⟩ => exact key 1 rfl (by decide)
  | ⟨2, _⟩ => exact key 2 rfl (by decide)
  | ⟨3, _⟩ => exact key 3 rfl (by decide)
  | ⟨4, _⟩ => exact key 4 rfl (by decide)
  | ⟨5, _⟩ => exact key 5 rfl (by decide)
  | ⟨6, _⟩ => exact key 6 rfl (by decide)
  | ⟨7, _⟩ => exact (V4_v61 m c).symm
theorem hrest1 (c : Dev nD) : ∀ b, b ∉ Finset.univ.image (Pipeline.arrRef spec1) → V4r m c b = V3r m c b :=
  fun b hb => (V4_of m (outs m) c b (fun h => hb (Finset.mem_image.mpr ⟨7, Finset.mem_univ _, (List.mem_singleton.mp h).symm⟩))).trans
    (congrFun (V3_outs m c) (Proc.devRef .tc b))

/-! ## The proof data family and the thread state -/

/-- Every pipeline's proof data, each at its region's entry contents: a literal match. -/
def pdats : (p : Fin 2) → (c : Dev nD) → Dat τ (Elt F) Unit ℕ (UR sig nD τ) ℕ (Pipeline.pin (pcfgs (F := F)) adm p) c
  | ⟨0, _⟩ => fun c => dat0 (V1r m) c
  | ⟨1, _⟩ => fun c => dat1 (V3r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0: entered from the contents after the first stretch, left at the contents the second stretch starts from. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1r m c) (V2r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from the contents after the second stretch, left at the last contents. Its invariant starts as
    the bare one and gives the bare one back at the end (the running sums it kept between points are forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none, show V3 m (outs m) c = V3 m (outs0 m) c from V3_outs m c]
    have hsplit := Pipeline.arrays_of_unscopedBufs (p := 1) (pcfgs (F := F)) adm (pdats m) launch1.win launch1.arr_whole c
      ((pdats m 1 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V3r m) c)
    unfold Pipeline.ΦA
    iintro ⟨Hp, -, Hr⟩
    isplitl [Hr]; · iexact Hr
    iexact Hp
  hout c := by
    rw [Pipeline.ownSems0_none]
    refine (hout1 (V3r m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3r m c) (V4r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The riding state ends owing nothing. -/
theorem howes (c : Dev nD) : (Rst c : sProp 𝕄) ⊢ iprop(∃ W, owes (c : Thread nD τ) (0 : CellTallies nD τ sig Unit) W) := by
  iintro ⟨-, H⟩; iexact H

/-! ## The launch -/

set_option backward.isDefEq.respectTransparency.types false in
/-- THE RUN. From any memory with zero counters every weakly fair execution of the program terminates, nothing
    faulting; the final memory has the result array at what region 1's write-back leaves and every argument array
    as launched. -/
theorem run_main : θ_run defs (onTc (τ := τ) (main (F := F))) ⟨m, fun _ => 0, ρ⟩ (fun r => ∀ c : Dev nD,
      r.2.mem ((c.tc : Thread nD τ).loc main_v61) = (dat1 (V3r m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m) () cellOf_inj emb₁ defs₀ 𝒱₀ L lv m ρ main
    (segs m (outs m) 𝒱₀ L lv Est () (pdats m) (reg0 m) (reg1 m))
    (fun c Q => by
      rewrite [main_chain c, Seg.run_eq_chain,
        show (segs m (outs m) 𝒱₀ L lv Est () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V4 m (outs m) c))
    (hch := fun c => ⟨.rfl, .rfl, .rfl, .rfl, (BI.Entails.refl _).trans (sep_mono .rfl (howes c))⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v61) = (dat1 (V3r m) c).arrAt 7 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => by
      unfold StableHlo.held
      iintro ⟨Hh, HSI⟩
      ihave Hr := (pointsTo_read_all (Pipeline.ucRefs τ sig) (fun b => ((c : Thread nD τ).1, b)) (V4 m (outs m) c) s') $$ [Hh HSI]
      · isplitl [Hh] <;> iassumption
      icases Hr with ⟨%h, HSI⟩
      imodintro
      isplitr
      · ipureintro
        exact ⟨(h (Proc.devRef .tc main_v61) (mem_uc main_v61 (by decide))).trans (V4_v61 m c),
          (h (Proc.devRef .tc main_arg0) (mem_uc main_arg0 (by decide))).trans (V4_main_arg0 m (outs m) c),
          (h (Proc.devRef .tc main_arg1) (mem_uc main_arg1 (by decide))).trans (V4_main_arg1 m (outs m) c),
          (h (Proc.devRef .tc main_arg2) (mem_uc main_arg2 (by decide))).trans (V4_main_arg2 m (outs m) c),
          (h (Proc.devRef .tc main_arg3) (mem_uc main_arg3 (by decide))).trans (V4_main_arg3 m (outs m) c),
          (h (Proc.devRef .tc main_arg4) (mem_uc main_arg4 (by decide))).trans (V4_main_arg4 m (outs m) c),
          (h (Proc.devRef .tc main_arg5) (mem_uc main_arg5 (by decide))).trans (V4_main_arg5 m (outs m) c),
          (h (Proc.devRef .tc main_arg6) (mem_uc main_arg6 (by decide))).trans (V4_main_arg6 m (outs m) c),
          (h (Proc.devRef .tc main_arg7) (mem_uc main_arg7 (by decide))).trans (V4_main_arg7 m (outs m) c),
          (h (Proc.devRef .tc main_arg8) (mem_uc main_arg8 (by decide))).trans (V4_main_arg8 m (outs m) c)⟩
      · iexact HSI)
    (hQ := fun _ h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Hand

end
-- ==== Proof.LibSegmentSum.lean ====
/-
  General lemmas: the host's accumulating float scatter (`x.at[idx].add(u)`, a segment sum) at the ideal instance, read at
  an index, for the two shapes a segment sum over rows takes.

  The start index is read as a SIGNED integer and is NOT clamped: an update whose row index is negative or past the
  operand's last row lands nowhere. So the operand's row `n` receives exactly the update rows `e` whose index word,
  as a signed integer, is `n`.
-/
import Idealize.ShloMosaic.PureOps.Ideal
import Idealize.ShloMosaic.Lib.ValueIdx

noncomputable section

open scoped BigOperators

namespace Cert.Lib

open Idealize.ShloMosaic Idealize.ShloMosaic.ValueIdx

namespace SegmentSum

/-! ## Rows -/

/-- The row scatter's dimension numbers as a literal record, for an operand `[N, C]`, indices `[E, 1]` and updates
    `[E, C]`; `wf` are their conditions. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the operand's row axis the window of update `(e, k')` starts at the index word `idx[e, 0]`, read signed. -/
theorem rows_start0 : (rowScatterDims N C E wf).start (ix2 e k') idx 0 = (idx (ix2 e 0)).toInt := by
  unfold ScatterDims.start
  rw [dif_pos (show (0 : Fin 2) ∈ (rowScatterDims N C E wf).scatterDimsToOperandDims from List.mem_singleton.mpr rfl)]
  -- the scatter-indices index read for component 0 of the start index of `(e, k')` is `[e, 0]`
  have hsi : (rowScatterDims N C E wf).siIdx (ix2 e k')
      ⟨List.idxOf (0 : Fin 2) (rowScatterDims N C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The column axis is not index-mapped: the window starts at `0` there. -/
theorem rows_start1 : (rowScatterDims N C E wf).start (ix2 e k') idx 1 = 0 := by
  unfold ScatterDims.start
  rw [dif_neg (show ¬ (1 : Fin 2) ∈ (rowScatterDims N C E wf).scatterDimsToOperandDims from
    fun h => absurd (List.mem_singleton.mp h) (by decide : ¬ (1 : Fin 2) = 0))]

/-- The row axis is an inserted window axis: it has no window coordinate. -/
theorem rows_window0 : (rowScatterDims N C E wf).window (ix2 e k') 0 = 0 := by
  unfold ScatterDims.window
  rw [dif_neg (show ¬ (0 : Fin 2) ∈ (rowScatterDims N C E wf).sKept from fun h => by
    have h2 := (List.mem_filter.mp h).2
    simp at h2)]

/-- The column axis is the one window axis: its window coordinate is the update's column. -/
theorem rows_window1 : (rowScatterDims N C E wf).window (ix2 e k') 1 = k'.val := by
  unfold ScatterDims.window
  rw [dif_pos (show (1 : Fin 2) ∈ (rowScatterDims N C E wf).sKept from
    List.mem_filter.mpr ⟨List.mem_finRange _, by simp⟩)]
  rfl

/-- WHERE AN UPDATE LANDS: update `(e, k')` lands at operand element `(n, k)` exactly when its index word, read signed,
    is `n` and its column is `k`. (An index word outside `[0, N)` lands nowhere, so it equals no `n`.) -/
theorem rows_resultIdx_eq_some_iff (n : Fin N) (k : Fin C) :
    (rowScatterDims N C E wf).resultIdx? (ix2 e k') idx = some (ix2 n k)
      ↔ (idx (ix2 e 0)).toInt = (n.val : ℤ) ∧ k' = k := by
  have s0 := rows_start0 wf idx e k'
  have s1 := rows_start1 wf idx e k'
  have w0 := rows_window0 wf e k'
  have w1 := rows_window1 wf e k'
  unfold ScatterDims.resultIdx?
  split
  · rename_i h
    rw [Option.some.injEq]
    constructor
    · intro hf
      -- read the equation of indices on each axis
      have h0 : ((rowScatterDims N C E wf).start (ix2 e k') idx 0
          + ((rowScatterDims N C E wf).window (ix2 e k') 0 : ℕ)).toNat = n.val :=
        congrArg (fun i : (⟨2, ![N, C]⟩ : Shape).Idx => (i 0).val) hf
      have h1 : ((rowScatterDims N C E wf).start (ix2 e k') idx 1
          + ((rowScatterDims N C E wf).window (ix2 e k') 1 : ℕ)).toNat = k.val :=
        congrArg (fun i : (⟨2, ![N, C]⟩ : Shape).Idx => (i 1).val) hf
      have p0 := (h 0).1
      rw [s0, w0] at h0 p0
      rw [s1, w1] at h1
      exact ⟨by omega, Fin.ext (by omega)⟩
    · rintro ⟨hi, rfl⟩
      funext a
      refine Fin.ext ?_
      match a with
      | ⟨0, _⟩ =>
        show ((rowScatterDims N C E wf).start (ix2 e k') idx 0
          + ((rowScatterDims N C E wf).window (ix2 e k') 0 : ℕ)).toNat = n.val
        rw [s0, w0]; omega
      | ⟨1, _⟩ =>
        show ((rowScatterDims N C E wf).start (ix2 e k') idx 1
          + ((rowScatterDims N C E wf).window (ix2 e k') 1 : ℕ)).toNat = k'.val
        rw [s1, w1]; omega
  · rename_i h
    constructor
    · intro hf; exact absurd hf (by simp)
    · -- an index word equal to `n` is in range, and a column always is: the update does land
      rintro ⟨hi, rfl⟩
      refine absurd (fun a => ?_) h
      match a with
      | ⟨0, _⟩ =>
        show 0 ≤ (rowScatterDims N C E wf).start (ix2 e k') idx 0 + ((rowScatterDims N C E wf).window (ix2 e k') 0 : ℕ)
          ∧ (rowScatterDims N C E wf).start (ix2 e k') idx 0 + ((rowScatterDims N C E wf).window (ix2 e k') 0 : ℕ)
            < (N : ℤ)
        rw [s0, w0]; have := n.isLt; omega
      | ⟨1, _⟩ =>
        show 0 ≤ (rowScatterDims N C E wf).start (ix2 e k') idx 1 + ((rowScatterDims N C E wf).window (ix2 e k') 1 : ℕ)
          ∧ (rowScatterDims N C E wf).start (ix2 e k') idx 1 + ((rowScatterDims N C E wf).window (ix2 e k') 1 : ℕ)
            < (C : ℤ)
        rw [s1, w1]; have := k'.isLt; omega

end Rows

/-! ## Flat -/

/-- The flat scatter's dimension numbers as a literal record, for an operand `[N]`, indices `[E, 1]` and updates `[E]`;
    `wf` are their conditions. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range. -/
def idxEquiv1 {n : Nat} : Fin n ≃ (⟨1, ![n]⟩ : Shape).Idx where
  toFun := ix1
  invFun i := i 0
  left_inv _ := rfl
  right_inv i := (eq_ix1 i).symm

section Flat
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at the index word `idx[e, 0]`, read signed. -/
theorem flat_start0 : (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  -- the scatter-indices index read for component 0 of the start index of `e` is `[e, 0]`
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- That axis is an inserted window axis: it has no window coordinate. -/
theorem flat_window0 : (flatScatterDims N E wf).window (ix1 e) 0 = 0 := by
  unfold ScatterDims.window
  rw [dif_neg (show ¬ (0 : Fin 1) ∈ (flatScatterDims N E wf).sKept from fun h => by
    have h2 := (List.mem_filter.mp h).2
    simp at h2)]

/-- WHERE AN UPDATE LANDS: update `e` lands at operand element `n` exactly when its index word, read signed, is `n`. -/
theorem flat_resultIdx_eq_some_iff (n : Fin N) :
    (flatScatterDims N E wf).resultIdx? (ix1 e) idx = some (ix1 n) ↔ (idx (ix2 e 0)).toInt = (n.val : ℤ) := by
  have s0 := flat_start0 wf idx e
  have w0 := flat_window0 wf e
  unfold ScatterDims.resultIdx?
  split
  · rename_i h
    rw [Option.some.injEq]
    constructor
    · intro hf
      have h0 : ((flatScatterDims N E wf).start (ix1 e) idx 0
          + ((flatScatterDims N E wf).window (ix1 e) 0 : ℕ)).toNat = n.val :=
        congrArg (fun i : (⟨1, ![N]⟩ : Shape).Idx => (i 0).val) hf
      have p0 := (h 0).1
      rw [s0, w0] at h0 p0
      omega
    · intro hi
      funext a
      refine Fin.ext ?_
      match a with
      | ⟨0, _⟩ =>
        show ((flatScatterDims N E wf).start (ix1 e) idx 0
          + ((flatScatterDims N E wf).window (ix1 e) 0 : ℕ)).toNat = n.val
        rw [s0, w0]; omega
  · rename_i h
    constructor
    · intro hf; exact absurd hf (by simp)
    · -- an index word equal to `n` is in range: the update does land
      intro hi
      refine absurd (fun a => ?_) h
      match a with
      | ⟨0, _⟩ =>
        show 0 ≤ (flatScatterDims N E wf).start (ix1 e) idx 0 + ((flatScatterDims N E wf).window (ix1 e) 0 : ℕ)
          ∧ (flatScatterDims N E wf).start (ix1 e) idx 0 + ((flatScatterDims N E wf).window (ix1 e) 0 : ℕ) < (N : ℤ)
        rw [s0, w0]; have := n.isLt; omega

end Flat

end SegmentSum

open SegmentSum

/-- ROWS: operand `[N, C]`, indices `[E, 1]`, updates `[E, C]` (update_window_dims `[1]`, inserted_window_dims `[0]`,
    scatter_dims_to_operand_dims `[0]`, index_vector_dim `1`). Element `(n, k)` is the operand's plus the sum of the
    updates' `(e, k)` over the rows `e` whose index is `n`. -/
theorem scatterAdd_rows_apply {N C E w : Nat}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ix2 e 0)).toInt = (n.val : ℤ)), upd (ix2 e k) := by
  -- a record with these fields is the literal one
  obtain ⟨uw, iw, sd, iv, wf⟩ := d
  simp only at h1 h2 h3 h4
  subst h1 h2 h3 h4
  unfold Ideal.hostScatterAdd
  congr 1
  -- both sides as sums of guarded terms; the left one over the updates' rows and columns
  rw [Finset.sum_filter, sum_idx2, Finset.sum_filter]
  refine Finset.sum_congr rfl fun e _ => ?_
  by_cases hq : (idx (ix2 e 0)).toInt = (n.val : ℤ)
  · -- a row whose index is `n` gives its column `k` and nothing else
    rw [if_pos hq, Finset.sum_eq_single k]
    · rw [if_pos ((rows_resultIdx_eq_some_iff wf idx e k n k).mpr ⟨hq, rfl⟩)]
    · intro k' _ hk'
      rw [if_neg fun h => hk' ((rows_resultIdx_eq_some_iff wf idx e k' n k).mp h).2]
    · intro h; exact absurd (Finset.mem_univ k) h
  · -- any other row gives nothing
    rw [if_neg hq]
    refine Finset.sum_eq_zero fun k' _ => ?_
    rw [if_neg fun h => hq ((rows_resultIdx_eq_some_iff wf idx e k' n k).mp h).1]

/-- FLAT: operand `[N]`, indices `[E, 1]`, updates `[E]` (no window axis, inserted_window_dims `[0]`,
    scatter_dims_to_operand_dims `[0]`, index_vector_dim `1`). Element `n` is the operand's plus the sum of the updates
    `e` whose index is `n`. -/
theorem scatterAdd_flat_apply {N E w : Nat}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  -- a record with these fields is the literal one
  obtain ⟨uw, iw, sd, iv, wf⟩ := d
  simp only at h1 h2 h3 h4
  subst h1 h2 h3 h4
  unfold Ideal.hostScatterAdd
  congr 1
  -- both sides as sums of guarded terms, matched along the bijection between update indices and rows
  rw [Finset.sum_filter, Finset.sum_filter]
  refine (Fintype.sum_equiv idxEquiv1 _ _ fun e => ?_).symm
  have hiff := flat_resultIdx_eq_some_iff wf idx e n
  show (if (idx (ix2 e 0)).toInt = (n.val : ℤ) then upd (ix1 e) else 0)
    = if (flatScatterDims N E wf).resultIdx? (ix1 e) idx = some (ix1 n) then upd (ix1 e) else 0
  by_cases hq : (idx (ix2 e 0)).toInt = (n.val : ℤ)
  · rw [if_pos hq, if_pos (hiff.mpr hq)]
  · rw [if_neg hq, if_neg fun h => hq (hiff.mp h)]

end Cert.Lib

end
-- ==== Proof.LibTakeRows.lean ====
/-
  A general lemma: `stablehlo.gather` of whole rows of a rank-2 operand, read at an index.

  What `x[idx]` of a table `x : [N, C]` at a vector of row indices lowers to: offset_dims `[1]`,
  collapsed_slice_dims `[0]`, start_index_map `[0]`, index_vector_dim `1` and slice_sizes `[1, C]` over the indices
  as `[E, 1]`. Result element `(e, k)` is the operand at row `idx[e, 0]` — read as a signed integer and clamped into
  `[0, N - 1]`, as the gather clamps every start index — and column `k`. Stated for any record with those dimension
  numbers, whatever sizes `N`, `C`, `E` and word width.
-/
import Idealize.ShloMosaic.PureOps.Ideal
import Idealize.ShloMosaic.Lib.ValueIdx

noncomputable section

namespace Cert.Lib

open Idealize.ShloMosaic Idealize.ShloMosaic.ValueIdx

namespace TakeRows

/-- Those dimension numbers as a literal record, for an operand `[N, C]`, start indices `[E, 1]` and result `[E, C]`;
    `wf` are their conditions. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather of the literal record at `(e, k)`. Axis 0 of the operand is collapsed and start-mapped: its
    coordinate is the clamped start index, with no batching and no offset part. Axis 1 is the one offset axis: its start
    is `0` (it is not start-mapped) and its offset coordinate is the result's coordinate `k`. -/
theorem gather_rowDims_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    -- the start-indices index read for component 0 of the start index of `(e, k)` is `[e, 0]`
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show ¬ (1 : Fin 2) ∈ (rowDims N C E wf).startIndexMap from
      fun h => absurd (List.mem_singleton.mp h) (by decide : ¬ (1 : Fin 2) = 0))]
    unfold GatherDims.offCoord
    rw [dif_pos (show (1 : Fin 2) ∈ (rowDims N C E wf).sKept from (GatherDims.mem_sKept _ _).mpr
      ⟨fun h => absurd (List.mem_singleton.mp h) (by decide : ¬ (1 : Fin 2) = 0), List.not_mem_nil⟩)]
    simp only [Nat.add_zero, Nat.zero_add]
    rfl

end TakeRows

open TakeRows

/-- THE ROW GATHER READ AT `(e, k)`: the operand at the start index `idx[e, 0]`, read signed and clamped into
    `[0, N - 1]`, column `k`. -/
theorem gather_rows_apply {α : Type} {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (k : Fin C) :
    Host.gather d x idx (ix2 e k) = x (ix2 ⟨min (idx (ix2 e 0)).toInt.toNat (N - 1), by omega⟩ k) := by
  -- a record with these fields is the literal one
  obtain ⟨od, cs, ob, sb, sm, iv, ss, wf⟩ := d
  simp only at h1 h2 h3 h4 h5 h6 h7
  subst h1 h2 h3 h4 h5 h6 h7
  exact gather_rowDims_apply hN wf x idx e k

end Cert.Lib

end
-- ==== Proof.LibTakeFlat.lean ====
/-
  A general lemma: `stablehlo.gather` of single elements of a rank-1 operand, read at an index.

  What `v[idx]` of a table `v : [N]` at a vector of indices lowers to: no offset axis, collapsed_slice_dims `[0]`,
  start_index_map `[0]`, index_vector_dim `1` and slice_sizes `[1]` over the indices as `[E, 1]`. Result element
  `e` is the operand at `idx[e, 0]` — read as a signed integer and clamped into `[0, N - 1]`, as the gather clamps
  every start index. Stated for any record with those dimension numbers, whatever sizes `N`, `E` and word width.
-/
import Idealize.ShloMosaic.PureOps.Ideal
import Idealize.ShloMosaic.Lib.ValueIdx

noncomputable section

namespace Cert.Lib

open Idealize.ShloMosaic Idealize.ShloMosaic.ValueIdx

namespace TakeFlat

/-- Those dimension numbers as a literal record, for an operand `[N]`, start indices `[E, 1]` and result `[E]`;
    `wf` are their conditions. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element gather of the literal record at `e`. The operand's one axis is collapsed and start-mapped: its
    coordinate is the clamped start index, with no batching part and no offset part. -/
theorem gather_flatDims_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e)
      = x (ix1 ⟨min (idx (ix2 e 0)).toInt.toNat (N - 1), by omega⟩) := by
  unfold Host.gather
  congr 1
  funext a
  refine Fin.ext ?_
  match a with
  | ⟨0, _⟩ =>
    show (flatDims N E wf).start (ix1 e) idx 0 + (flatDims N E wf).batchCoord (ix1 e) 0
      + (flatDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatDims N E wf).startIndexMap from List.mem_singleton.mpr rfl)]
    -- the start-indices index read for component 0 of the start index of `e` is `[e, 0]`
    have hsi : (flatDims N E wf).siIdx (ix1 e) ⟨List.idxOf (0 : Fin 1) (flatDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end TakeFlat

open TakeFlat

/-- THE ELEMENT GATHER READ AT `e`: the operand at the start index `idx[e, 0]`, read signed and clamped into
    `[0, N - 1]`. -/
theorem gather_flat_apply {α : Type} {N E w : Nat} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  -- a record with these fields is the literal one
  obtain ⟨od, cs, ob, sb, sm, iv, ss, wf⟩ := d
  simp only at h1 h2 h3 h4 h5 h6 h7
  subst h1 h2 h3 h4 h5 h6 h7
  exact gather_flatDims_apply hN wf x idx e

end Cert.Lib

end
-- ==== Proof.LibKeepdimsColumn.lean ====
/-
  Two layout operations read at an index given by coordinates: the column forms a row reduction with kept dimensions
  meets. A row's maximum or sum comes out as a vector of length `a`; it is cast to an `[a, 1]` column and the column is
  broadcast along the rows of an `[a, b]` array. Read at `(i, u)` the cast is the vector at `i`; read at `(p, c)` the
  broadcast is the column's entry of row `p`. Both hold for any sizes and any element type.
-/
import Idealize.ShloMosaic.Lib.Pipeline.Value
import Idealize.ShloMosaic.Lib.ValueIdx

namespace Cert.LibKeepdimsColumn

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsColumn
-- ==== Proof.KHost.lean ====
/-
  The two stretches of plain array operations around the two grid computations, read at an index over the extended reals.

  Before the first grid computation: the two rows of the edge array as vectors of source and target words; the degree of
  a node as one plus the number of edges whose target word names it; the inverse square root of the degree; the weight of
  an edge as the product of the inverse square roots at its two ends, each end read as a table row after raising a
  negative word by 100000 and clamping; and the weighted raw three-column features of the edges' sources summed into
  the edges' targets. Between the two grid computations the same sum is taken of the sixty-four-column rows the first one
  produced, with the same weights. Each chain of operations is named once as a function of the argument arrays and then
  read at an index, so that the two stretches share the words, the weights and the inverse degrees.
-/
import proofs.«428876_j16381005267207_3_alg».proof.Proof.Gen.KernelIdeal.Regions
import proofs.«428876_j16381005267207_3_alg».proof.Proof.Spec
import proofs.«428876_j16381005267207_3_alg».proof.Proof.LibSegmentSum
import proofs.«428876_j16381005267207_3_alg».proof.Proof.LibTakeRows
import proofs.«428876_j16381005267207_3_alg».proof.Proof.LibTakeFlat
import proofs.«428876_j16381005267207_3_alg».proof.Proof.LibKeepdimsColumn
import Idealize.ShloMosaic.Lib.StableHlo.Run
import Idealize.ShloMosaic.Lib.Pipeline.Value
import Idealize.ShloMosaic.Lib.ValueIdx
import Idealize.ShloMosaic.Lib.ValueLayout

noncomputable section

open scoped BigOperators

namespace Cert.KSide

open Idealize.ShloMosaic Idealize.ShloMosaic.TcCoe Idealize.ShloMosaic.ValueIdx
open Cert.KernelIdeal Cert.KernelIdeal.Gen

/-! ## The host operations' terms, as functions of the argument arrays

The source and target words of the edges, the index normalisation, the degree, its inverse square root,
the edge weight, and the two edge sums (three raw columns; sixty-four columns of the first region's result). -/

/-- Row 0 of the edge array as a vector of 1600000 words. -/
def srcV (ei : IVec S2x1600000 32) : IVec S1600000 32 :=
  shapeCast S1600000 (extractStridedSlice S1x1600000 ![0, 0] ei slices_S2x1600000_S1x1600000_0_0) shapeCasts_S1x1600000_S1600000

/-- Row 1 of the edge array as a vector of 1600000 words. -/
def dstV (ei : IVec S2x1600000 32) : IVec S1600000 32 :=
  shapeCast S1600000 (extractStridedSlice S1x1600000 ![1, 0] ei slices_S2x1600000_S1x1600000_1_0) shapeCasts_S1x1600000_S1600000

/-- A negative word raised by 100000, every other word kept. -/
def nrmV (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- A vector over the edges as a one-column matrix. -/
def colV {α : Type} (v : S1600000.Idx → α) : S1600000x1.Idx → α :=
  broadcastInDim S1600000x1 ![0] bcast_S1600000_S1600000x1_0 v

/-- A vector over the edges repeated along three columns. -/
def wide3V {α : Type} (v : S1600000.Idx → α) : S1600000x3.Idx → α :=
  broadcastInDim S1600000x3 ![0, 1] bcast_S1600000x1_S1600000x3_0_1 (colV v)

/-- A vector over the edges repeated along sixty-four columns. -/
def wide64V {α : Type} (v : S1600000.Idx → α) : S1600000x64.Idx → α :=
  broadcastInDim S1600000x64 ![0, 1] bcast_S1600000x1_S1600000x64_0_1 (colV v)

/-- The degree: one per edge summed into the edge's target node, plus one. -/
def degV (ei : IVec S2x1600000 32) : FVec Ideal S100000 .f32 :=
  addf
    (Host.scatterAdd scatter_S100000_S1600000x1_S1600000_n_0_0_1
      (broadcastInDim S100000 ![] bcast_S_S100000 (constant (F := Ideal) S_ .f32 0x00000000#32))
      (colV (dstV ei))
      (broadcastInDim S1600000 ![] bcast_S_S1600000 (constant (F := Ideal) S_ .f32 0x3F800000#32)))
    (broadcastInDim S100000 ![] bcast_S_S100000 (constant (F := Ideal) S_ .f32 0x3F800000#32))

/-- The inverse square root of the degree. -/
def dinvV (ei : IVec S2x1600000 32) : FVec Ideal S100000 .f32 := Host.rsqrt (degV ei)

/-- The inverse degree. -/
def dinv2V (ei : IVec S2x1600000 32) : FVec Ideal S100000 .f32 := mulf (dinvV ei) (dinvV ei)

/-- The edge weight: the inverse square roots of the degrees of the edge's two ends, multiplied. -/
def normV (ei : IVec S2x1600000 32) : FVec Ideal S1600000 .f32 :=
  mulf
    (Host.gather gather_S100000_S1600000x1_S1600000_n_0_n_n_0_1_1 (dinvV ei) (colV (nrmV (srcV ei))))
    (Host.gather gather_S100000_S1600000x1_S1600000_n_0_n_n_0_1_1 (dinvV ei) (colV (nrmV (dstV ei))))

/-- The weighted raw features of the edges' sources summed into the edges' targets. -/
def aggxV (x : FVec Ideal S100000x3 .f32) (ei : IVec S2x1600000 32) : FVec Ideal S100000x3 .f32 :=
  Host.scatterAdd scatter_S100000x3_S1600000x1_S1600000x3_1_0_0_1
    (broadcastInDim S100000x3 ![] bcast_S_S100000x3 (constant (F := Ideal) S_ .f32 0x00000000#32))
    (colV (dstV ei))
    (mulf (Host.gather gather_S100000x3_S1600000x1_S1600000x3_1_0_n_n_0_1_13 x (colV (nrmV (srcV ei)))) (wide3V (normV ei)))

/-- The weighted rows of a sixty-four-column table at the edges' sources summed into the edges' targets. -/
def agg2V (h : FVec Ideal S100000x64 .bf16) (sv dv : IVec S1600000 32) (nv : FVec Ideal S1600000 .f32) :
    FVec Ideal S100000x64 .f32 :=
  Host.scatterAdd scatter_S100000x64_S1600000x1_S1600000x64_1_0_0_1
    (broadcastInDim S100000x64 ![] bcast_S_S100000x64 (constant (F := Ideal) S_ .f32 0x00000000#32))
    (colV dv)
    (mulf (extf .f32 (Host.gather gather_S100000x64_S1600000x1_S1600000x64_1_0_n_n_0_1_164 h (colV (nrmV sv))) bitsLt_bf16_f32)
      (wide64V nv))

/-! ## The terms read at an index -/

theorem srcV_apply (ei : IVec S2x1600000 32) (e : Fin 1600000) : srcV ei (ix1 e) = ei (ix2 0 e) := by
  unfold srcV
  refine (shapeCast_1a_a_apply _ _ e).trans ?_
  exact slice2_axis0_apply 0 ei _ (0 : Fin 1) e (0 : Fin 2) rfl

theorem dstV_apply (ei : IVec S2x1600000 32) (e : Fin 1600000) : dstV ei (ix1 e) = ei (ix2 1 e) := by
  unfold dstV
  refine (shapeCast_1a_a_apply _ _ e).trans ?_
  exact slice2_axis0_apply 1 ei _ (0 : Fin 1) e (1 : Fin 2) rfl

theorem nrmV_apply (v : IVec S1600000 32) (e : Fin 1600000) : nrmV v (ix1 e) = Spec.nrm (v (ix1 e)) := rfl

theorem colV_apply {α : Type} (v : S1600000.Idx → α) (e : Fin 1600000) (u : Fin 1) : colV v (ix2 e u) = v (ix1 e) :=
  broadcastInDim_apply _ _ v _ (ix1 e) fun ax => by
    match ax with
    | ⟨0, _⟩ => exact (if_neg (show ¬ (1600000 : ℕ) = 1 by decide)).symm

theorem wide3V_apply {α : Type} (v : S1600000.Idx → α) (e : Fin 1600000) (k : Fin 3) : wide3V v (ix2 e k) = v (ix1 e) := by
  unfold wide3V
  refine (broadcastInDim_apply _ _ (colV v) _ (ix2 e (0 : Fin 1)) fun ax => ?_).trans (colV_apply v e 0)
  match ax with
  | ⟨0, _⟩ => exact (if_neg (show ¬ (1600000 : ℕ) = 1 by decide)).symm
  | ⟨1, _⟩ => exact (if_pos rfl).symm

theorem wide64V_apply {α : Type} (v : S1600000.Idx → α) (e : Fin 1600000) (k : Fin 64) : wide64V v (ix2 e k) = v (ix1 e) := by
  unfold wide64V
  refine (broadcastInDim_apply _ _ (colV v) _ (ix2 e (0 : Fin 1)) fun ax => ?_).trans (colV_apply v e 0)
  match ax with
  | ⟨0, _⟩ => exact (if_neg (show ¬ (1600000 : ℕ) = 1 by decide)).symm
  | ⟨1, _⟩ => exact (if_pos rfl).symm

/-- The accumulating scatter at the extended reals is the exact sum. -/
theorem hostScatterAdd_eq {φ : FTy} {s si u : Shape} {w : Nat} (d : ScatterDims s si u) (x : FVec Ideal s φ) (idx : IVec si w)
    (upd : FVec Ideal u φ) : Host.scatterAdd d x idx upd = Ideal.hostScatterAdd d x idx upd := rfl

/-- The host's inverse square root, elementwise. -/
theorem hostRsqrt_apply {φ : FTy} {s : Shape} (x : FVec Ideal s φ) (i : s.Idx) : Host.rsqrt x i = Ideal.rsqrt (x i) := rfl

/-- A scalar constant spread over a shape reads as the constant everywhere. -/
theorem bconst_apply {S : Shape} (dims : Fin S_.rank → Fin S.rank) (h : S_.BroadcastsInDim S dims) (b : BitVec 32) (i : S.Idx) :
    broadcastInDim S dims h (constant (F := Ideal) S_ .f32 b) i = Ideal.ofBits .f32 b := rfl

variable (a : Spec.In)

/-- The edges whose target word, read through the one-column index matrix, is node `n`. -/
theorem into_eq (n : Fin 100000) :
    Finset.univ.filter (fun e : Fin 1600000 => ((colV (dstV a.ei)) (ix2 e 0)).toInt = (n.val : ℤ)) = Spec.into a n :=
  Finset.filter_congr fun e _ => by rw [colV_apply, dstV_apply]; rfl

theorem degV_apply (n : Fin 100000) : degV a.ei (ix1 n) = Spec.deg a n := by
  unfold degV Spec.deg Spec.zero Spec.one
  rw [addf_apply, hostScatterAdd_eq,
    Cert.Lib.scatterAdd_flat_apply scatter_S100000_S1600000x1_S1600000_n_0_0_1 rfl rfl rfl rfl, into_eq, bconst_apply, bconst_apply]
  refine congrArg (fun t => (Ideal.ofBits .f32 0x00000000#32 + t) + Ideal.ofBits .f32 0x3F800000#32)
    (Finset.sum_congr rfl fun e _ => ?_)
  exact bconst_apply _ _ _ _

theorem dinvV_apply (n : Fin 100000) : dinvV a.ei (ix1 n) = Spec.dinv a n := by
  unfold dinvV Spec.dinv
  rw [hostRsqrt_apply, degV_apply]

theorem dinv2V_apply (n : Fin 100000) : dinv2V a.ei (ix1 n) = Spec.dinv2 a n := by
  unfold dinv2V Spec.dinv2
  rw [mulf_apply, dinvV_apply]

/-- The flat gather through a normalised one-column index matrix reads the table at the word's row. -/
theorem gatherFlat_apply (t : FVec Ideal S100000 .f32) (v : IVec S1600000 32) (e : Fin 1600000) :
    Host.gather gather_S100000_S1600000x1_S1600000_n_0_n_n_0_1_1 t (colV (nrmV v)) (ix1 e) = t (ix1 (Spec.row (v (ix1 e)))) := by
  refine (Cert.Lib.gather_flat_apply (by decide) gather_S100000_S1600000x1_S1600000_n_0_n_n_0_1_1 rfl rfl rfl rfl rfl rfl rfl
    t (colV (nrmV v)) e).trans ?_
  refine congrArg (fun r : Fin 100000 => t (ix1 r)) (Fin.ext ?_)
  show min ((colV (nrmV v)) (ix2 e 0)).toInt.toNat (100000 - 1) = min (Spec.nrm (v (ix1 e))).toInt.toNat (100000 - 1)
  rw [colV_apply, nrmV_apply]

theorem normV_apply (e : Fin 1600000) : normV a.ei (ix1 e) = Spec.norm a e := by
  unfold normV Spec.norm Spec.srcW Spec.dstW
  rw [mulf_apply, gatherFlat_apply, gatherFlat_apply, dinvV_apply, dinvV_apply, srcV_apply, dstV_apply]

/-- The row gather of a three-column table through a normalised one-column index matrix. -/
theorem gatherRows3_apply (x : FVec Ideal S100000x3 .f32) (v : IVec S1600000 32) (e : Fin 1600000) (k : Fin 3) :
    Host.gather gather_S100000x3_S1600000x1_S1600000x3_1_0_n_n_0_1_13 x (colV (nrmV v)) (ix2 e k)
      = x (ix2 (Spec.row (v (ix1 e))) k) := by
  refine (Cert.Lib.gather_rows_apply (by decide) gather_S100000x3_S1600000x1_S1600000x3_1_0_n_n_0_1_13 rfl rfl rfl rfl rfl rfl rfl
    x (colV (nrmV v)) e k).trans ?_
  refine congrArg (fun r : Fin 100000 => x (ix2 r k)) (Fin.ext ?_)
  show min ((colV (nrmV v)) (ix2 e 0)).toInt.toNat (100000 - 1) = min (Spec.nrm (v (ix1 e))).toInt.toNat (100000 - 1)
  rw [colV_apply, nrmV_apply]

/-- The row gather of a sixty-four-column table through a normalised one-column index matrix. -/
theorem gatherRows64_apply {α : Type} (x : S100000x64.Idx → α) (v : IVec S1600000 32) (e : Fin 1600000) (k : Fin 64) :
    Host.gather gather_S100000x64_S1600000x1_S1600000x64_1_0_n_n_0_1_164 x (colV (nrmV v)) (ix2 e k)
      = x (ix2 (Spec.row (v (ix1 e))) k) := by
  refine (Cert.Lib.gather_rows_apply (by decide) gather_S100000x64_S1600000x1_S1600000x64_1_0_n_n_0_1_164 rfl rfl rfl rfl rfl rfl rfl
    x (colV (nrmV v)) e k).trans ?_
  refine congrArg (fun r : Fin 100000 => x (ix2 r k)) (Fin.ext ?_)
  show min ((colV (nrmV v)) (ix2 e 0)).toInt.toNat (100000 - 1) = min (Spec.nrm (v (ix1 e))).toInt.toNat (100000 - 1)
  rw [colV_apply, nrmV_apply]

theorem aggxV_apply (n : Fin 100000) (i : Fin 3) : aggxV a.x a.ei (ix2 n i) = Spec.aggx a n i := by
  unfold aggxV Spec.aggx Spec.zero
  rw [hostScatterAdd_eq, Cert.Lib.scatterAdd_rows_apply scatter_S100000x3_S1600000x1_S1600000x3_1_0_0_1 rfl rfl rfl rfl, into_eq,
    bconst_apply]
  refine congrArg (fun t => Ideal.ofBits .f32 0x00000000#32 + t) (Finset.sum_congr rfl fun e _ => ?_)
  rw [mulf_apply, gatherRows3_apply, wide3V_apply, normV_apply, srcV_apply]
  rfl

theorem agg2V_apply (h : FVec Ideal S100000x64 .bf16) (hh : ∀ n j, h (ix2 n j) = Spec.hw2K a n j) (n : Fin 100000) (j : Fin 64) :
    agg2V h (srcV a.ei) (dstV a.ei) (normV a.ei) (ix2 n j) = Spec.agg2K a n j := by
  unfold agg2V Spec.agg2K Spec.zero
  rw [hostScatterAdd_eq, Cert.Lib.scatterAdd_rows_apply scatter_S100000x64_S1600000x1_S1600000x64_1_0_0_1 rfl rfl rfl rfl, into_eq,
    bconst_apply]
  refine congrArg (fun t => Ideal.ofBits .f32 0x00000000#32 + t) (Finset.sum_congr rfl fun e _ => ?_)
  rw [mulf_apply, extf_apply, gatherRows64_apply, wide64V_apply, normV_apply, srcV_apply, hh]
  rfl

/-! ## What the two host stretches leave, over an arbitrary valuation before them -/

section Stretches

variable (W : Valuation τ sig (Elt Ideal))

theorem host0_v39 :
    (StableHlo.after hostOps0 W main_v39 : S100000x3.Idx → EReal)
      = aggxV (W main_arg0 : S100000x3.Idx → EReal) (W main_arg1 : S2x1600000.Idx → BitVec 32) := by
  dsimp only [hostOps0]
  after_results_simp
  rfl

theorem host0_v40 :
    (StableHlo.after hostOps0 W main_v40 : S100000x1.Idx → EReal)
      = shapeCast S100000x1 (dinv2V (W main_arg1 : S2x1600000.Idx → BitVec 32)) shapeCasts_S100000_S100000x1 := by
  dsimp only [hostOps0]
  after_results_simp
  rfl

theorem host0_v41 :
    (StableHlo.after hostOps0 W main_v41 : S1x64.Idx → EReal)
      = shapeCast S1x64 (W main_arg4 : S64.Idx → EReal) shapeCasts_S64_S1x64 := by
  dsimp only [hostOps0]
  after_results_simp
  rfl

theorem host0_v26 :
    (StableHlo.after hostOps0 W main_v26 : S1600000.Idx → EReal) = normV (W main_arg1 : S2x1600000.Idx → BitVec 32) := by
  dsimp only [hostOps0]
  after_results_simp
  rfl

theorem host0_v11 :
    (StableHlo.after hostOps0 W main_v11 : S100000.Idx → EReal) = dinv2V (W main_arg1 : S2x1600000.Idx → BitVec 32) := by
  dsimp only [hostOps0]
  after_results_simp
  rfl

theorem host0_v1 :
    (StableHlo.after hostOps0 W main_v1 : S1600000.Idx → BitVec 32) = srcV (W main_arg1 : S2x1600000.Idx → BitVec 32) := by
  dsimp only [hostOps0]
  after_results_simp
  rfl

theorem host0_v3 :
    (StableHlo.after hostOps0 W main_v3 : S1600000.Idx → BitVec 32) = dstV (W main_arg1 : S2x1600000.Idx → BitVec 32) := by
  dsimp only [hostOps0]
  after_results_simp
  rfl

theorem host1_v56 :
    (StableHlo.after hostOps1 W main_v56 : S100000x64.Idx → EReal)
      = agg2V (W main_v42 : S100000x64.Idx → EReal) (W main_v1 : S1600000.Idx → BitVec 32)
          (W main_v3 : S1600000.Idx → BitVec 32) (W main_v26 : S1600000.Idx → EReal) := by
  dsimp only [hostOps1]
  after_results_simp
  rfl

theorem host1_v57 :
    (StableHlo.after hostOps1 W main_v57 : S100000x1.Idx → BitVec 32)
      = shapeCast S100000x1 (W main_arg2 : S100000.Idx → BitVec 32) shapeCasts_S100000_S100000x1 := by
  dsimp only [hostOps1]
  after_results_simp
  rfl

theorem host1_v58 :
    (StableHlo.after hostOps1 W main_v58 : S100000x1.Idx → EReal)
      = shapeCast S100000x1 (W main_v11 : S100000.Idx → EReal) shapeCasts_S100000_S100000x1 := by
  dsimp only [hostOps1]
  after_results_simp
  rfl

theorem host1_v59 :
    (StableHlo.after hostOps1 W main_v59 : S1x64.Idx → EReal)
      = shapeCast S1x64 (W main_arg6 : S64.Idx → EReal) shapeCasts_S64_S1x64 := by
  dsimp only [hostOps1]
  after_results_simp
  rfl

theorem host1_v60 :
    (StableHlo.after hostOps1 W main_v60 : S1x10.Idx → EReal)
      = shapeCast S1x10 (W main_arg8 : S10.Idx → EReal) shapeCasts_S10_S1x10 := by
  dsimp only [hostOps1]
  after_results_simp
  rfl

end Stretches

/-! ## The program's buffers between its items, read at an index -/

/-- A function of a two-axis index given by its values at the pairs of coordinates. -/
theorem fun2_ext {α : Type} {p q : ℕ} (f : (⟨2, ![p, q]⟩ : Shape).Idx → α) (g : Fin p → Fin q → α)
    (h : ∀ r k, f (ix2 r k) = g r k) : f = fun i => g (i 0) (i 1) :=
  funext fun i => (congrArg f (eq_ix2 i)).trans (h (i 0) (i 1))

section Buffers

variable (m : (ℓ : Loc nD τ sig) → Buf (Elt Ideal) ℓ) (outs : Outs (F := Ideal)) (c : Dev nD)

/-- The nine argument arrays as launched. -/
def inOf : Spec.In :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8)⟩

theorem V1_arg0 : V1 m c main_arg0 = (inOf m c).x := (V1_of m c main_arg0 (by decide)).trans rfl
theorem V1_arg3 : V1 m c main_arg3 = (inOf m c).W1 := (V1_of m c main_arg3 (by decide)).trans rfl
theorem V1_arg5 : V1 m c main_arg5 = (inOf m c).W2 := (V1_of m c main_arg5 (by decide)).trans rfl

theorem V1_v39 : (V1 m c main_v39 : S100000x3.Idx → EReal) = fun i => Spec.aggx (inOf m c) (i 0) (i 1) :=
  (host0_v39 (V0 m c)).trans (fun2_ext _ _ (aggxV_apply (inOf m c)))

theorem V1_v40 : (V1 m c main_v40 : S100000x1.Idx → EReal) = fun i => Spec.dinv2 (inOf m c) (i 0) :=
  (host0_v40 (V0 m c)).trans (fun2_ext _ (fun r _ => Spec.dinv2 (inOf m c) r) fun r k =>
    (Cert.LibKeepdimsColumn.shapeCast_a_a1_apply _ _ r k).trans (dinv2V_apply (inOf m c) r))

theorem V1_v41 : (V1 m c main_v41 : S1x64.Idx → EReal) = fun i => (inOf m c).b1 (ix1 (i 1)) :=
  (host0_v41 (V0 m c)).trans (fun2_ext _ (fun _ k => (inOf m c).b1 (ix1 k)) fun r k => shapeCast_a_1a_apply _ _ r k)

/-- The source words, the target words, the edge weights and the inverse degrees of the first stretch, still there after the
    first region. -/
theorem V2_v1 : (V2 m outs c main_v1 : S1600000.Idx → BitVec 32) = srcV (inOf m c).ei :=
  (V2_of m outs c main_v1 (by decide)).trans (host0_v1 (V0 m c))
theorem V2_v3 : (V2 m outs c main_v3 : S1600000.Idx → BitVec 32) = dstV (inOf m c).ei :=
  (V2_of m outs c main_v3 (by decide)).trans (host0_v3 (V0 m c))
theorem V2_v26 : (V2 m outs c main_v26 : S1600000.Idx → EReal) = normV (inOf m c).ei :=
  (V2_of m outs c main_v26 (by decide)).trans (host0_v26 (V0 m c))
theorem V2_v11 : (V2 m outs c main_v11 : S100000.Idx → EReal) = dinv2V (inOf m c).ei :=
  (V2_of m outs c main_v11 (by decide)).trans (host0_v11 (V0 m c))
theorem V2_v42 : V2 m outs c main_v42 = outs 2 main_v42 c := Function.update_self _ _ _

theorem V3_v42 : V3 m outs c main_v42 = outs 2 main_v42 c :=
  (V3_of m outs c main_v42 (by decide)).trans (V2_v42 m outs c)

theorem V3_arg7 : V3 m outs c main_arg7 = (inOf m c).Wfc :=
  (V3_of m outs c main_arg7 (by decide)).trans ((V2_of m outs c main_arg7 (by decide)).trans ((V1_of m c main_arg7 (by decide)).trans rfl))

theorem V3_v56 (hh : (outs 2 main_v42 c : S100000x64.Idx → EReal) = fun i => Spec.hw2K (inOf m c) (i 0) (i 1)) :
    (V3 m outs c main_v56 : S100000x64.Idx → EReal) = fun i => Spec.agg2K (inOf m c) (i 0) (i 1) :=
  (host1_v56 (V2 m outs c)).trans
    ((congr (congr (congr (congrArg agg2V (V2_v42 m outs c)) (V2_v1 m outs c)) (V2_v3 m outs c)) (V2_v26 m outs c)).trans
      (fun2_ext _ _ (agg2V_apply (inOf m c) (outs 2 main_v42 c) fun n j => congrFun hh (ix2 n j))))

theorem V3_v57 : (V3 m outs c main_v57 : S100000x1.Idx → BitVec 32) = fun i => (inOf m c).batch (ix1 (i 0)) :=
  (host1_v57 (V2 m outs c)).trans
    ((congrArg (fun v : S100000.Idx → BitVec 32 => shapeCast S100000x1 v shapeCasts_S100000_S100000x1)
        ((V2_of m outs c main_arg2 (by decide)).trans ((V1_of m c main_arg2 (by decide)).trans rfl))).trans
      (fun2_ext _ (fun r _ => (inOf m c).batch (ix1 r)) fun r k => Cert.LibKeepdimsColumn.shapeCast_a_a1_apply _ _ r k))

theorem V3_v58 : (V3 m outs c main_v58 : S100000x1.Idx → EReal) = fun i => Spec.dinv2 (inOf m c) (i 0) :=
  (host1_v58 (V2 m outs c)).trans
    ((congrArg (fun v : S100000.Idx → EReal => shapeCast S100000x1 v shapeCasts_S100000_S100000x1) (V2_v11 m outs c)).trans
      (fun2_ext _ (fun r _ => Spec.dinv2 (inOf m c) r) fun r k =>
        (Cert.LibKeepdimsColumn.shapeCast_a_a1_apply _ _ r k).trans (dinv2V_apply (inOf m c) r)))

theorem V3_v59 : (V3 m outs c main_v59 : S1x64.Idx → EReal) = fun i => (inOf m c).b2 (ix1 (i 1)) :=
  (host1_v59 (V2 m outs c)).trans
    ((congrArg (fun v : S64.Idx → EReal => shapeCast S1x64 v shapeCasts_S64_S1x64)
        ((V2_of m outs c main_arg6 (by decide)).trans ((V1_of m c main_arg6 (by decide)).trans rfl))).trans
      (fun2_ext _ (fun _ k => (inOf m c).b2 (ix1 k)) fun r k => shapeCast_a_1a_apply _ _ r k))

theorem V3_v60 : (V3 m outs c main_v60 : S1x10.Idx → EReal) = fun i => (inOf m c).bfc (ix1 (i 1)) :=
  (host1_v60 (V2 m outs c)).trans
    ((congrArg (fun v : S10.Idx → EReal => shapeCast S1x10 v shapeCasts_S10_S1x10)
        ((V2_of m outs c main_arg8 (by decide)).trans ((V1_of m c main_arg8 (by decide)).trans rfl))).trans
      (fun2_ext _ (fun _ k => (inOf m c).bfc (ix1 k)) fun r k => shapeCast_a_1a_apply _ _ r k))

end Buffers

end Cert.KSide

end
-- ==== Proof.KIConn.lean ====
/-
  The kernel regions' formulas meet the specification. Region 0's formula, read over arrays that hold the
  specification's aggregated features, squared inverse-root degrees, biases and weights, is the specification's
  second-layer product in the kernel's arrangement; region 1's formula, read over arrays that hold the aggregated
  second-layer features, that product, the graph words and the remaining parameters, is the specification's result
  in the kernel's arrangement. Each is a rewriting of the arrays followed by reading a two-coordinate index at
  its coordinates; the twenty-block accumulations agree block by block.
-/
import proofs.«428876_j16381005267207_3_alg».proof.Proof.KIForms
import proofs.«428876_j16381005267207_3_alg».proof.Proof.Spec
import proofs.«428876_j16381005267207_3_alg».proof.Proof.KIRun
import proofs.«428876_j16381005267207_3_alg».proof.Proof.KHost

noncomputable section

open scoped BigOperators

namespace Cert.KSide

open Cert.KernelIdeal Cert.KernelIdeal.Hand Idealize.ShloMosaic Idealize.ShloMosaic.TcCoe Idealize.ShloMosaic.ValueIdx Idealize.SL.Sem

section Generic

variable (V : (c : Dev nD) → (b : Ref sig .tc) → Buf (Elt Ideal) ((c : Thread nD τ).loc b)) (c : Dev nD) (a : Cert.Spec.In)

/-- Region 0's formula over arrays that hold the specification's quantities is the specification's second-layer
    product in the kernel's arrangement. -/
theorem H2pre_of
    (h39 : aAggx V c = fun i => Cert.Spec.aggx a (i 0) (i 1))
    (h40 : aD2 V c = fun i => Cert.Spec.dinv2 a (i 0))
    (h41 : aB1 V c = fun i => a.b1 (ix1 (i 1)))
    (h0 : aX V c = a.x) (h3 : aW1 V c = a.W1) (h5 : aW2 V c = a.W2)
    (n : Fin 100000) (q : Fin 64) : H2pre V c n q = Cert.Spec.hw2K a n q := by
  unfold H2pre Cert.Spec.hw2K Cert.Spec.h1K
  rw [h39, h40, h41, h0, h3, h5]

theorem Relu2_of
    (h56 : bAgg V c = fun i => Cert.Spec.agg2K a (i 0) (i 1))
    (h42 : bH V c = fun i => Cert.Spec.hw2K a (i 0) (i 1))
    (h58 : bD2 V c = fun i => Cert.Spec.dinv2 a (i 0))
    (h59 : bB2 V c = fun i => a.b2 (ix1 (i 1)))
    (n : Fin 100000) (j : Fin 64) : Relu2 V c n j = Cert.Spec.h2K a n j := by
  unfold Relu2 Cert.Spec.h2K
  rw [h56, h42, h58, h59]

theorem Memb_of (h57 : bBatch V c = fun i => a.batch (ix1 (i 0))) (n : Fin 100000) (g : Fin 64) :
    Memb V c n g = Cert.Spec.oh (a.batch (ix1 n)) g := by
  unfold Memb
  rw [h57]

theorem ACC_of
    (h56 : bAgg V c = fun i => Cert.Spec.agg2K a (i 0) (i 1))
    (h42 : bH V c = fun i => Cert.Spec.hw2K a (i 0) (i 1))
    (h58 : bD2 V c = fun i => Cert.Spec.dinv2 a (i 0))
    (h59 : bB2 V c = fun i => a.b2 (ix1 (i 1)))
    (h57 : bBatch V c = fun i => a.batch (ix1 (i 0)))
    (t : ℕ) (g j : Fin 64) : ACC V c t g j = Cert.Spec.accK a t g j := by
  induction t with
  | zero => rfl
  | succ t ih =>
    rw [ACC, Cert.Spec.accK, ih]
    refine congrArg (Cert.Spec.accK a t g j + ·) (Finset.sum_congr rfl fun r _ => ?_)
    rw [Memb_of V c a h57, Relu2_of V c a h56 h42 h58 h59]

theorem CNT_of (h57 : bBatch V c = fun i => a.batch (ix1 (i 0))) (t : ℕ) (g : Fin 64) :
    CNT V c t g = Cert.Spec.cntK a t g := by
  induction t with
  | zero => rfl
  | succ t ih =>
    rw [CNT, Cert.Spec.cntK, ih]
    refine congrArg (Cert.Spec.cntK a t g + ·) (Finset.sum_congr rfl fun r _ => ?_)
    rw [Memb_of V c a h57]

theorem OUT1_of
    (h56 : bAgg V c = fun i => Cert.Spec.agg2K a (i 0) (i 1))
    (h42 : bH V c = fun i => Cert.Spec.hw2K a (i 0) (i 1))
    (h58 : bD2 V c = fun i => Cert.Spec.dinv2 a (i 0))
    (h59 : bB2 V c = fun i => a.b2 (ix1 (i 1)))
    (h57 : bBatch V c = fun i => a.batch (ix1 (i 0)))
    (h7 : bWfc V c = a.Wfc) (h60 : bBfc V c = fun i => a.bfc (ix1 (i 1)))
    (g : Fin 64) (o : Fin 10) : OUT1 V c g o = Cert.Spec.outK a g o := by
  unfold OUT1 Cert.Spec.outK
  rw [h7, h60, CNT_of V c a h57]
  refine congrArg₂ (· + ·) (Finset.sum_congr rfl fun j _ => ?_) rfl
  rw [ACC_of V c a h56 h42 h58 h59 h57]

end Generic

section Specific
open Cert.KernelIdeal.Gen
variable (m : (ℓ : Loc nD τ sig) → Buf (Elt Ideal) ℓ) (c : Dev nD)

/-- Region 0, entered with what the first host stretch leaves, computes the specification's second-layer product. -/
theorem H2pre_eq (n : Fin 100000) (q : Fin 64) : H2pre (V1r m) c n q = Cert.Spec.hw2K (inOf m c) n q :=
  H2pre_of (V1r m) c (inOf m c) (V1_v39 m c) (V1_v40 m c) (V1_v41 m c) (V1_arg0 m c) (V1_arg3 m c) (V1_arg5 m c) n q

/-- Region 1, entered with what the second host stretch leaves once region 0's array holds the second-layer
    product, computes the specification's result in the kernel's arrangement. -/
theorem OUT1_eq (g : Fin 64) (o : Fin 10)
    (hh : (outs0 m 2 main_v42 c : S100000x64.Idx → EReal) = fun i => Cert.Spec.hw2K (inOf m c) (i 0) (i 1)) :
    OUT1 (V3r m) c g o = Cert.Spec.outK (inOf m c) g o :=
  OUT1_of (V3r m) c (inOf m c) (V3_v56 m (outs0 m) c hh) ((V3_v42 m (outs0 m) c).trans hh) (V3_v58 m (outs0 m) c)
    (V3_v59 m (outs0 m) c) (V3_v57 m (outs0 m) c) (V3_arg7 m (outs0 m) c) (V3_v60 m (outs0 m) c) g o

end Specific

end Cert.KSide

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.KIVal0.lean ====
/-
  The value kernel region 0 leaves in its output array, at the extended reals.

  Point `t` of the twenty reads rows [5000 t, 5000 t + 5000) of the aggregated features, of the node features and of
  the squared inverse-root degrees, and the whole of the two weight matrices and of the bias row; it stores over its
  output block, at (p, q),
      Σ_k max((Σ_i (aggx[p,i] + x[p,i] · d2[p,0]) · W1[i,k]) + b1[0,k], 0) · W2[k,q]
  (the two casts to the sixteen-bit format are the identity on the extended reals). Every point writes its block back,
  the blocks tile the 100000 rows, so the array ends holding that formula at every (n, q), with the input arrays read at
  row n.
-/
import proofs.«428876_j16381005267207_3_alg».proof.Proof.KIReg0
import proofs.«428876_j16381005267207_3_alg».proof.Proof.KIForms
import proofs.«428876_j16381005267207_3_alg».proof.Proof.LibPlainMatmul
import proofs.«428876_j16381005267207_3_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The payload at an index -/

/-- The bias row, cast to its own shape and broadcast down the 5000 rows, reads at `(p, k)` its entry `(0, k)`. -/
theorem biasRow_apply (x4 : FVec Ideal S1x64 .f32) (hc : S1x64.ShapeCasts S1x64) (hb : S1x64.Broadcasts S5000x64)
    (p : Fin 5000) (k : Fin 64) :
    broadcastTo S5000x64 (shapeCast S1x64 x4 hc) hb (ix2 p k) = x4 (ix2 (0 : Fin 1) k) := by
  rw [shapeCast_self]
  refine broadcastTo_apply x4 hb (ix2 p k) (ix2 (0 : Fin 1) k) fun ax => ?_
  match ax with
  | ⟨0, _⟩ => rfl
  | ⟨1, _⟩ => rfl

/-- The degree column, cast to its own shape and broadcast along the 3 feature columns, reads at `(p, i)` its entry
    of row `p`. -/
theorem degCol_apply (x2 : FVec Ideal S5000x1 .f32) (hc : S5000x1.ShapeCasts S5000x1) (hb : S5000x1.Broadcasts S5000x3)
    (p : Fin 5000) (i : Fin 3) :
    broadcastTo S5000x3 (shapeCast S5000x1 x2 hc) hb (ix2 p i) = x2 (ix2 p (0 : Fin 1)) := by
  rw [shapeCast_self]
  exact Cert.LibKeepdimsColumn.broadcastTo_a1_ab_apply x2 hb p i

/-- The zero the rectifier compares with. -/
theorem zeroSplat_eq : (Scalar.ofBits (F := Ideal) .f32 0x00000000#32 : EReal) = Cert.Spec.zero := rfl

/-- THE PAYLOAD AT `(p, q)`: the first product of the normalised features with the first weights, plus the bias,
    rectified, times the second weights. -/
theorem pay0_apply (x0 : FVec Ideal S5000x3 .f32) (x1 : FVec Ideal S5000x3 .f32) (x2 : FVec Ideal S5000x1 .f32)
    (x3 : FVec Ideal S3x64 .f32) (x4 : FVec Ideal S1x64 .f32) (x5 : FVec Ideal S64x64 .f32) (p : Fin 5000) (q : Fin 64) :
    k0_pay1 (F := Ideal) x0 x1 x2 x3 x4 x5 (ix2 p q)
      = ∑ k : Fin 64, max ((∑ i : Fin 3, (x0 (ix2 p i) + x1 (ix2 p i) * x2 (ix2 p (0 : Fin 1))) * x3 (ix2 i k))
          + x4 (ix2 (0 : Fin 1) k)) Cert.Spec.zero * x5 (ix2 k q) := by
  unfold k0_pay1
  refine (Cert.Lib.matmul_plain_apply dot_S5000x64_S64x64_S5000x64_1_0_0_1_n_n rfl rfl rfl rfl rfl rfl none _ _ p q).trans ?_
  refine Finset.sum_congr rfl fun k _ => ?_
  refine congrArg (· * x5 (ix2 k q)) ?_
  refine congrArg (fun z : EReal => max z Cert.Spec.zero) ?_
  refine congrArg₂ (· + ·) ?_ (biasRow_apply x4 _ _ p k)
  refine (Cert.Lib.matmul_plain_apply dot_S5000x3_S3x64_S5000x64_1_0_0_1_n_n rfl rfl rfl rfl rfl rfl none _ _ p k).trans ?_
  refine Finset.sum_congr rfl fun i _ => ?_
  refine congrArg (· * x3 (ix2 i k)) ?_
  rw [shapeCast_self]
  exact congrArg (fun z : EReal => x0 (ix2 p i) + x1 (ix2 p i) * z) (degCol_apply x2 _ _ p i)

/-! ## Where the blocks sit -/

theorem zeroOff : (![0, 0] : Fin 2 → Nat) = fun _ => 0 := funext fun a => by fin_cases a <;> rfl

/-- The windows' block indices at point `t`, decided over the twenty points: the three row windows and the output are
    at block `(t, 0)`, the two weight matrices and the bias row at block `(0, 0)`. -/
theorem blockIdx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

variable (V : (c : Dev nD) → (b : Ref sig .tc) → Buf (Elt Ideal) ((c : Thread nD τ).loc b)) (c : Dev nD)

/-! The six input blocks of point `t`, each named at its literal type. -/

abbrev blkAggx (t : Fin cfg0.N) : FVec Ideal S5000x3 .f32 := iblk0 (F := Ideal) V c 0 t
abbrev blkX (t : Fin cfg0.N) : FVec Ideal S5000x3 .f32 := iblk0 (F := Ideal) V c 1 t
abbrev blkD2 (t : Fin cfg0.N) : FVec Ideal S5000x1 .f32 := iblk0 (F := Ideal) V c 2 t
abbrev blkW1 (t : Fin cfg0.N) : FVec Ideal S3x64 .f32 := iblk0 (F := Ideal) V c 3 t
abbrev blkB1 (t : Fin cfg0.N) : FVec Ideal S1x64 .f32 := iblk0 (F := Ideal) V c 4 t
abbrev blkW2 (t : Fin cfg0.N) : FVec Ideal S64x64 .f32 := iblk0 (F := Ideal) V c 5 t

/-- Row `p` of point `t`'s block of the aggregated features is row `5000 t + p` of the array. -/
theorem blkAggx_apply (t : Fin cfg0.N) (p : Fin 5000) (i : Fin 3) (n : Fin 100000) (hn : n.val = 5000 * t.val + p.val) :
    blkAggx V c t (ix2 p i) = aAggx V c (ix2 n i) := by
  obtain ⟨⟨e0, e1⟩, -⟩ := blockIdx0 t
  show aAggx V c (((cfg0.win 0).blk t).view.emb (ix2 p i)) = aAggx V c (ix2 n i)
  refine congrArg (aAggx V c) (funext fun a => Fin.ext ?_)
  match a with
  | ⟨0, _⟩ => show win0_0.index t (0 : Fin 2) * 5000 + 1 * p.val = n.val; omega
  | ⟨1, _⟩ => show win0_0.index t (1 : Fin 2) * 3 + 1 * i.val = i.val; omega

/-- Row `p` of point `t`'s block of the node features is row `5000 t + p` of the array. -/
theorem blkX_apply (t : Fin cfg0.N) (p : Fin 5000) (i : Fin 3) (n : Fin 100000) (hn : n.val = 5000 * t.val + p.val) :
    blkX V c t (ix2 p i) = aX V c (ix2 n i) := by
  obtain ⟨-, ⟨e0, e1⟩, -⟩ := blockIdx0 t
  show aX V c (((cfg0.win 1).blk t).view.emb (ix2 p i)) = aX V c (ix2 n i)
  refine congrArg (aX V c) (funext fun a => Fin.ext ?_)
  match a with
  | ⟨0, _⟩ => show win0_1.index t (0 : Fin 2) * 5000 + 1 * p.val = n.val; omega
  | ⟨1, _⟩ => show win0_1.index t (1 : Fin 2) * 3 + 1 * i.val = i.val; omega

/-- Row `p` of point `t`'s block of the squared inverse-root degrees is row `5000 t + p` of the column. -/
theorem blkD2_apply (t : Fin cfg0.N) (p : Fin 5000) (n : Fin 100000) (hn : n.val = 5000 * t.val + p.val) :
    blkD2 V c t (ix2 p (0 : Fin 1)) = aD2 V c (ix2 n (0 : Fin 1)) := by
  obtain ⟨-, -, ⟨e0, e1⟩, -⟩ := blockIdx0 t
  show aD2 V c (((cfg0.win 2).blk t).view.emb (ix2 p (0 : Fin 1))) = aD2 V c (ix2 n (0 : Fin 1))
  refine congrArg (aD2 V c) (funext fun a => Fin.ext ?_)
  match a with
  | ⟨0, _⟩ => show win0_2.index t (0 : Fin 2) * 5000 + 1 * p.val = n.val; omega
  | ⟨1, _⟩ => show win0_2.index t (1 : Fin 2) * 1 + 1 * 0 = 0; omega

/-- The first weight matrix's block is the whole matrix, at every point. -/
theorem blkW1_apply (t : Fin cfg0.N) (i : Fin 3) (k : Fin 64) : blkW1 V c t (ix2 i k) = aW1 V c (ix2 i k) := by
  obtain ⟨-, -, -, ⟨e0, e1⟩, -⟩ := blockIdx0 t
  show aW1 V c (((cfg0.win 3).blk t).view.emb (ix2 i k)) = aW1 V c (ix2 i k)
  refine congrArg (aW1 V c) (funext fun a => Fin.ext ?_)
  match a with
  | ⟨0, _⟩ => show win0_3.index t (0 : Fin 2) * 3 + 1 * i.val = i.val; omega
  | ⟨1, _⟩ => show win0_3.index t (1 : Fin 2) * 64 + 1 * k.val = k.val; omega

/-- The bias row's block is the whole row, at every point. -/
theorem blkB1_apply (t : Fin cfg0.N) (k : Fin 64) : blkB1 V c t (ix2 (0 : Fin 1) k) = aB1 V c (ix2 (0 : Fin 1) k) := by
  obtain ⟨-, -, -, -, ⟨e0, e1⟩, -⟩ := blockIdx0 t
  show aB1 V c (((cfg0.win 4).blk t).view.emb (ix2 (0 : Fin 1) k)) = aB1 V c (ix2 (0 : Fin 1) k)
  refine congrArg (aB1 V c) (funext fun a => Fin.ext ?_)
  match a with
  | ⟨0, _⟩ => show win0_4.index t (0 : Fin 2) * 1 + 1 * 0 = 0; omega
  | ⟨1, _⟩ => show win0_4.index t (1 : Fin 2) * 64 + 1 * k.val = k.val; omega

/-- The second weight matrix's block is the whole matrix, at every point. -/
theorem blkW2_apply (t : Fin cfg0.N) (k : Fin 64) (q : Fin 64) : blkW2 V c t (ix2 k q) = aW2 V c (ix2 k q) := by
  obtain ⟨-, -, -, -, -, ⟨e0, e1⟩, -⟩ := blockIdx0 t
  show aW2 V c (((cfg0.win 5).blk t).view.emb (ix2 k q)) = aW2 V c (ix2 k q)
  refine congrArg (aW2 V c) (funext fun a => Fin.ext ?_)
  match a with
  | ⟨0, _⟩ => show win0_5.index t (0 : Fin 2) * 64 + 1 * k.val = k.val; omega
  | ⟨1, _⟩ => show win0_5.index t (1 : Fin 2) * 64 + 1 * q.val = q.val; omega

/-! ## What a point writes back -/

/-- The array the region leaves: the formula at every index. -/
abbrev arr0Formula : S100000x64.Idx → EReal := fun i => H2pre V c (i 0) (i 1)

/-- Point `t` writes back the payload of its six input blocks. -/
theorem flushed0_6_pay (t : Fin cfg0.N) :
    (dat0 (F := Ideal) V c).flushed 6 t
      = k0_pay1 (F := Ideal) (blkAggx V c t) (blkX V c t) (blkD2 V c t) (blkW1 V c t) (blkB1 V c t) (blkW2 V c t) := by
  show (cfg0.win 6).cut (grid0.coords t) ((dat0 (F := Ideal) V c).after 6 t) = _
  rw [after0_6]
  unfold out0_6
  rw [View.canon_unit_zero zeroOff]
  simp only [View.ld_unit_zero (S := S5000x3) zeroOff, View.ld_unit_zero (S := S5000x1) zeroOff,
    View.ld_unit_zero (S := S3x64) zeroOff, View.ld_unit_zero (S := S1x64) zeroOff, View.ld_unit_zero (S := S64x64) zeroOff]
  rfl

/-- WHAT POINT `t` WRITES BACK is block `t` of the formula: at block row `p` every row window is read at array row
    `5000 t + p`, which is where the output block's row `p` sits. -/
theorem flushed0_6_read (t : Fin cfg0.N) :
    (dat0 (F := Ideal) V c).flushed 6 t = ((cfg0.win 6).blk t).view.read (Elt Ideal) (arr0Formula V c) := by
  refine (flushed0_6_pay V c t).trans (funext fun (j : S5000x64.Idx) => ?_)
  obtain ⟨p, q, rfl⟩ : ∃ (p : Fin 5000) (q : Fin 64), j = ix2 p q := ⟨j 0, j 1, eq_ix2 j⟩
  have ht : t.val < 20 := Nat.lt_of_lt_of_eq t.isLt N_0
  obtain ⟨-, -, -, -, -, -, e0, e1⟩ := blockIdx0 t
  have hemb : ((cfg0.win 6).blk t).view.emb (ix2 p q) = (ix2 (⟨5000 * t.val + p.val, by omega⟩ : Fin 100000) q : S100000x64.Idx) := by
    funext a; apply Fin.ext
    match a with
    | ⟨0, _⟩ => show win0_6.index t (0 : Fin 2) * 5000 + 1 * p.val = 5000 * t.val + p.val; omega
    | ⟨1, _⟩ => show win0_6.index t (1 : Fin 2) * 64 + 1 * q.val = q.val; omega
  refine (pay0_apply (blkAggx V c t) (blkX V c t) (blkD2 V c t) (blkW1 V c t) (blkB1 V c t) (blkW2 V c t) p q).trans ?_
  show _ = arr0Formula V c (((cfg0.win 6).blk t).view.emb (ix2 p q))
  rw [hemb]
  show _ = H2pre V c (⟨5000 * t.val + p.val, by omega⟩ : Fin 100000) q
  unfold H2pre
  refine Finset.sum_congr rfl fun k _ => ?_
  refine congrArg₂ (· * ·) (congrArg (fun z : EReal => max z Cert.Spec.zero)
    (congrArg₂ (· + ·) (Finset.sum_congr rfl fun i _ => ?_) (blkB1_apply V c t k))) (blkW2_apply V c t k q)
  exact congrArg₂ (· * ·) (congrArg₂ (· + ·) (blkAggx_apply V c t p i _ rfl)
    (congrArg₂ (· * ·) (blkX_apply V c t p i _ rfl) (blkD2_apply V c t p _ rfl))) (blkW1_apply V c t i k)

/-! ## The blocks tile the rows -/

/-- Row `n` is in the block of point `n / 5000`, and every point writes its block back. -/
theorem rows_covered (i : S100000x64.Idx) :
    ∃ t : Fin cfg0.N, (cfg0.win 6).flush t = true ∧ i ∈ ((cfg0.win 6).blk t).view.set := by
  have hi0 : (i 0).val < 100000 := idx2_lt0 i
  have hi1 : (i 1).val < 64 := (i 1).isLt
  have hq : (i 0).val / 5000 < cfg0.N := by rw [show cfg0.N = 20 from N_0]; omega
  obtain ⟨-, -, -, -, -, -, e0, e1⟩ := blockIdx0 ⟨(i 0).val / 5000, hq⟩
  refine ⟨⟨(i 0).val / 5000, hq⟩, flush0_6 _, ?_⟩
  show i ∈ ((View.whole main_v42).slice (win0_6.rect ⟨(i 0).val / 5000, hq⟩)).set
  rw [View.set_slice_whole, Rect.mem_set_unit]
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hq⟩ (1 : Fin 2) * 64 ≤ (i 1).val
      ∧ (i 1).val < win0_6.index ⟨(i 0).val / 5000, hq⟩ (1 : Fin 2) * 64 + 64
    omega

/-! ## The array after the region -/

/-- THE OUTPUT ARRAY after the twenty write-backs holds the formula at every `(n, q)`. -/
theorem arr0_final (V : (c : Dev nD) → (b : Ref sig .tc) → Buf (Elt Ideal) ((c : Thread nD τ).loc b)) (c : Dev nD)
    (n : Fin 100000) (q : Fin 64) :
    ((dat0 (F := Ideal) V c).arrAt 6 cfg0.N : S100000x64.Idx → EReal) (ValueIdx.ix2 n q) = H2pre V c n q :=
  congrFun ((dat0 (F := Ideal) V c).arrAt_eq_of_cover 6 (arr0Formula V c) (fun t _ => flushed0_6_read V c t) (rows_covered)) (ix2 n q)

end Cert.KernelIdeal.Hand

end
-- ==== Proof.KIBlk1.lean ====
/-
  Kernel region 1's input blocks, read where they sit in their arrays, at the extended reals.

  The grid has twenty points. Point `t` is handed rows [5000 t, 5000 t + 5000) of the graph words' column, of the
  aggregated second-layer features, of region 0's array and of the squared inverse-root degrees' column; the second
  bias row, the last weight matrix and the last bias row are handed whole at every point. Row `r` of a row block is
  therefore row `5000 t + r` of its array, and `5000 t + r` is below 100000, so it is the row the specification calls
  `rowAt t r`.
-/
import proofs.«428876_j16381005267207_3_alg».proof.Proof.KIReg1Runs
import proofs.«428876_j16381005267207_3_alg».proof.Proof.KIForms
import proofs.«428876_j16381005267207_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The input windows' block indices at point `t`, decided over the twenty points: the four row windows are at block
    `(t, 0)`, the bias rows and the last weight matrix at block `(0, 0)`. -/
theorem b1_blockIdx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- A point's number is below twenty. -/
theorem b1_point_lt (t : Fin cfg1.N) : t.val < 20 := Nat.lt_of_lt_of_eq t.isLt N_1

variable (V : (c : Dev nD) → (b : Ref sig .tc) → Buf (Elt Ideal) ((c : Thread nD τ).loc b)) (c : Dev nD)

/-! The seven input blocks of point `t`, each named at its literal type. -/

abbrev blk1_0 (t : Fin cfg1.N) : S5000x1.Idx → BitVec 32 := iblk1 (F := Ideal) V c 0 t
abbrev blk1_1 (t : Fin cfg1.N) : S5000x64.Idx → EReal := iblk1 (F := Ideal) V c 1 t
abbrev blk1_2 (t : Fin cfg1.N) : S5000x64.Idx → EReal := iblk1 (F := Ideal) V c 2 t
abbrev blk1_3 (t : Fin cfg1.N) : S5000x1.Idx → EReal := iblk1 (F := Ideal) V c 3 t
abbrev blk1_4 (t : Fin cfg1.N) : S1x64.Idx → EReal := iblk1 (F := Ideal) V c 4 t
abbrev blk1_5 (t : Fin cfg1.N) : S64x10.Idx → EReal := iblk1 (F := Ideal) V c 5 t
abbrev blk1_6 (t : Fin cfg1.N) : S1x10.Idx → EReal := iblk1 (F := Ideal) V c 6 t

/-! ## The row windows -/

/-- Row `r` of point `t`'s block of the graph words is row `rowAt t r` of the column. -/
theorem blk1_0_apply (t : Fin cfg1.N) (r : Fin 5000) :
    blk1_0 V c t (ix2 r (0 : Fin 1)) = bBatch V c (ix2 (Cert.Spec.rowAt t.val r) (0 : Fin 1)) := by
  obtain ⟨⟨e0, e1⟩, -⟩ := b1_blockIdx t
  have ht := b1_point_lt t
  show bBatch V c (((cfg1.win 0).blk t).view.emb (ix2 r (0 : Fin 1))) = bBatch V c (ix2 (Cert.Spec.rowAt t.val r) (0 : Fin 1))
  refine congrArg (bBatch V c) (funext fun a => Fin.ext ?_)
  match a with
  | ⟨0, _⟩ => show win1_0.index t (0 : Fin 2) * 5000 + 1 * r.val = (5000 * t.val + r.val) % 100000; omega
  | ⟨1, _⟩ => show win1_0.index t (1 : Fin 2) * 1 + 1 * 0 = 0; omega

/-- Row `r` of point `t`'s block of the aggregated second-layer features is row `rowAt t r` of the array. -/
theorem blk1_1_apply (t : Fin cfg1.N) (r : Fin 5000) (j : Fin 64) :
    blk1_1 V c t (ix2 r j) = bAgg V c (ix2 (Cert.Spec.rowAt t.val r) j) := by
  obtain ⟨-, ⟨e0, e1⟩, -⟩ := b1_blockIdx t
  have ht := b1_point_lt t
  show bAgg V c (((cfg1.win 1).blk t).view.emb (ix2 r j)) = bAgg V c (ix2 (Cert.Spec.rowAt t.val r) j)
  refine congrArg (bAgg V c) (funext fun a => Fin.ext ?_)
  match a with
  | ⟨0, _⟩ => show win1_1.index t (0 : Fin 2) * 5000 + 1 * r.val = (5000 * t.val + r.val) % 100000; omega
  | ⟨1, _⟩ => show win1_1.index t (1 : Fin 2) * 64 + 1 * j.val = j.val; omega

/-- Row `r` of point `t`'s block of region 0's array is row `rowAt t r` of the array. -/
theorem blk1_2_apply (t : Fin cfg1.N) (r : Fin 5000) (j : Fin 64) :
    blk1_2 V c t (ix2 r j) = bH V c (ix2 (Cert.Spec.rowAt t.val r) j) := by
  obtain ⟨-, -, ⟨e0, e1⟩, -⟩ := b1_blockIdx t
  have ht := b1_point_lt t
  show bH V c (((cfg1.win 2).blk t).view.emb (ix2 r j)) = bH V c (ix2 (Cert.Spec.rowAt t.val r) j)
  refine congrArg (bH V c) (funext fun a => Fin.ext ?_)
  match a with
  | ⟨0, _⟩ => show win1_2.index t (0 : Fin 2) * 5000 + 1 * r.val = (5000 * t.val + r.val) % 100000; omega
  | ⟨1, _⟩ => show win1_2.index t (1 : Fin 2) * 64 + 1 * j.val = j.val; omega

/-- Row `r` of point `t`'s block of the squared inverse-root degrees is row `rowAt t r` of the column. -/
theorem blk1_3_apply (t : Fin cfg1.N) (r : Fin 5000) :
    blk1_3 V c t (ix2 r (0 : Fin 1)) = bD2 V c (ix2 (Cert.Spec.rowAt t.val r) (0 : Fin 1)) := by
  obtain ⟨-, -, -, ⟨e0, e1⟩, -⟩ := b1_blockIdx t
  have ht := b1_point_lt t
  show bD2 V c (((cfg1.win 3).blk t).view.emb (ix2 r (0 : Fin 1))) = bD2 V c (ix2 (Cert.Spec.rowAt t.val r) (0 : Fin 1))
  refine congrArg (bD2 V c) (funext fun a => Fin.ext ?_)
  match a with
  | ⟨0, _⟩ => show win1_3.index t (0 : Fin 2) * 5000 + 1 * r.val = (5000 * t.val + r.val) % 100000; omega
  | ⟨1, _⟩ => show win1_3.index t (1 : Fin 2) * 1 + 1 * 0 = 0; omega

/-! ## The windows handed whole -/

/-- The second bias row's block is the whole row, at every point. -/
theorem blk1_4_eq (t : Fin cfg1.N) : blk1_4 V c t = bB2 V c := by
  obtain ⟨-, -, -, -, ⟨e0, e1⟩, -⟩ := b1_blockIdx t
  refine funext fun (y : S1x64.Idx) => ?_
  show bB2 V c (((cfg1.win 4).blk t).view.emb y) = bB2 V c y
  refine congrArg (bB2 V c) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The last weight matrix's block is the whole matrix, at every point. -/
theorem blk1_5_eq (t : Fin cfg1.N) : blk1_5 V c t = bWfc V c := by
  obtain ⟨-, -, -, -, -, ⟨e0, e1⟩, -⟩ := b1_blockIdx t
  refine funext fun (y : S64x10.Idx) => ?_
  show bWfc V c (((cfg1.win 5).blk t).view.emb y) = bWfc V c y
  refine congrArg (bWfc V c) (funext fun a => Fin.ext ?_)
  match a with
  | ⟨0, _⟩ => show win1_5.index t (0 : Fin 2) * 64 + 1 * (y 0).val = (y 0).val; omega
  | ⟨1, _⟩ => show win1_5.index t (1 : Fin 2) * 10 + 1 * (y 1).val = (y 1).val; omega

/-- The last bias row's block is the whole row, at every point. -/
theorem blk1_6_eq (t : Fin cfg1.N) : blk1_6 V c t = bBfc V c := by
  obtain ⟨-, -, -, -, -, -, e0, e1⟩ := b1_blockIdx t
  refine funext fun (y : S1x10.Idx) => ?_
  show bBfc V c (((cfg1.win 6).blk t).view.emb y) = bBfc V c y
  refine congrArg (bBfc V c) (funext fun a => Fin.ext ?_)
  match a with
  | ⟨0, _⟩ => show win1_6.index t (0 : Fin 2) * 1 + 1 * (y 0).val = (y 0).val; omega
  | ⟨1, _⟩ => show win1_6.index t (1 : Fin 2) * 10 + 1 * (y 1).val = (y 1).val; omega

end Cert.KernelIdeal.Hand

end
-- ==== Proof.LibAttnOps.lean ====
/-
  General lemmas: four vector operations of an attention body read at an index on the extended reals, for any sizes.

  * a matrix product contracting the FIRST axis of both operands, `[K, M] × [K, N] → [M, N]` (queries against keys, both
    stored channels-first): entry `(p, q)` is `∑ k, l[k, p] · r[k, q]`;
  * a matrix product contracting the SECOND axis of both operands, `[M, K] × [N, K] → [M, N]` (weights against values stored
    channels-first): entry `(p, q)` is `∑ k, l[p, k] · r[q, k]`;
  * a row maximum, `multi_reduction <maximumf>` of an `[a, b]` array over axis 1: entry `i` is the fold of `max` from the
    accumulator's value over row `i`;
  * a row sum, `multi_reduction <add>` over axis 1: entry `i` is `∑ k, src[i, k]`.

  The two products go the same way: the record of dimension numbers is replaced by the literal one with those lists, the
  operand indices at a result index and a contraction index are read coordinate by coordinate (the contracted axis
  carries the contraction index's one coordinate, the kept axis the result's row or column), and the sum over the
  one-axis contraction shape is re-indexed by that axis's coordinate. The two reductions read the library's one-axis
  reduction laws at axis 1 of a rank-2 shape, where the index inserted over row `i` at coordinate `k` is `(i, k)`.
-/
import Idealize.ShloMosaic.PureOps.Ideal
import Idealize.ShloMosaic.PureOps.Ideal.Laws
import Idealize.ShloMosaic.Lib.ValueIdx

noncomputable section

namespace Cert.LibAttnOps

open Idealize.ShloMosaic Idealize.ShloMosaic.ValueIdx

/-! ## Contracting axis 0 of both operands -/

namespace TN

/-- The dimension numbers contracting axis 0 with axis 0 as a literal record; `wf` are their conditions. -/
abbrev dims (M K N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {M K N : Nat} (wf : DotDims.WF ⟨2, ![K, M]⟩ ⟨2, ![K, N]⟩ ⟨2, ![M, N]⟩ [0] [0] [1] [1] [] [])

/-- The left operand's row is the contracted coordinate. -/
theorem lhs_row (i : (⟨2, ![M, N]⟩ : Shape).Idx) (c : (dims M K N wf).contr.Idx) :
    ((dims M K N wf).lhsIdx i c 0).val = (c ⟨0, Nat.one_pos⟩).val :=
  (dims M K N wf).lhsIdx_val_of_single rfl i c

/-- The left operand's column is the result's row. -/
theorem lhs_col (i : (⟨2, ![M, N]⟩ : Shape).Idx) (c : (dims M K N wf).contr.Idx) :
    ((dims M K N wf).lhsIdx i c 1).val = (i 0).val := by
  rw [DotDims.lhsIdx, dif_neg (show ¬(1 : Fin 2) ∈ (dims M K N wf).lhsBatch from List.not_mem_nil),
    dif_pos (show (1 : Fin 2) ∈ (dims M K N wf).lhsNonContracting from List.mem_singleton.mpr rfl)]
  rfl

/-- The right operand's row is the contracted coordinate. -/
theorem rhs_row (i : (⟨2, ![M, N]⟩ : Shape).Idx) (c : (dims M K N wf).contr.Idx) :
    ((dims M K N wf).rhsIdx i c 0).val = (c ⟨0, Nat.one_pos⟩).val :=
  (dims M K N wf).rhsIdx_val_of_single rfl i c

/-- The right operand's column is the result's column. -/
theorem rhs_col (i : (⟨2, ![M, N]⟩ : Shape).Idx) (c : (dims M K N wf).contr.Idx) :
    ((dims M K N wf).rhsIdx i c 1).val = (i 1).val := by
  rw [DotDims.rhsIdx, dif_neg (show ¬(1 : Fin 2) ∈ (dims M K N wf).rhsBatch from List.not_mem_nil),
    dif_pos (show (1 : Fin 2) ∈ (dims M K N wf).rhsNonContracting from List.mem_singleton.mpr rfl)]
  rfl

/-- The product of the literal record at `(p, q)`. -/
theorem matmul_dims_apply {φ₁ φ₂ : FTy} (prec : Option ContractPrecision)
    (l : FVec Ideal ⟨2, ![K, M]⟩ φ₁) (r : FVec Ideal ⟨2, ![K, N]⟩ φ₂) (p : Fin M) (q : Fin N) :
    FloatOps.matmul (dims M K N wf) prec l r (constant ⟨2, ![M, N]⟩ .f32 0x00000000#32) (ix2 p q)
      = ∑ k : Fin K, l (ix2 k p) * r (ix2 k q) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 k p :=
    funext fun a => Fin.ext (by
      match a with
      | ⟨0, _⟩ => exact (lhs_row wf _ _).trans hk
      | ⟨1, _⟩ => exact lhs_col wf _ _)
  have er : (dims M K N wf).rhsIdx (ix2 p q) ((contrEquiv1 (dims M K N wf) K rfl rfl).symm k) = ix2 k q :=
    funext fun a => Fin.ext (by
      match a with
      | ⟨0, _⟩ => exact (rhs_row wf _ _).trans hk
      | ⟨1, _⟩ => exact rhs_col wf _ _)
  rw [el, er]

end TN

/-- `[K, M] × [K, N]` contracting axis 0 of both, into a zero accumulator, at `(p, q)`. -/
theorem matmul_tn_apply {M K N : Nat} {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (l : FVec Ideal ⟨2, ![K, M]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 k p) * r (ix2 k q) := by
  obtain ⟨lc, rc, ln, rn, lb, rb, wf⟩ := d
  simp only at h1 h2 h3 h4 h5 h6
  subst h1 h2 h3 h4 h5 h6
  exact TN.matmul_dims_apply wf prec l r p q

/-! ## Contracting axis 1 of both operands -/

namespace NT

/-- The dimension numbers contracting axis 1 with axis 1 as a literal record; `wf` are their conditions. -/
abbrev dims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row is the result's row. -/
theorem lhs_row (i : (⟨2, ![M, N]⟩ : Shape).Idx) (c : (dims M K N wf).contr.Idx) :
    ((dims M K N wf).lhsIdx i c 0).val = (i 0).val := by
  rw [DotDims.lhsIdx, dif_neg (show ¬(0 : Fin 2) ∈ (dims M K N wf).lhsBatch from List.not_mem_nil),
    dif_pos (show (0 : Fin 2) ∈ (dims M K N wf).lhsNonContracting from List.mem_singleton.mpr rfl)]
  rfl

/-- The left operand's column is the contracted coordinate. -/
theorem lhs_col (i : (⟨2, ![M, N]⟩ : Shape).Idx) (c : (dims M K N wf).contr.Idx) :
    ((dims M K N wf).lhsIdx i c 1).val = (c ⟨0, Nat.one_pos⟩).val :=
  (dims M K N wf).lhsIdx_val_of_single rfl i c

/-- The right operand's row is the result's column. -/
theorem rhs_row (i : (⟨2, ![M, N]⟩ : Shape).Idx) (c : (dims M K N wf).contr.Idx) :
    ((dims M K N wf).rhsIdx i c 0).val = (i 1).val := by
  rw [DotDims.rhsIdx, dif_neg (show ¬(0 : Fin 2) ∈ (dims M K N wf).rhsBatch from List.not_mem_nil),
    dif_pos (show (0 : Fin 2) ∈ (dims M K N wf).rhsNonContracting from List.mem_singleton.mpr rfl)]
  rfl

/-- The right operand's column is the contracted coordinate. -/
theorem rhs_col (i : (⟨2, ![M, N]⟩ : Shape).Idx) (c : (dims M K N wf).contr.Idx) :
    ((dims M K N wf).rhsIdx i c 1).val = (c ⟨0, Nat.one_pos⟩).val :=
  (dims M K N wf).rhsIdx_val_of_single rfl i c

/-- The product of the literal record at `(p, q)`. -/
theorem matmul_dims_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (dims M K N wf) prec l r (constant ⟨2, ![M, N]⟩ .f32 0x00000000#32) (ix2 p q)
      = ∑ k : Fin K, l (ix2 p k) * r (ix2 q k) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 p k :=
    funext fun a => Fin.ext (by
      match a with
      | ⟨0, _⟩ => exact lhs_row wf _ _
      | ⟨1, _⟩ => exact (lhs_col wf _ _).trans hk)
  have er : (dims M K N wf).rhsIdx (ix2 p q) ((contrEquiv1 (dims M K N wf) K rfl rfl).symm k) = ix2 q k :=
    funext fun a => Fin.ext (by
      match a with
      | ⟨0, _⟩ => exact rhs_row wf _ _
      | ⟨1, _⟩ => exact (rhs_col wf _ _).trans hk)
  rw [el, er]

end NT

/-- `[M, K] × [N, K]` contracting axis 1 of both, into a zero accumulator, at `(p, q)`. -/
theorem matmul_nt_apply {M K N : Nat} {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  obtain ⟨lc, rc, ln, rn, lb, rb, wf⟩ := d
  simp only at h1 h2 h3 h4 h5 h6
  subst h1 h2 h3 h4 h5 h6
  exact NT.matmul_dims_apply wf prec l r p q

/-! ## Reductions over axis 1 of a rank-2 array -/

/-- Over row `i`, the index inserted at coordinate `k` of axis 1 is `(i, k)`. -/
theorem lift_row {a b : Nat} (h : (⟨2, ![a, b]⟩ : Shape).Reduces [1] ⟨1, ![a]⟩) (i : Fin a) (k : Fin b) :
    h.lift (ix1 i) k = ix2 i k :=
  funext fun c => Fin.ext (by
    match c with
    | ⟨0, _⟩ => rfl
    | ⟨1, _⟩ => rfl)

/-- The row maximum of an `[a, b]` array at row `i`: the fold of `max` from the accumulator's value over the row. -/
theorem rowmax_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i) : Fin b → EReal) = fun k => src (ix2 i k) :=
    funext fun k => congrArg src (lift_row h i k)
  exact congrArg (fun f : Fin b → EReal => (Finset.univ : Finset (Fin b)).fold max (Ideal.ofBits φ acc) f) e

/-- The row sum of an `[a, b]` array at row `i`. -/
theorem rowsum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

end Cert.LibAttnOps

end
-- ==== Proof.KIPay1.lean ====
/-
  The payloads of the pooling region read at an index, at the extended reals.

  The region keeps two running arrays: per graph g and feature column j the sum, over the nodes seen so far, of the
  0/1 factor "node is in graph g" times the rectified feature; and per graph g the sum of the same factors times one.
  One step adds the contribution of a block of 5000 nodes, computed as a matrix product contracting the node axis of
  the [5000, 64] array of factors with the [5000, 64] array of rectified features (resp. with a [5000, 1] column of
  ones). The closing step divides the sums by the counts (at least one), multiplies by the last weight matrix and
  adds the last bias row.
-/
import proofs.«428876_j16381005267207_3_alg».proof.Proof.Gen.KernelIdeal.Skeleton
import proofs.«428876_j16381005267207_3_alg».proof.Proof.Spec
import proofs.«428876_j16381005267207_3_alg».proof.Proof.LibAttnOps
import proofs.«428876_j16381005267207_3_alg».proof.Proof.LibPlainMatmul
import proofs.«428876_j16381005267207_3_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The two zero arrays -/

/-- The array the feature sums start from is zero everywhere. -/
theorem pay3_apply (g j : Fin 64) : (k1_pay3 (F := Ideal)) (ix2 g j) = Cert.Spec.zero := by
  unfold k1_pay3
  rw [shapeCast_self]
  rfl

/-- The column the counts start from is zero everywhere. -/
theorem pay4_apply (g : Fin 64) : (k1_pay4 (F := Ideal)) (ix2 g 0) = Cert.Spec.zero := by
  unfold k1_pay4
  rw [shapeCast_self]
  rfl

/-! ## The membership factors of a block -/

/-- The [5000, 64] array of factors at (r, g): whether the graph word of row r is g. -/
theorem pay5_apply (v19 : Vec Ideal S5000x1 .i32) (r : Fin 5000) (g : Fin 64) :
    k1_pay5 (F := Ideal) v19 (ix2 r g) = Cert.Spec.oh (v19 (ix2 r 0)) g := by
  unfold k1_pay5
  rw [truncf_apply, sitofp_apply, extui_apply]
  unfold cmpi
  rw [LibKeepdimsColumn.broadcastTo_a1_ab_apply, broadcastTo_1b_ab_apply, shapeCast_self, iota_single_apply]
  rfl

/-- The column of ones. -/
theorem pay6_apply (r : Fin 5000) : (k1_pay6 (F := Ideal)) (ix2 r 0) = Cert.Spec.oneB := rfl

/-! ## One block's contribution to the feature sums -/

/-- The running feature sums after one more block: the old sums plus, per graph and column, the sum over the block's
    5000 rows of the membership factor times the rectified feature. -/
theorem pay7_apply (v3 : Vec Ideal S5000x64 .bf16) (v6 : Vec Ideal S5000x64 .f32) (v8 : Vec Ideal S5000x1 .f32)
    (v13 : Vec Ideal S1x64 .f32) (v19 : Vec Ideal S5000x1 .i32) (v30 : Vec Ideal S64x64 .f32) (g j : Fin 64) :
    k1_pay7 v3 v6 v8 v13 v19 v30 (ix2 g j)
      = v30 (ix2 g j) + ∑ r : Fin 5000, Cert.Spec.oh (v19 (ix2 r 0)) g
          * max ((v6 (ix2 r j) + v3 (ix2 r j) * v8 (ix2 r 0)) + v13 (ix2 0 j)) Cert.Spec.zero := by
  unfold k1_pay7
  rw [shapeCast_self, addf_apply]
  refine congrArg (fun z => v30 (ix2 g j) + z) ?_
  refine (LibAttnOps.matmul_tn_apply dot_S5000x64_S5000x64_S64x64_0_0_1_1_n_n rfl rfl rfl rfl rfl rfl none _ _ g j).trans ?_
  refine Finset.sum_congr rfl fun r _ => ?_
  rw [pay5_apply, truncf_apply, maximumf_apply, addf_apply, addf_apply, mulf_apply, extf_apply,
    shapeCast_self, shapeCast_self, shapeCast_self, shapeCast_self,
    LibKeepdimsColumn.broadcastTo_a1_ab_apply, broadcastTo_1b_ab_apply]
  rfl

/-! ## One block's contribution to the counts -/

/-- The running counts after one more block: the old counts plus, per graph, the sum over the block's rows of the
    membership factor times one. -/
theorem pay1_apply (v19 : Vec Ideal S5000x1 .i32) (v36 : Vec Ideal S64x1 .f32) (g : Fin 64) :
    k1_pay1 (k1_pay5 v19) (k1_pay6 (F := Ideal)) v36 (ix2 g 0)
      = v36 (ix2 g 0) + ∑ r : Fin 5000, Cert.Spec.oh (v19 (ix2 r 0)) g * Cert.Spec.oneB := by
  unfold k1_pay1
  rw [shapeCast_self, addf_apply]
  refine congrArg (fun z => v36 (ix2 g 0) + z) ?_
  refine (LibAttnOps.matmul_tn_apply dot_S5000x64_S5000x1_S64x1_0_0_1_1_n_n rfl rfl rfl rfl rfl rfl none _ _ g 0).trans ?_
  refine Finset.sum_congr rfl fun r _ => ?_
  rw [pay5_apply, pay6_apply]

/-! ## The closing step -/

/-- The result at graph g, output column o: the per-graph means (sums over counts, the counts at least one) times the
    last weight matrix, plus the last bias row. -/
theorem pay2_apply (v45 : Vec Ideal S64x1 .f32) (v48 : Vec Ideal S64x64 .f32) (v52 : Vec Ideal S64x10 .f32)
    (v55 : Vec Ideal S1x10 .f32) (g : Fin 64) (o : Fin 10) :
    k1_pay2 v45 v48 v52 v55 (ix2 g o)
      = (∑ j : Fin 64, Ideal.div (v48 (ix2 g j)) (max (v45 (ix2 g 0)) Cert.Spec.one) * v52 (ix2 j o))
          + v55 (ix2 0 o) := by
  unfold k1_pay2
  rw [addf_apply, broadcastTo_1b_ab_apply, shapeCast_self]
  refine congrArg (fun z => z + v55 (ix2 0 o)) ?_
  refine (Lib.matmul_plain_apply dot_S64x64_S64x10_S64x10_1_0_0_1_n_n rfl rfl rfl rfl rfl rfl none _ _ g o).trans ?_
  refine Finset.sum_congr rfl fun j _ => ?_
  rw [truncf_apply, truncf_apply, divf_apply, LibKeepdimsColumn.broadcastTo_a1_ab_apply, maximumf_apply]
  rfl

end Cert.KernelIdeal.Hand

end
-- ==== Proof.KIStep1.lean ====
/-
  The pooling region's steps against the target formulas, at the extended reals.

  When a block's seven inputs are the rows `rowAt n ·` of the arrays the region is entered with, adding the block's
  contribution to the running feature sums after `n` blocks gives the sums after `n + 1` blocks, and likewise for the
  counts; and the closing step applied to the sums and counts after all twenty blocks is the region's result.
-/
import proofs.«428876_j16381005267207_3_alg».proof.Proof.KIForms
import proofs.«428876_j16381005267207_3_alg».proof.Proof.KIPay1

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- The feature sums after `n` blocks, plus block `n`'s contribution, are the sums after `n + 1` blocks. -/
theorem v1_acc_step (n : ℕ) (x0 : Vec Ideal S5000x1 .i32) (x1 : Vec Ideal S5000x64 .f32) (x2 : Vec Ideal S5000x64 .bf16)
    (x3 : Vec Ideal S5000x1 .f32) (x4 : Vec Ideal S1x64 .f32) (a : Vec Ideal S64x64 .f32)
    (h0 : ∀ r : Fin 5000, x0 (ix2 r 0) = bBatch V c (ix2 (Cert.Spec.rowAt n r) 0))
    (h1 : ∀ (r : Fin 5000) (j : Fin 64), x1 (ix2 r j) = bAgg V c (ix2 (Cert.Spec.rowAt n r) j))
    (h2 : ∀ (r : Fin 5000) (j : Fin 64), x2 (ix2 r j) = bH V c (ix2 (Cert.Spec.rowAt n r) j))
    (h3 : ∀ r : Fin 5000, x3 (ix2 r 0) = bD2 V c (ix2 (Cert.Spec.rowAt n r) 0))
    (h4 : x4 = bB2 V c) (g j : Fin 64) (ha : a (ix2 g j) = ACC V c n g j) :
    k1_pay7 x2 x1 x3 x4 x0 a (ix2 g j) = ACC V c (n + 1) g j := by
  rw [pay7_apply, ha]
  show _ = ACC V c n g j + ∑ r : Fin 5000, Memb V c (Cert.Spec.rowAt n r) g * Relu2 V c (Cert.Spec.rowAt n r) j
  refine congrArg (fun z => ACC V c n g j + z) (Finset.sum_congr rfl fun r _ => ?_)
  rw [h0, h1, h2, h3, h4]
  rfl

/-- The counts after `n` blocks, plus block `n`'s contribution, are the counts after `n + 1` blocks. -/
theorem v1_cnt_step (n : ℕ) (x0 : Vec Ideal S5000x1 .i32) (k : Vec Ideal S64x1 .f32)
    (h0 : ∀ r : Fin 5000, x0 (ix2 r 0) = bBatch V c (ix2 (Cert.Spec.rowAt n r) 0))
    (g : Fin 64) (hk : k (ix2 g 0) = CNT V c n g) :
    k1_pay1 (k1_pay5 x0) (k1_pay6 (F := Ideal)) k (ix2 g 0) = CNT V c (n + 1) g := by
  rw [pay1_apply, hk]
  show _ = CNT V c n g + ∑ r : Fin 5000, Memb V c (Cert.Spec.rowAt n r) g * Cert.Spec.oneB
  refine congrArg (fun z => CNT V c n g + z) (Finset.sum_congr rfl fun r _ => ?_)
  rw [h0]
  rfl

/-- The closing step over the sums and counts after all twenty blocks is the region's result. -/
theorem v1_out (k : Vec Ideal S64x1 .f32) (a : Vec Ideal S64x64 .f32) (x5 : Vec Ideal S64x10 .f32)
    (x6 : Vec Ideal S1x10 .f32) (h5 : x5 = bWfc V c) (h6 : x6 = bBfc V c)
    (ha : ∀ g j : Fin 64, a (ix2 g j) = ACC V c 20 g j) (hk : ∀ g : Fin 64, k (ix2 g 0) = CNT V c 20 g)
    (g : Fin 64) (o : Fin 10) : k1_pay2 k a x5 x6 (ix2 g o) = OUT1 V c g o := by
  rw [pay2_apply, hk, h5, h6]
  show _ = (∑ j : Fin 64, Ideal.div (ACC V c 20 g j) (max (CNT V c 20 g) Cert.Spec.one) * bWfc V c (ix2 j o))
      + bBfc V c (ix2 0 o)
  refine congrArg (fun z => z + bBfc V c (ix2 0 o)) (Finset.sum_congr rfl fun j _ => ?_)
  rw [ha]

end Cert.KernelIdeal.Hand

end
-- ==== Proof.KIReg1Pieces.lean ====
import proofs.«428876_j16381005267207_3_alg».proof.Proof.KIReg1
import Idealize.ShloMosaic.Lib.Pipeline.Value

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 1: what each point leaves, as the body's named values

Each accumulator, and at the last point the output window, after the body — read off the pieces its run found — is the
corresponding named value of the body applied to the point's input blocks and to what the point before left. -/

/-- The zero offsets of a rank-two load or store, however spelt. -/
theorem hz2 : (![0, 0] : Fin 2 → Nat) = fun _ => 0 := funext fun a => by fin_cases a <;> rfl

/-- The first point leaves in the 64×64 accumulator the update of the reset value by the point's blocks. -/
theorem sc0_A_eq (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) :
    accA_0 c i arg1 harg1 arg2 harg2 arg3 harg3 arg4 harg4 arg5 harg5 arg6 harg6 arg7 harg7 arg8 harg8 arg9 harg9 arg10 harg10 hc0 hc1 x0 x1 x2 x3 x4 x5 x6 = k1_pay7 x2 x1 x3 x4 x0 (k1_pay3 (F := F)) := by
  unfold accA_0
  rw [View.read_writes_eq_canon _ _ _ (acoverA_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun1_A; dsimp only; sl_unfold_words
  rw [View.canon_cons_unit_zero (S := S64x64) hz2]
  simp only [View.readAt_eq_ld, harg1.read_unread, harg2.read_unread, harg3.read_unread, harg4.read_unread, harg5.read_unread,
    View.ld_unit_zero (S := S5000x64) hz2, View.ld_unit_zero (S := S5000x1) hz2, View.ld_unit_zero (S := S1x64) hz2,
    View.readCov_unit_zero (S := S64x64) _ hz2]

/-- The first point leaves in the 64×1 accumulator the update of the reset value by the point's segment ids. -/
theorem sc1_A_eq (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) :
    accA_1 c i arg1 harg1 arg2 harg2 arg3 harg3 arg4 harg4 arg5 harg5 arg6 harg6 arg7 harg7 arg8 harg8 arg9 harg9 arg10 harg10 hc0 hc1 x0 x1 x2 x3 x4 x5 x6 = k1_pay1 (k1_pay5 x0) (k1_pay6 (F := F)) (k1_pay4 (F := F)) := by
  unfold accA_1
  rw [View.read_writes_eq_canon _ _ _ (acoverA_1 c i arg1 harg1 arg2 harg2 arg3 harg3 arg4 harg4 arg5 harg5 arg6 harg6 arg7 harg7 arg8 harg8 arg9 harg9 arg10 harg10 hc0 hc1 x0 x1 x2 x3 x4 x5 x6)]
  unfold kernelRun1_A; dsimp only; sl_unfold_words
  rw [View.canon_cons_unit_zero (S := S64x1) hz2]
  simp only [View.readAt_eq_ld, harg1.read_unread, harg2.read_unread, harg3.read_unread, harg4.read_unread, harg5.read_unread,
    View.ld_unit_zero (S := S5000x64) hz2, View.ld_unit_zero (S := S5000x1) hz2, View.ld_unit_zero (S := S1x64) hz2,
    View.readCov_unit_zero (S := S64x1) _ hz2]

/-- A middle point leaves in the 64×64 accumulator the update of what the point before left. -/
theorem sc0_B_eq (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) :
    accB_0 c i arg1 harg1 arg2 harg2 arg3 harg3 arg4 harg4 arg5 harg5 arg6 harg6 arg7 harg7 arg8 harg8 arg9 harg9 arg10 harg10 hc0 hc1 x0 x1 x2 x3 x4 x5 x6 xs0 xs1 = k1_pay7 x2 x1 x3 x4 x0 xs0 := by
  unfold accB_0
  rw [View.read_writes_eq_canon _ _ _ (acoverB_0 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun1_B; dsimp only; sl_unfold_words
  rw [View.canon_unit_zero (S := S64x64) hz2]
  simp only [View.readAt_eq_ld, harg1.read_unread, harg2.read_unread, harg3.read_unread, harg4.read_unread, harg5.read_unread, harg9.read_unread,
    View.ld_unit_zero (S := S5000x64) hz2, View.ld_unit_zero (S := S5000x1) hz2, View.ld_unit_zero (S := S1x64) hz2,
    View.ld_unit_zero (S := S64x64) hz2]

/-- A middle point leaves in the 64×1 accumulator the update of what the point before left. -/
theorem sc1_B_eq (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : ¬cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) :
    accB_1 c i arg1 harg1 arg2 harg2 arg3 harg3 arg4 harg4 arg5 harg5 arg6 harg6 arg7 harg7 arg8 harg8 arg9 harg9 arg10 harg10 hc0 hc1 x0 x1 x2 x3 x4 x5 x6 xs0 xs1 = k1_pay1 (k1_pay5 x0) (k1_pay6 (F := F)) xs1 := by
  unfold accB_1
  rw [View.read_writes_eq_canon _ _ _ (acoverB_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun1_B; dsimp only; sl_unfold_words
  rw [View.canon_unit_zero (S := S64x1) hz2]
  simp only [View.readAt_eq_ld, harg1.read_unread, harg2.read_unread, harg3.read_unread, harg4.read_unread, harg5.read_unread, harg10.read_unread,
    View.ld_unit_zero (S := S5000x64) hz2, View.ld_unit_zero (S := S5000x1) hz2, View.ld_unit_zero (S := S1x64) hz2,
    View.ld_unit_zero (S := S64x1) hz2]

/-- The last point leaves in the 64×64 accumulator the update of what the point before left. -/
theorem sc0_C_eq (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) :
    accC_0 c i arg1 harg1 arg2 harg2 arg3 harg3 arg4 harg4 arg5 harg5 arg6 harg6 arg7 harg7 arg8 harg8 arg9 harg9 arg10 harg10 hc0 hc1 x0 x1 x2 x3 x4 x5 x6 xs0 xs1 = k1_pay7 x2 x1 x3 x4 x0 xs0 := by
  unfold accC_0
  rw [View.read_writes_eq_canon _ _ _ (acoverC_0 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun1_C; dsimp only; sl_unfold_words
  rw [View.canon_unit_zero (S := S64x64) hz2]
  simp only [View.readAt_eq_ld, harg1.read_unread, harg2.read_unread, harg3.read_unread, harg4.read_unread, harg5.read_unread, harg9.read_unread,
    View.ld_unit_zero (S := S5000x64) hz2, View.ld_unit_zero (S := S5000x1) hz2, View.ld_unit_zero (S := S1x64) hz2,
    View.ld_unit_zero (S := S64x64) hz2]

/-- The last point leaves in the 64×1 accumulator the update of what the point before left. -/
theorem sc1_C_eq (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) :
    accC_1 c i arg1 harg1 arg2 harg2 arg3 harg3 arg4 harg4 arg5 harg5 arg6 harg6 arg7 harg7 arg8 harg8 arg9 harg9 arg10 harg10 hc0 hc1 x0 x1 x2 x3 x4 x5 x6 xs0 xs1 = k1_pay1 (k1_pay5 x0) (k1_pay6 (F := F)) xs1 := by
  unfold accC_1
  rw [View.read_writes_eq_canon _ _ _ (acoverC_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun1_C; dsimp only; sl_unfold_words
  rw [View.canon_unit_zero (S := S64x1) hz2]
  simp only [View.readAt_eq_ld, harg1.read_unread, harg2.read_unread, harg3.read_unread, harg4.read_unread, harg5.read_unread, harg10.read_unread,
    View.ld_unit_zero (S := S5000x64) hz2, View.ld_unit_zero (S := S5000x1) hz2, View.ld_unit_zero (S := S1x64) hz2,
    View.ld_unit_zero (S := S64x1) hz2]

/-- The last point leaves in the output window the classifier applied to the two accumulators as just updated. -/
theorem out7_C_eq (c : Dev nD) (i : grid1.Coords) (arg1 : Memref sig .tc .vmem S5000x1 .i32) (harg1 : arg1.IsWhole) (arg2 : Memref sig .tc .vmem S5000x64 .f32) (harg2 : arg2.IsWhole) (arg3 : Memref sig .tc .vmem S5000x64 .bf16) (harg3 : arg3.IsWhole) (arg4 : Memref sig .tc .vmem S5000x1 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S64x10 .f32) (harg8 : arg8.IsWhole) (arg9 : Memref sig .tc .vmem S64x64 .f32) (harg9 : arg9.IsWhole) (arg10 : Memref sig .tc .vmem S64x1 .f32) (harg10 : arg10.IsWhole) (hc0 : ¬cond1_0 i) (hc1 : cond1_1 i)
    (x0 : Vec F S5000x1 .i32) (x1 : Vec F S5000x64 .f32) (x2 : Vec F S5000x64 .bf16) (x3 : Vec F S5000x1 .f32) (x4 : Vec F S1x64 .f32) (x5 : Vec F S64x10 .f32) (x6 : Vec F S1x10 .f32) (xs0 : Vec F S64x64 .f32) (xs1 : Vec F S64x1 .f32) :
    outC_7 c i arg1 harg1 arg2 harg2 arg3 harg3 arg4 harg4 arg5 harg5 arg6 harg6 arg7 harg7 arg8 harg8 arg9 harg9 arg10 harg10 hc0 hc1 x0 x1 x2 x3 x4 x5 x6 xs0 xs1 = k1_pay2 (k1_pay1 (k1_pay5 x0) (k1_pay6 (F := F)) xs1) (k1_pay7 x2 x1 x3 x4 x0 xs0) x5 x6 := by
  unfold outC_7
  rw [View.read_writes_eq_canon _ _ _ (coverC_7 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun1_C; dsimp only; sl_unfold_words
  rw [View.canon_unit_zero (S := S64x10) hz2]
  simp only [View.readAt_eq_ld, harg1.read_unread, harg2.read_unread, harg3.read_unread, harg4.read_unread, harg5.read_unread, harg6.read_unread, harg7.read_unread, harg9.read_unread, harg10.read_unread,
    View.ld_unit_zero (S := S5000x64) hz2, View.ld_unit_zero (S := S5000x1) hz2, View.ld_unit_zero (S := S1x64) hz2,
    View.ld_unit_zero (S := S64x64) hz2, View.ld_unit_zero (S := S64x1) hz2, View.ld_unit_zero (S := S64x10) hz2, View.ld_unit_zero (S := S1x10) hz2,
    View.readCov_unit_zero (S := S64x64) _ hz2, View.readCov_unit_zero (S := S64x1) _ hz2]

end Cert.KernelIdeal.Hand

end
-- ==== Proof.KIArr1.lean ====
/-
  What the second grid computation leaves in its output array, at the extended reals.

  The output window of this grid has one block, the whole 64 × 10 array, and only the last of the twenty points writes
  it back. So the array ends holding what the body at the last point left in the window's buffer: the one write-back
  writes that buffer over every index of the array, and nothing is written before it.
-/
import proofs.«428876_j16381005267207_3_alg».proof.Proof.KIReg1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The output window's block index is (0, 0) at every point. -/
theorem a1_blockIdx : ∀ t : Fin cfg1.N, win1_7.index t (0 : Fin 2) = 0 ∧ win1_7.index t (1 : Fin 2) = 0 :=
  (by decide +kernel : ∀ t : Fin grid1.N, _)

/-- The last point is a point of the grid. -/
theorem a1_last_lt : 19 < cfg1.N := by rw [show cfg1.N = 20 from N_1]; decide

/-- A point that writes the output back is the last one. -/
theorem a1_flush_val (t : Fin cfg1.N) (hf : (cfg1.win 7).flush t = true) : t = ⟨19, a1_last_lt⟩ := by
  have h19 : t.val % 20 = 19 := (flush1_7 t).mp hf
  have ht : t.val < 20 := Nat.lt_of_lt_of_eq t.isLt N_1
  exact Fin.ext (by show t.val = 19; omega)

variable (V : (c : Dev nD) → (b : Ref sig .tc) → Buf (Elt Ideal) ((c : Thread nD τ).loc b)) (c : Dev nD)

/-- What the body at the last point leaves in the output window's buffer, as contents of the whole array. -/
abbrev a1_G : S64x10.Idx → EReal := (outsAt1 (F := Ideal) V c 19 a1_last_lt).1

/-- WHAT A WRITING POINT WRITES BACK is its block of that array: the point is the last one, its block is the whole array. -/
theorem a1_flushed_read (t : Fin cfg1.N) (hf : (cfg1.win 7).flush t = true) :
    (dat1 (F := Ideal) V c).flushed 7 t = ((cfg1.win 7).blk t).view.read (Elt Ideal) (a1_G V c) := by
  obtain rfl := a1_flush_val t hf
  obtain ⟨e0, e1⟩ := a1_blockIdx ⟨19, a1_last_lt⟩
  show (cfg1.win 7).cut (grid1.coords ⟨19, a1_last_lt⟩) ((dat1 (F := Ideal) V c).after 7 ⟨19, a1_last_lt⟩) = _
  rw [after1_7]
  funext (j : S64x10.Idx)
  show a1_G V c j = a1_G V c (((cfg1.win 7).blk ⟨19, a1_last_lt⟩).view.emb j)
  refine congrArg (a1_G V c) (funext fun a => Fin.ext ?_)
  match a with
  | ⟨0, _⟩ => show (j 0).val = win1_7.index ⟨19, a1_last_lt⟩ (0 : Fin 2) * 64 + 1 * (j 0).val; omega
  | ⟨1, _⟩ => show (j 1).val = win1_7.index ⟨19, a1_last_lt⟩ (1 : Fin 2) * 10 + 1 * (j 1).val; omega

/-- Every index of the array is in the last point's block, and the last point writes its block back. -/
theorem a1_covered (i : S64x10.Idx) :
    ∃ t : Fin cfg1.N, (cfg1.win 7).flush t = true ∧ i ∈ ((cfg1.win 7).blk t).view.set := by
  have hi0 : (i 0).val < 64 := idx2_lt0 i
  have hi1 : (i 1).val < 10 := idx2_lt1 i
  obtain ⟨e0, e1⟩ := a1_blockIdx ⟨19, a1_last_lt⟩
  refine ⟨⟨19, a1_last_lt⟩, (flush1_7 _).mpr (by decide), ?_⟩
  show i ∈ ((View.whole main_v61).slice (win1_7.rect ⟨19, a1_last_lt⟩)).set
  rw [View.set_slice_whole, Rect.mem_set_unit]
  intro a
  match a with
  | ⟨0, _⟩ =>
    show win1_7.index ⟨19, a1_last_lt⟩ (0 : Fin 2) * 64 ≤ (i 0).val
      ∧ (i 0).val < win1_7.index ⟨19, a1_last_lt⟩ (0 : Fin 2) * 64 + 64
    omega
  | ⟨1, _⟩ =>
    show win1_7.index ⟨19, a1_last_lt⟩ (1 : Fin 2) * 10 ≤ (i 1).val
      ∧ (i 1).val < win1_7.index ⟨19, a1_last_lt⟩ (1 : Fin 2) * 10 + 10
    omega

/-- THE OUTPUT ARRAY after the grid holds what the last point left in the output window's buffer. -/
theorem arr1_last (V : (c : Dev nD) → (b : Ref sig .tc) → Buf (Elt Ideal) ((c : Thread nD τ).loc b)) (c : Dev nD)
    (g : Fin 64) (o : Fin 10) :
    ((dat1 (F := Ideal) V c).arrAt 7 cfg1.N : S64x10.Idx → EReal) (ValueIdx.ix2 g o)
      = ((outsAt1 (F := Ideal) V c 19 a1_last_lt).1 : S64x10.Idx → EReal) (ValueIdx.ix2 g o) :=
  congrFun ((dat1 (F := Ideal) V c).arrAt_eq_of_cover 7 (a1_G V c) (a1_flushed_read V c) (a1_covered)) (ix2 g o)

end Cert.KernelIdeal.Hand

end
-- ==== Proof.KIVal1.lean ====
/-
  The pooling region's result array, at the extended reals.

  By induction on the grid point: after point n the two accumulators hold the per-graph feature sums and node counts
  over the first n + 1 blocks of 5000 nodes (the first point starts from the zero arrays it has just stored, a later
  point from what the point before left). The last point's closing step over the sums and counts of all twenty blocks
  is the region's result, and the one block it writes back is the whole result array.
-/
import proofs.«428876_j16381005267207_3_alg».proof.Proof.KIReg1
import proofs.«428876_j16381005267207_3_alg».proof.Proof.KIBlk1
import proofs.«428876_j16381005267207_3_alg».proof.Proof.KIStep1
import proofs.«428876_j16381005267207_3_alg».proof.Proof.KIReg1Pieces
import proofs.«428876_j16381005267207_3_alg».proof.Proof.KIArr1

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

/-! ## One point's step, at the point's own blocks -/

/-- Point `t`'s contribution added to the feature sums after `t` blocks gives the sums after `t + 1` blocks. -/
theorem v1_step_acc (t : Fin cfg1.N) (a : Vec Ideal S64x64 .f32) (g j : Fin 64) (ha : a (ix2 g j) = ACC V c t.val g j) :
    k1_pay7 (blk1_2 V c t) (blk1_1 V c t) (blk1_3 V c t) (blk1_4 V c t) (blk1_0 V c t) a (ix2 g j)
      = ACC V c (t.val + 1) g j :=
  v1_acc_step V c t.val (blk1_0 V c t) (blk1_1 V c t) (blk1_2 V c t) (blk1_3 V c t) (blk1_4 V c t) a
    (blk1_0_apply V c t) (blk1_1_apply V c t) (blk1_2_apply V c t) (blk1_3_apply V c t) (blk1_4_eq V c t) g j ha

/-- Point `t`'s contribution added to the counts after `t` blocks gives the counts after `t + 1` blocks. -/
theorem v1_step_cnt (t : Fin cfg1.N) (k : Vec Ideal S64x1 .f32) (g : Fin 64) (hk : k (ix2 g 0) = CNT V c t.val g) :
    k1_pay1 (k1_pay5 (blk1_0 V c t)) (k1_pay6 (F := Ideal)) k (ix2 g 0) = CNT V c (t.val + 1) g :=
  v1_cnt_step V c t.val (blk1_0 V c t) k (blk1_0_apply V c t) g hk

/-! ## The accumulators after each point -/

/-- After point `n` the accumulators hold the feature sums and the counts over the first `n + 1` blocks. -/
theorem v1_inv : ∀ (n : ℕ) (hn : n < cfg1.N),
    (∀ g j : Fin 64, ((outsAt1 (F := Ideal) V c n hn).2.1 : S64x64.Idx → EReal) (ix2 g j) = ACC V c (n + 1) g j)
      ∧ (∀ g : Fin 64, ((outsAt1 (F := Ideal) V c n hn).2.2 : S64x1.Idx → EReal) (ix2 g 0) = CNT V c (n + 1) g)
  | 0, hn => by
    have hA0 : (⟨0, hn⟩ : Fin cfg1.N).val % 20 = 0 := Nat.zero_mod _
    have hA1 : ¬(⟨0, hn⟩ : Fin cfg1.N).val % 20 = 19 := by dsimp only; omega
    have e := outsAt1_A (F := Ideal) V c ⟨0, hn⟩ hA0 hA1
    rw [show outsAt1 (F := Ideal) V c 0 hn = _ from e]
    dsimp only
    refine ⟨fun g j => ?_, fun g => ?_⟩
    · refine (congrFun (sc0_A_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr hA0) (fun h => hA1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)) (ix2 g j)).trans ?_
      exact v1_step_acc V c ⟨0, hn⟩ (k1_pay3 (F := Ideal)) g j (pay3_apply g j)
    · refine (congrFun (sc1_A_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr hA0) (fun h => hA1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)) (ix2 g 0)).trans ?_
      exact v1_step_cnt V c ⟨0, hn⟩ (k1_pay4 (F := Ideal)) g (pay4_apply g)
  | n + 1, hn => by
    obtain ⟨ihA, ihC⟩ := v1_inv n (Nat.lt_of_succ_lt hn)
    have hN : n + 1 < 20 := lt_of_lt_of_eq hn N_1
    have h0 : ¬(⟨n + 1, hn⟩ : Fin cfg1.N).val % 20 = 0 := by dsimp only; omega
    by_cases h1 : (⟨n + 1, hn⟩ : Fin cfg1.N).val % 20 = 19
    · have e := outsAt1_C (F := Ideal) V c ⟨n + 1, hn⟩ h0 h1
      rw [show outsAt1 (F := Ideal) V c (n + 1) hn = _ from e]
      dsimp only
      refine ⟨fun g j => ?_, fun g => ?_⟩
      · refine (congrFun (sc0_C_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 (F := Ideal) V c n (Nat.lt_of_succ_lt hn)).2.1 (outsAt1 (F := Ideal) V c n (Nat.lt_of_succ_lt hn)).2.2) (ix2 g j)).trans ?_
        exact v1_step_acc V c ⟨n + 1, hn⟩ (outsAt1 (F := Ideal) V c n (Nat.lt_of_succ_lt hn)).2.1 g j (ihA g j)
      · refine (congrFun (sc1_C_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 (F := Ideal) V c n (Nat.lt_of_succ_lt hn)).2.1 (outsAt1 (F := Ideal) V c n (Nat.lt_of_succ_lt hn)).2.2) (ix2 g 0)).trans ?_
        exact v1_step_cnt V c ⟨n + 1, hn⟩ (outsAt1 (F := Ideal) V c n (Nat.lt_of_succ_lt hn)).2.2 g (ihC g)
    · have e := outsAt1_B (F := Ideal) V c ⟨n + 1, hn⟩ h0 h1
      rw [show outsAt1 (F := Ideal) V c (n + 1) hn = _ from e]
      dsimp only
      refine ⟨fun g j => ?_, fun g => ?_⟩
      · refine (congrFun (sc0_B_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 (F := Ideal) V c n (Nat.lt_of_succ_lt hn)).2.1 (outsAt1 (F := Ideal) V c n (Nat.lt_of_succ_lt hn)).2.2) (ix2 g j)).trans ?_
        exact v1_step_acc V c ⟨n + 1, hn⟩ (outsAt1 (F := Ideal) V c n (Nat.lt_of_succ_lt hn)).2.1 g j (ihA g j)
      · refine (congrFun (sc1_B_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 (F := Ideal) V c n (Nat.lt_of_succ_lt hn)).2.1 (outsAt1 (F := Ideal) V c n (Nat.lt_of_succ_lt hn)).2.2) (ix2 g 0)).trans ?_
        exact v1_step_cnt V c ⟨n + 1, hn⟩ (outsAt1 (F := Ideal) V c n (Nat.lt_of_succ_lt hn)).2.2 g (ihC g)

/-! ## The last point's block -/

/-- What the last point leaves in the output window: the region's result. -/
theorem v1_last (n : ℕ) (hn : n < cfg1.N) (h19 : n = 19) (g : Fin 64) (o : Fin 10) :
    ((outsAt1 (F := Ideal) V c n hn).1 : S64x10.Idx → EReal) (ix2 g o) = OUT1 V c g o := by
  obtain ⟨m, rfl⟩ : ∃ m, n = m + 1 := ⟨18, h19⟩
  have e20 : m + 1 + 1 = 20 := by omega
  obtain ⟨ihA, ihC⟩ := v1_inv V c m (Nat.lt_of_succ_lt hn)
  have h0 : ¬(⟨m + 1, hn⟩ : Fin cfg1.N).val % 20 = 0 := by dsimp only; omega
  have h1 : (⟨m + 1, hn⟩ : Fin cfg1.N).val % 20 = 19 := by dsimp only; omega
  have e := outsAt1_C (F := Ideal) V c ⟨m + 1, hn⟩ h0 h1
  rw [show outsAt1 (F := Ideal) V c (m + 1) hn = _ from e]
  dsimp only
  refine (congrFun (out7_C_eq (F := Ideal) c (grid1.coords ⟨m + 1, hn⟩) (ms1_0 ⟨m + 1, hn⟩) (hs1_0 ⟨m + 1, hn⟩) (ms1_1 ⟨m + 1, hn⟩) (hs1_1 ⟨m + 1, hn⟩) (ms1_2 ⟨m + 1, hn⟩) (hs1_2 ⟨m + 1, hn⟩) (ms1_3 ⟨m + 1, hn⟩) (hs1_3 ⟨m + 1, hn⟩) (ms1_4 ⟨m + 1, hn⟩) (hs1_4 ⟨m + 1, hn⟩) (ms1_5 ⟨m + 1, hn⟩) (hs1_5 ⟨m + 1, hn⟩) (ms1_6 ⟨m + 1, hn⟩) (hs1_6 ⟨m + 1, hn⟩) (ms1_7 ⟨m + 1, hn⟩) (hs1_7 ⟨m + 1, hn⟩) scM1_0 (Memref.isWhole_whole _) scM1_1 (Memref.isWhole_whole _) (fun h => h0 ((hcond1_0 ⟨m + 1, hn⟩).mp h)) ((hcond1_1 ⟨m + 1, hn⟩).mpr h1) (iblk1 V c 0 ⟨m + 1, hn⟩) (iblk1 V c 1 ⟨m + 1, hn⟩) (iblk1 V c 2 ⟨m + 1, hn⟩) (iblk1 V c 3 ⟨m + 1, hn⟩) (iblk1 V c 4 ⟨m + 1, hn⟩) (iblk1 V c 5 ⟨m + 1, hn⟩) (iblk1 V c 6 ⟨m + 1, hn⟩) (outsAt1 (F := Ideal) V c m (Nat.lt_of_succ_lt hn)).2.1 (outsAt1 (F := Ideal) V c m (Nat.lt_of_succ_lt hn)).2.2) (ix2 g o)).trans ?_
  exact v1_out V c
    (k1_pay1 (k1_pay5 (blk1_0 V c ⟨m + 1, hn⟩)) (k1_pay6 (F := Ideal)) (outsAt1 (F := Ideal) V c m (Nat.lt_of_succ_lt hn)).2.2)
    (k1_pay7 (blk1_2 V c ⟨m + 1, hn⟩) (blk1_1 V c ⟨m + 1, hn⟩) (blk1_3 V c ⟨m + 1, hn⟩) (blk1_4 V c ⟨m + 1, hn⟩) (blk1_0 V c ⟨m + 1, hn⟩) (outsAt1 (F := Ideal) V c m (Nat.lt_of_succ_lt hn)).2.1)
    (blk1_5 V c ⟨m + 1, hn⟩) (blk1_6 V c ⟨m + 1, hn⟩) (blk1_5_eq V c ⟨m + 1, hn⟩) (blk1_6_eq V c ⟨m + 1, hn⟩)
    (fun g j => (v1_step_acc V c ⟨m + 1, hn⟩ (outsAt1 (F := Ideal) V c m (Nat.lt_of_succ_lt hn)).2.1 g j (ihA g j)).trans (congrArg (fun k => ACC V c k g j) e20))
    (fun g => (v1_step_cnt V c ⟨m + 1, hn⟩ (outsAt1 (F := Ideal) V c m (Nat.lt_of_succ_lt hn)).2.2 g (ihC g)).trans (congrArg (fun k => CNT V c k g) e20)) g o

/-! ## The result array -/

/-- The region's result array holds, at graph `g` and output column `o`, the per-graph means times the last weight
    matrix plus the last bias. -/
theorem arr1_final (V : (c : Dev nD) → (b : Ref sig .tc) → Buf (Elt Ideal) ((c : Thread nD τ).loc b)) (c : Dev nD)
    (g : Fin 64) (o : Fin 10) :
    ((dat1 (F := Ideal) V c).arrAt 7 cfg1.N : S64x10.Idx → EReal) (ValueIdx.ix2 g o) = OUT1 V c g o :=
  (arr1_last V c g o).trans (v1_last V c 19 _ rfl g o)

end Cert.KernelIdeal.Hand

end
-- ==== Proof.KIValue.lean ====
/-
  The kernel program's result as the specification's formula. Region 0 leaves in its output array what its
  formula says, which is the specification's second-layer product; with that, region 1 leaves in the result array
  the specification's result in the kernel's arrangement; and the run of the whole program ends there with every
  argument array as launched.
-/
import proofs.«428876_j16381005267207_3_alg».proof.Proof.KIConn
import proofs.«428876_j16381005267207_3_alg».proof.Proof.KIVal0
import proofs.«428876_j16381005267207_3_alg».proof.Proof.KIVal1
import proofs.«428876_j16381005267207_3_alg».proof.Proof.KIRun

noncomputable section

open scoped BigOperators

namespace Cert.KSide

open Cert.KernelIdeal Cert.KernelIdeal.Gen Cert.KernelIdeal.Hand Idealize.ShloMosaic Idealize.ShloMosaic.TcCoe Idealize.ShloMosaic.ValueIdx Idealize.SL.Sem

section Value
open Cert.KernelIdeal.Gen
variable (m : (ℓ : Loc nD τ sig) → Buf (Elt Ideal) ℓ) (c : Dev nD)

/-- What region 0 leaves in its output array is the specification's second-layer product. -/
theorem out42_eq :
    (outs0 m 2 main_v42 c : S100000x64.Idx → EReal) = fun i => Cert.Spec.hw2K (inOf m c) (i 0) (i 1) := by
  have h1 : (outs0 m 2 main_v42 c : S100000x64.Idx → EReal) = (dat0 (V1r m) c).arrAt 6 cfg0.N := by
    show W2 m c (Proc.devRef .tc main_v42) = _
    exact W2_arr m c 6
  funext i
  obtain ⟨n, q, rfl⟩ : ∃ n q, i = ix2 n q := ⟨i 0, i 1, eq_ix2 i⟩
  exact (congrFun h1 (ix2 n q)).trans ((arr0_final (V1r m) c n q).trans (H2pre_eq m c n q))

/-- What region 1 leaves in the result array is the specification's result in the kernel's arrangement. -/
theorem result_eq :
    ((dat1 (F := Ideal) (V3r m) c).arrAt 7 cfg1.N : S64x10.Idx → EReal)
      = fun j => Cert.Spec.outK (inOf m c) (j 0) (j 1) := by
  funext j
  obtain ⟨g, o, rfl⟩ : ∃ g o, j = ix2 g o := ⟨j 0, j 1, eq_ix2 j⟩
  exact (arr1_final (V3r m) c g o).trans (OUT1_eq m c g o (out42_eq m c))

/-- The run of the whole program ends with the result array at the specification's result in the kernel's
    arrangement and every argument array as launched. -/
theorem run_outK (ρ : Dev nD → PrngReg) :
    θ_run (defs (F := Ideal)) (onTc (τ := τ) (main (F := Ideal))) ⟨m, fun _ => 0, ρ⟩ (fun r => ∀ c : Dev nD,
      r.2.mem ((c.tc : Thread nD τ).loc main_v61) = (fun j => Cert.Spec.outK (inOf m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_eq m c), (h c).2⟩) (run_main m ρ)

end Value

end Cert.KSide

end
-- ==== Proof.RefSideA.lean ====
/-
  The reference program's edge stages read at an index, against the specification: the source and target words
  (rows 0 and 1 of the edge array), the words raised by the table's length when negative, the number of edges
  into a node, the inverse square root of a node's degree, the two table reads of an edge's end nodes and the
  edge's weight. The second layer recomputes the degrees and weights, and each row gather recomputes the raised
  source words: those repeated stages are, stage by stage, the first ones.
-/
import proofs.«428876_j16381005267207_3_alg».proof.Proof.Gen.ReferenceIdeal.Read
import proofs.«428876_j16381005267207_3_alg».proof.Proof.Spec
import proofs.«428876_j16381005267207_3_alg».proof.Proof.LibSegmentSum
import proofs.«428876_j16381005267207_3_alg».proof.Proof.LibTakeRows
import proofs.«428876_j16381005267207_3_alg».proof.Proof.LibTakeFlat

noncomputable section

open scoped BigOperators

namespace Cert.RefSide

open Cert.ReferenceIdeal Cert.ReferenceIdeal.Gen Cert.ReferenceIdeal.Read Idealize.ShloMosaic Idealize.ShloMosaic.ValueIdx

variable (a : Spec.In)

/-! ## The edge words -/

/-- Row 0 of the edge array: the source words. -/
theorem src_apply (e : Fin 1600000) : val_main_v1 (F := Ideal) a.ei (ix1 e) = Spec.srcW a e := by
  rw [val_main_v1_apply, val_main_v0_apply]
  refine congrArg a.ei (funext fun b => Fin.ext ?_)
  match b with
  | ⟨0, _⟩ => rfl
  | ⟨1, _⟩ => exact Nat.mod_eq_of_lt e.isLt

/-- Row 1 of the edge array: the target words. -/
theorem dst_apply (e : Fin 1600000) : val_main_v3 (F := Ideal) a.ei (ix1 e) = Spec.dstW a e := by
  rw [val_main_v3_apply, val_main_v2_apply]
  refine congrArg a.ei (funext fun b => Fin.ext ?_)
  match b with
  | ⟨0, _⟩ => rfl
  | ⟨1, _⟩ => exact Nat.mod_eq_of_lt e.isLt

/-- A source word raised by the table's length when negative. -/
theorem nrm_src_apply (e : Fin 1600000) : val_main_v16 (F := Ideal) a.ei (ix1 e) = Spec.nrm (Spec.srcW a e) := by
  rw [val_main_v16_apply, val_main_v13_apply, val_main_v15_apply, val_main_v12_apply, val_main_v14_apply, src_apply]
  rfl

/-- A target word raised by the table's length when negative. -/
theorem nrm_dst_apply (e : Fin 1600000) : val_main_v23 (F := Ideal) a.ei (ix1 e) = Spec.nrm (Spec.dstW a e) := by
  rw [val_main_v23_apply, val_main_v20_apply, val_main_v22_apply, val_main_v19_apply, val_main_v21_apply, dst_apply]
  rfl

/-- Entry `[e, 0]` of a column of edge values reads entry `e`. -/
theorem col_idx (e : Fin 1600000) : idx_main_v7 (ix2 e 0) = ix1 e :=
  funext fun b => Fin.ext (by match b with | ⟨0, _⟩ => rfl)

theorem dstcol_apply (e : Fin 1600000) : val_main_v7 (F := Ideal) a.ei (ix2 e 0) = Spec.dstW a e := by
  rw [val_main_v7_apply, col_idx, dst_apply]

theorem nrm_srccol_apply (e : Fin 1600000) :
    val_main_v17 (F := Ideal) a.ei (ix2 e 0) = Spec.nrm (Spec.srcW a e) := by
  rw [val_main_v17_apply]
  exact nrm_src_apply a e

theorem nrm_dstcol_apply (e : Fin 1600000) :
    val_main_v24 (F := Ideal) a.ei (ix2 e 0) = Spec.nrm (Spec.dstW a e) := by
  rw [val_main_v24_apply]
  exact nrm_dst_apply a e

/-! ## Degrees and edge weights -/

/-- At the ideal instance the host's accumulating scatter is the exact sum. -/
theorem scatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- The number of edges into node `n`: a one for every edge whose target word is `n`. -/
theorem deg_apply (n : Fin 100000) :
    val_main_v8 (F := Ideal) a.ei (ix1 n) = Spec.zero + ∑ _e ∈ Spec.into a n, Spec.one := by
  unfold val_main_v8
  rw [scatterAdd_ideal]
  refine (Cert.Lib.scatterAdd_flat_apply scatter_S100000_S1600000x1_S1600000_n_0_0_1 rfl rfl rfl rfl
    (val_main_v6 (F := Ideal)) (val_main_v7 (F := Ideal) a.ei) (val_main_v5 (F := Ideal)) n).trans ?_
  rw [val_main_v6_apply, val_main_cst_0_apply]
  refine congrArg (fun s => Spec.zero + s) ?_
  refine Finset.sum_congr ?_ fun e _ => ?_
  · refine Finset.filter_congr fun e _ => ?_
    rw [dstcol_apply]
  · rw [val_main_v5_apply, val_main_cst_apply]; rfl

theorem dinv_unfold (n : Fin 100000) :
    Spec.dinv a n = Ideal.rsqrt ((Spec.zero + ∑ _e ∈ Spec.into a n, Spec.one) + Spec.one) := rfl

/-- The inverse square root of the degree, self loop included. -/
theorem dinv_apply (n : Fin 100000) : val_main_v11 (F := Ideal) a.ei (ix1 n) = Spec.dinv a n := by
  rw [val_main_v11_apply, val_main_v10_apply, deg_apply, val_main_v9_apply, val_main_cst_1_apply,
    Ideal.hostUnary_rsqrt_def, Ideal.addf_def, dinv_unfold]
  rfl

/-- A start index that is a raised word, clamped into the table, is that word's row. -/
theorem row_of_eq {v w : BitVec 32} (h : v = Spec.nrm w) (p : min v.toInt.toNat (100000 - 1) < 100000) :
    (⟨min v.toInt.toNat (100000 - 1), p⟩ : Fin 100000) = Spec.row w := by
  subst h; rfl

/-- The table entry an edge's source word reads. -/
theorem dinv_src_apply (e : Fin 1600000) :
    val_main_v18 (F := Ideal) a.ei (ix1 e) = Spec.dinv a (Spec.row (Spec.srcW a e)) := by
  unfold val_main_v18
  refine (Cert.Lib.gather_flat_apply (by norm_num) gather_S100000_S1600000x1_S1600000_n_0_n_n_0_1_1 rfl rfl rfl rfl rfl rfl
    rfl (val_main_v11 (F := Ideal) a.ei) (val_main_v17 (F := Ideal) a.ei) e).trans ?_
  refine (congrArg (fun r => val_main_v11 (F := Ideal) a.ei (ix1 r)) (row_of_eq (nrm_srccol_apply a e) _)).trans ?_
  exact dinv_apply a (Spec.row (Spec.srcW a e))

/-- The table entry an edge's target word reads. -/
theorem dinv_dst_apply (e : Fin 1600000) :
    val_main_v25 (F := Ideal) a.ei (ix1 e) = Spec.dinv a (Spec.row (Spec.dstW a e)) := by
  unfold val_main_v25
  refine (Cert.Lib.gather_flat_apply (by norm_num) gather_S100000_S1600000x1_S1600000_n_0_n_n_0_1_1 rfl rfl rfl rfl rfl rfl
    rfl (val_main_v11 (F := Ideal) a.ei) (val_main_v24 (F := Ideal) a.ei) e).trans ?_
  refine (congrArg (fun r => val_main_v11 (F := Ideal) a.ei (ix1 r)) (row_of_eq (nrm_dstcol_apply a e) _)).trans ?_
  exact dinv_apply a (Spec.row (Spec.dstW a e))

/-- An edge's weight. -/
theorem norm_apply (e : Fin 1600000) : val_main_v26 (F := Ideal) a.ei (ix1 e) = Spec.norm a e := by
  rw [val_main_v26_apply, dinv_src_apply, dinv_dst_apply, Ideal.mulf_def]
  rfl

/-! ## The second layer recomputes the same degrees and weights, and the raised source words are recomputed for each
    row gather: stage by stage the repeated operations are the first ones. -/

section Repeats

variable {F : FTy → Type} [FloatOps F] (x1 : (⟨S2x1600000, .i32⟩ : BufTy).Contents (Elt F))

theorem v31_eq : val_main_v31 (F := F) x1 = val_main_v16 (F := F) x1 := rfl
theorem v32_eq : val_main_v32 (F := F) x1 = val_main_v17 (F := F) x1 := rfl
theorem v38_eq : val_main_v38 (F := F) x1 = val_main_v7 (F := F) x1 := rfl
theorem v56_eq : val_main_v56 (F := F) x1 = val_main_v11 (F := F) x1 := rfl
theorem v71_eq : val_main_v71 (F := F) x1 = val_main_v26 (F := F) x1 := rfl
theorem v77_eq : val_main_v77 (F := F) x1 = val_main_v17 (F := F) x1 := rfl
theorem v83_eq : val_main_v83 (F := F) x1 = val_main_v7 (F := F) x1 := rfl
theorem v82_eq : val_main_v82 (F := F) = val_main_v37 (F := F) := rfl

end Repeats

end Cert.RefSide

end
-- ==== Proof.RefSideB.lean ====
/-
  The reference program's two graph-convolution layers read at an index, against the specification. One lemma reads
  the sum over the edges into a node for ANY table of node features (the rows of the table at the edges' sources,
  each times its edge's weight, accumulated at the edges' targets); each layer is that lemma at its own table —
  the features times the first weight matrix, then the first layer's result times the second —, followed by the
  self-loop term, the bias and the rectifier (a maximum with the zero word).
-/
import proofs.«428876_j16381005267207_3_alg».proof.Proof.Gen.ReferenceIdeal.Read
import proofs.«428876_j16381005267207_3_alg».proof.Proof.Spec
import proofs.«428876_j16381005267207_3_alg».proof.Proof.LibSegmentSum
import proofs.«428876_j16381005267207_3_alg».proof.Proof.LibTakeRows
import proofs.«428876_j16381005267207_3_alg».proof.Proof.LibTakeFlat
import proofs.«428876_j16381005267207_3_alg».proof.Proof.RefSideA

noncomputable section

open scoped BigOperators

namespace Cert.RefSide

open Cert.ReferenceIdeal Cert.ReferenceIdeal.Gen Cert.ReferenceIdeal.Read Idealize.ShloMosaic Idealize.ShloMosaic.ValueIdx

variable (a : Spec.In)

/-! ## A graph-convolution layer over a table of node features -/

/-- Entry `[e, k]` of an edge column broadcast along the feature axis reads entry `e`. -/
theorem bcol_idx (e : Fin 1600000) (k : Fin 64) : idx_main_v34 (idx_main_v35 (ix2 e k)) = ix1 e :=
  funext fun b => Fin.ext (by match b with | ⟨0, _⟩ => rfl)

theorem normcol_apply (e : Fin 1600000) (k : Fin 64) : val_main_v35 (F := Ideal) a.ei (ix2 e k) = Spec.norm a e := by
  rw [val_main_v35_apply, val_main_v34_apply, bcol_idx, norm_apply]

/-- Entry `[n, k]` of a node column broadcast along the feature axis reads entry `n`. -/
theorem ncol_idx (n : Fin 100000) (k : Fin 64) : idx_main_v41 (idx_main_v42 (ix2 n k)) = ix1 n :=
  funext fun b => Fin.ext (by match b with | ⟨0, _⟩ => rfl)

theorem dinv2col_apply (n : Fin 100000) (k : Fin 64) : val_main_v42 (F := Ideal) a.ei (ix2 n k) = Spec.dinv2 a n := by
  rw [val_main_v42_apply, val_main_v41_apply, ncol_idx, val_main_v40_apply, dinv_apply, Ideal.mulf_def]
  rfl

/-- THE SUM OVER THE EDGES INTO A NODE, for any table `T` of node features that reads as `h`: the rows of `T` at the
    edges' sources, each times its edge's weight, accumulated at the edges' targets. -/
theorem agg_apply (T : FVec Ideal S100000x64 .f32) (h : Fin 100000 → Fin 64 → EReal)
    (hT : ∀ n k, T (ix2 n k) = h n k) (n : Fin 100000) (k : Fin 64) :
    Host.scatterAdd (F := Ideal) (φ := .f32) scatter_S100000x64_S1600000x1_S1600000x64_1_0_0_1 (val_main_v37 (F := Ideal))
        (val_main_v7 (F := Ideal) a.ei)
        (mulf (F := Ideal) (φ := .f32)
          (Host.gather gather_S100000x64_S1600000x1_S1600000x64_1_0_n_n_0_1_164 T (val_main_v17 (F := Ideal) a.ei))
          (val_main_v35 (F := Ideal) a.ei)) (ix2 n k)
      = Spec.zero + ∑ e ∈ Spec.into a n, h (Spec.row (Spec.srcW a e)) k * Spec.norm a e := by
  rw [scatterAdd_ideal]
  refine (Cert.Lib.scatterAdd_rows_apply scatter_S100000x64_S1600000x1_S1600000x64_1_0_0_1 rfl rfl rfl rfl
    (val_main_v37 (F := Ideal)) (val_main_v7 (F := Ideal) a.ei) _ n k).trans ?_
  rw [val_main_v37_apply, val_main_cst_7_apply]
  refine congrArg (fun s => Spec.zero + s) ?_
  refine Finset.sum_congr (Finset.filter_congr fun e _ => by rw [dstcol_apply]) fun e _ => ?_
  show FloatOps.mulf (F := Ideal) (φ := .f32) (Host.gather gather_S100000x64_S1600000x1_S1600000x64_1_0_n_n_0_1_164 T
      (val_main_v17 (F := Ideal) a.ei) (ix2 e k)) (val_main_v35 (F := Ideal) a.ei (ix2 e k)) = _
  rw [normcol_apply, Ideal.mulf_def]
  refine congrArg (fun s => s * Spec.norm a e) ?_
  refine (Cert.Lib.gather_rows_apply (by norm_num) gather_S100000x64_S1600000x1_S1600000x64_1_0_n_n_0_1_164 rfl rfl rfl rfl
    rfl rfl rfl T (val_main_v17 (F := Ideal) a.ei) e k).trans ?_
  exact (congrArg (fun r => T (ix2 r k)) (row_of_eq (nrm_srccol_apply a e) _)).trans (hT _ k)

/-! ## The first layer -/

theorem xw_lidx (n : Fin 100000) (k : Fin 64) (i : Fin 3) : lidx_main_v4 (ix2 n k) i = ix2 n i :=
  funext fun b => Fin.ext (by match b with | ⟨0, _⟩ => rfl | ⟨1, _⟩ => rfl)
theorem xw_ridx (n : Fin 100000) (k : Fin 64) (i : Fin 3) : ridx_main_v4 (ix2 n k) i = ix2 i k :=
  funext fun b => Fin.ext (by match b with | ⟨0, _⟩ => rfl | ⟨1, _⟩ => rfl)

/-- The node features times the first weight matrix. -/
theorem xw_apply (n : Fin 100000) (k : Fin 64) : val_main_v4 (F := Ideal) a.x a.W1 (ix2 n k) = Spec.xw a n k := by
  rw [val_main_v4_apply]
  unfold Spec.xw
  refine Finset.sum_congr rfl fun i _ => ?_
  rw [xw_lidx, xw_ridx]

theorem agg1_apply (n : Fin 100000) (k : Fin 64) :
    val_main_v39 (F := Ideal) a.x a.ei a.W1 (ix2 n k) = Spec.agg1 a n k := by
  unfold val_main_v39 val_main_v36 val_main_v33
  rw [v38_eq, v32_eq]
  exact agg_apply a _ (Spec.xw a) (xw_apply a) n k

theorem bias_idx (n : Fin 100000) (k : Fin 64) : idx_main_v45 (idx_main_v46 (ix2 n k)) = ix1 k :=
  funext fun b => Fin.ext (by match b with | ⟨0, _⟩ => rfl)

/-- The first layer's result, after the rectifier. -/
theorem h1_apply (n : Fin 100000) (k : Fin 64) :
    val_main_v48 (F := Ideal) a.x a.ei a.W1 a.b1 (ix2 n k) = Spec.h1 a n k := by
  rw [val_main_v48_apply, val_main_v47_apply, val_main_v44_apply, val_main_v43_apply, agg1_apply, xw_apply,
    dinv2col_apply, val_main_v46_apply, val_main_v45_apply, bias_idx, val_main_call0_v0_apply,
    val_main_call0_cst_apply, Ideal.maximumf_def, Ideal.addf_def, Ideal.addf_def, Ideal.mulf_def]
  rfl

/-! ## The second layer -/

section Repeats2

variable {F : FTy → Type} [FloatOps F] (x1 : (⟨S2x1600000, .i32⟩ : BufTy).Contents (Elt F))

theorem v80_eq : val_main_v80 (F := F) x1 = val_main_v35 (F := F) x1 := rfl
theorem v87_eq : val_main_v87 (F := F) x1 = val_main_v42 (F := F) x1 := rfl

end Repeats2

theorem hw_lidx (n : Fin 100000) (j k : Fin 64) : lidx_main_v49 (ix2 n j) k = ix2 n k :=
  funext fun b => Fin.ext (by match b with | ⟨0, _⟩ => rfl | ⟨1, _⟩ => rfl)
theorem hw_ridx (n : Fin 100000) (j k : Fin 64) : ridx_main_v49 (ix2 n j) k = ix2 k j :=
  funext fun b => Fin.ext (by match b with | ⟨0, _⟩ => rfl | ⟨1, _⟩ => rfl)

/-- The first layer's result times the second weight matrix. -/
theorem hw2_apply (n : Fin 100000) (j : Fin 64) :
    val_main_v49 (F := Ideal) a.x a.ei a.W1 a.b1 a.W2 (ix2 n j) = Spec.hw2 a n j := by
  rw [val_main_v49_apply]
  unfold Spec.hw2
  refine Finset.sum_congr rfl fun k _ => ?_
  rw [hw_lidx, hw_ridx, h1_apply]

theorem agg2_apply (n : Fin 100000) (j : Fin 64) :
    val_main_v84 (F := Ideal) a.x a.ei a.W1 a.b1 a.W2 (ix2 n j) = Spec.agg2 a n j := by
  unfold val_main_v84 val_main_v81 val_main_v78
  rw [v83_eq, v82_eq, v77_eq, v80_eq]
  exact agg_apply a _ (Spec.hw2 a) (hw2_apply a) n j

theorem bias2_idx (n : Fin 100000) (k : Fin 64) : idx_main_v90 (idx_main_v91 (ix2 n k)) = ix1 k :=
  funext fun b => Fin.ext (by match b with | ⟨0, _⟩ => rfl)

/-- The second layer's result, after the rectifier. -/
theorem h2_apply (n : Fin 100000) (j : Fin 64) :
    val_main_v93 (F := Ideal) a.x a.ei a.W1 a.b1 a.W2 a.b2 (ix2 n j) = Spec.h2 a n j := by
  rw [val_main_v93_apply, val_main_v92_apply, val_main_v89_apply, val_main_v88_apply, agg2_apply, hw2_apply, v87_eq,
    dinv2col_apply, val_main_v91_apply, val_main_v90_apply, bias2_idx, val_main_call1_v0_apply,
    val_main_call1_cst_apply, Ideal.maximumf_def, Ideal.addf_def, Ideal.addf_def, Ideal.mulf_def]
  rfl

end Cert.RefSide

end
-- ==== Proof.RefSide.lean ====
/-
  The reference side of the certificate: the reference program's result is the specification's `out`.

  The last stages read at an index — the number of nodes of each graph, the sum of the node features over each
  graph, the mean (a count below one read as one), the last linear layer — and then the run: every execution of
  the reference ends with its result buffer holding `out` of the nine argument arrays, the arguments unchanged.
-/
import proofs.«428876_j16381005267207_3_alg».proof.Proof.Gen.ReferenceIdeal.Read
import proofs.«428876_j16381005267207_3_alg».proof.Proof.Spec
import proofs.«428876_j16381005267207_3_alg».proof.Proof.LibSegmentSum
import proofs.«428876_j16381005267207_3_alg».proof.Proof.LibTakeRows
import proofs.«428876_j16381005267207_3_alg».proof.Proof.LibTakeFlat
import proofs.«428876_j16381005267207_3_alg».proof.Proof.RefSideB

noncomputable section

open scoped BigOperators

namespace Cert.RefSide

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable (a : Spec.In)

/-! ## The mean over each graph and the linear layer -/

theorem batchcol_idx (n : Fin 100000) : idx_main_v96 (ix2 n 0) = ix1 n :=
  funext fun b => Fin.ext (by match b with | ⟨0, _⟩ => rfl)

theorem batchcol_apply (n : Fin 100000) : val_main_v96 (F := Ideal) a.batch (ix2 n 0) = a.batch (ix1 n) := by
  rw [val_main_v96_apply, batchcol_idx]

theorem v99_eq {F : FTy → Type} [FloatOps F] (x2 : (⟨S100000, .i32⟩ : BufTy).Contents (Elt F)) :
    val_main_v99 (F := F) x2 = val_main_v96 (F := F) x2 := rfl

/-- The number of nodes of graph `g`: a one for every node whose graph word is `g`. -/
theorem cnt_apply (g : Fin 64) : val_main_v97 (F := Ideal) a.batch (ix1 g) = Spec.cnt a g := by
  unfold val_main_v97
  rw [scatterAdd_ideal]
  refine (Cert.Lib.scatterAdd_flat_apply scatter_S64_S100000x1_S100000_n_0_0_1 rfl rfl rfl rfl
    (val_main_v95 (F := Ideal)) (val_main_v96 (F := Ideal) a.batch) (val_main_v94 (F := Ideal)) g).trans ?_
  rw [val_main_v95_apply, val_main_cst_19_apply]
  unfold Spec.cnt
  refine congrArg (fun s => Spec.zero + s) ?_
  refine Finset.sum_congr (Finset.filter_congr fun n _ => by rw [batchcol_apply]) fun n _ => ?_
  rw [val_main_v94_apply, val_main_cst_18_apply]; rfl

/-- The sum of the node features over graph `g`. -/
theorem pool_apply (g j : Fin 64) :
    val_main_v100 (F := Ideal) a.x a.ei a.batch a.W1 a.b1 a.W2 a.b2 (ix2 g j) = Spec.pool a g j := by
  unfold val_main_v100
  rw [scatterAdd_ideal]
  refine (Cert.Lib.scatterAdd_rows_apply scatter_S64x64_S100000x1_S100000x64_1_0_0_1 rfl rfl rfl rfl
    (val_main_v98 (F := Ideal)) (val_main_v99 (F := Ideal) a.batch)
    (val_main_v93 (F := Ideal) a.x a.ei a.W1 a.b1 a.W2 a.b2) g j).trans ?_
  rw [val_main_v98_apply, val_main_cst_20_apply]
  unfold Spec.pool
  refine congrArg (fun s => Spec.zero + s) ?_
  refine Finset.sum_congr (Finset.filter_congr fun n _ => by rw [v99_eq, batchcol_apply]) fun n _ => ?_
  exact h2_apply a n j

theorem cntcol_idx (g j : Fin 64) : idx_main_v103 (idx_main_v104 (ix2 g j)) = ix1 g :=
  funext fun b => Fin.ext (by match b with | ⟨0, _⟩ => rfl)

/-- The mean: the sum divided by the count, a count below one read as one. -/
theorem mean_apply (g j : Fin 64) :
    val_main_v105 (F := Ideal) a.x a.ei a.batch a.W1 a.b1 a.W2 a.b2 (ix2 g j)
      = Ideal.div (Spec.pool a g j) (max (Spec.cnt a g) Spec.one) := by
  rw [val_main_v105_apply, pool_apply, val_main_v104_apply, val_main_v103_apply, cntcol_idx, val_main_v102_apply,
    cnt_apply, val_main_v101_apply, val_main_cst_21_apply, Ideal.hostDivf_def, Ideal.maximumf_def]
  rfl

theorem out_lidx (g : Fin 64) (o : Fin 10) (j : Fin 64) : lidx_main_v106 (ix2 g o) j = ix2 g j :=
  funext fun b => Fin.ext (by match b with | ⟨0, _⟩ => rfl | ⟨1, _⟩ => rfl)
theorem out_ridx (g : Fin 64) (o : Fin 10) (j : Fin 64) : ridx_main_v106 (ix2 g o) j = ix2 j o :=
  funext fun b => Fin.ext (by match b with | ⟨0, _⟩ => rfl | ⟨1, _⟩ => rfl)
theorem outbias_idx (g : Fin 64) (o : Fin 10) : idx_main_v107 (idx_main_v108 (ix2 g o)) = ix1 o :=
  funext fun b => Fin.ext (by match b with | ⟨0, _⟩ => rfl)

/-- The result: the means times the last weight matrix, plus the last bias. -/
theorem out_apply (g : Fin 64) (o : Fin 10) :
    val_main_v109 (F := Ideal) a.x a.ei a.batch a.W1 a.b1 a.W2 a.b2 a.Wfc a.bfc (ix2 g o) = Spec.out a g o := by
  rw [val_main_v109_apply, val_main_v106_apply, val_main_v108_apply, val_main_v107_apply, outbias_idx, Ideal.addf_def]
  unfold Spec.out
  refine congrArg (fun s => s + a.bfc (ix1 o)) ?_
  refine Finset.sum_congr rfl fun j _ => ?_
  rw [out_lidx, out_ridx, mean_apply]

/-! ## The run -/

/-- The nine argument arrays of a launch memory, as the specification's input. -/
def inOf (m : (ℓ : Loc Cert.ReferenceIdeal.nD Cert.ReferenceIdeal.τ Cert.ReferenceIdeal.sig) → Buf (Elt Ideal) ℓ)
    (c : Dev Cert.ReferenceIdeal.nD) : Cert.Spec.In :=
  ⟨m ((c.tc : Thread Cert.ReferenceIdeal.nD Cert.ReferenceIdeal.τ).loc Cert.ReferenceIdeal.main_arg0), m ((c.tc : Thread Cert.ReferenceIdeal.nD Cert.ReferenceIdeal.τ).loc Cert.ReferenceIdeal.main_arg1),
    m ((c.tc : Thread Cert.ReferenceIdeal.nD Cert.ReferenceIdeal.τ).loc Cert.ReferenceIdeal.main_arg2), m ((c.tc : Thread Cert.ReferenceIdeal.nD Cert.ReferenceIdeal.τ).loc Cert.ReferenceIdeal.main_arg3),
    m ((c.tc : Thread Cert.ReferenceIdeal.nD Cert.ReferenceIdeal.τ).loc Cert.ReferenceIdeal.main_arg4), m ((c.tc : Thread Cert.ReferenceIdeal.nD Cert.ReferenceIdeal.τ).loc Cert.ReferenceIdeal.main_arg5),
    m ((c.tc : Thread Cert.ReferenceIdeal.nD Cert.ReferenceIdeal.τ).loc Cert.ReferenceIdeal.main_arg6), m ((c.tc : Thread Cert.ReferenceIdeal.nD Cert.ReferenceIdeal.τ).loc Cert.ReferenceIdeal.main_arg7),
    m ((c.tc : Thread Cert.ReferenceIdeal.nD Cert.ReferenceIdeal.τ).loc Cert.ReferenceIdeal.main_arg8)⟩

/-- The reference's composed result is the specification's `out` of the argument arrays. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v109 (F := Ideal) m c
      = fun j : S64x10.Idx => Cert.Spec.out (inOf m c) (j 0) (j 1) := by
  rw [Cert.ReferenceIdeal.Read.val_main_v109_eq]
  funext j
  obtain ⟨g, o, rfl⟩ : ∃ (g : Fin 64) (o : Fin 10), j = ix2 g o := ⟨j 0, j 1, eq_ix2 j⟩
  exact out_apply (inOf m c) g o

/-- Every execution of the reference ends with its result at the specification's `out` of the argument arrays, and the
    arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v109)
          = (fun j : S64x10.Idx => Cert.Spec.out (inOf m c) (j 0) (j 1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run (Cert.ReferenceIdeal.defs (F := Ideal)) _ _).mono (fun _ h c => ⟨(h c).1.trans (res_eq m c), (h c).2⟩)
    (Cert.ReferenceIdeal.Value.run (F := Ideal) m ρ)

end Cert.RefSide

end
-- ==== Proof.SpecLaw.lean ====
/-
  The index-level specification's laws: the float words it spells are 0 and 1, the membership factor is a 0/1
  indicator, and the kernel's arrangement of the two layers and of the per-graph mean equals the reference's
  wherever the node features and the first weight matrix are real numbers.

  Every degree is a positive real, so the edge weights are real. With real features and real first-layer
  weights the first layer's two arrangements are one identity of real numbers (a finite sum commutes with a
  three-term contraction; distributivity is what needs finiteness). Everything after it follows by congruence,
  and the twenty-block accumulation is a regrouping of one finite sum, valid in any commutative monoid.
-/
import proofs.«428876_j16381005267207_3_alg».proof.Proof.Spec
import Idealize.ShloMosaic.PureOps.Ideal
import Idealize.ShloMosaic.PureOps.Ideal.Laws
import Mathlib.Data.EReal.Basic
import Mathlib.Data.EReal.Operations

noncomputable section

open scoped BigOperators

namespace Cert.Spec

open Idealize.ShloMosaic Idealize.ShloMosaic.ValueIdx

theorem zero_eq : zero = 0 := Ideal.ofBits_zero_f32

theorem one_eq : one = 1 := by
  simp [one, Ideal.ofBits, Ideal.ieee]
  rw [← EReal.coe_mul, ← EReal.coe_one]
  congr 1
  norm_num

theorem oneB_eq : oneB = 1 := by
  simp [oneB, Ideal.ofBits, Ideal.ieee]
  rw [← EReal.coe_mul, ← EReal.coe_one]
  congr 1
  norm_num

private theorem ofNat_toInt (g : Fin 64) : (BitVec.ofNat 32 g.val).toInt = (g.val : ℤ) := by
  have := g.isLt
  have hn : (BitVec.ofNat 32 g.val).toNat = g.val := by rw [BitVec.toNat_ofNat]; omega
  rw [BitVec.toInt_eq_toNat_of_lt (by rw [hn]; omega), hn]

theorem oh_eq (b : BitVec 32) (g : Fin 64) : oh b g = if b.toInt = (g.val : ℤ) then 1 else 0 := by
  unfold oh
  show (((((IntOp.cmpi .eq b (BitVec.ofNat 32 g.val)).setWidth 32).toInt : ℝ)) : EReal) = _
  have h1 : ((1#1 : BitVec 1).setWidth 32).toInt = 1 := by decide
  have h0 : ((0#1 : BitVec 1).setWidth 32).toInt = 0 := by decide
  by_cases h : b = BitVec.ofNat 32 g.val
  · have hc : IntOp.cmpi .eq b (BitVec.ofNat 32 g.val) = 1#1 := by simp [IntOp.cmpi, h]
    rw [hc, h1, if_pos (h ▸ ofNat_toInt g)]
    simp
  · have h' : ¬ b.toInt = (g.val : ℤ) := fun e => h (BitVec.eq_of_toInt_eq (e.trans (ofNat_toInt g).symm))
    have hb : (b == BitVec.ofNat 32 g.val) = false := beq_eq_false_iff_ne.mpr h
    have hc : IntOp.cmpi .eq b (BitVec.ofNat 32 g.val) = 0#1 := by simp [IntOp.cmpi, hb]
    rw [hc, h0, if_neg h']
    simp

/-! ## Pushing the coercion from the reals through a finite sum -/

private theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The first layer's two arrangements agree on real numbers: summing over the edges commutes with the
    three-term contraction against the weight column. -/
private theorem real_law {ε : Type} (s : Finset ε) (X : ε → Fin 3 → ℝ) (N : ε → ℝ) (x w : Fin 3 → ℝ) (d : ℝ) :
    ∑ i : Fin 3, ((∑ e ∈ s, X e i * N e) + x i * d) * w i
      = (∑ e ∈ s, (∑ i : Fin 3, X e i * w i) * N e) + (∑ i : Fin 3, x i * w i) * d := by
  simp only [add_mul, Finset.sum_add_distrib, Finset.sum_mul]
  congr 1
  · rw [Finset.sum_comm]
    exact Finset.sum_congr rfl fun e _ => Finset.sum_congr rfl fun i _ => by ring
  · exact Finset.sum_congr rfl fun i _ => by ring

/-- The same identity among extended reals all of whose entries are real. -/
private theorem ereal_law {ε : Type} (s : Finset ε) (X : ε → Fin 3 → ℝ) (N : ε → ℝ) (x w : Fin 3 → ℝ) (d : ℝ) :
    (∑ i : Fin 3, (((0 : EReal) + ∑ e ∈ s, (X e i : EReal) * (N e : EReal)) + (x i : EReal) * (d : EReal)) * (w i : EReal))
      = ((0 : EReal) + ∑ e ∈ s, (∑ i : Fin 3, (X e i : EReal) * (w i : EReal)) * (N e : EReal))
          + (∑ i : Fin 3, (x i : EReal) * (w i : EReal)) * (d : EReal) := by
  simp only [zero_add, ← EReal.coe_mul, ← coe_sum, ← EReal.coe_add]
  exact congrArg _ (real_law s X N x w d)

variable (a : In)

/-! ## Degrees and edge weights are real -/

/-- A node's degree is the real number "edges into it, plus one". -/
private theorem deg_eq (n : Fin 100000) : deg a n = ((((into a n).card : ℝ) + 1 : ℝ) : EReal) := by
  unfold deg
  rw [zero_eq, one_eq, zero_add, Finset.sum_const, nsmul_one, EReal.coe_add, EReal.coe_one, EReal.coe_natCast]

/-- The inverse square root of a node's degree, as a real number. -/
private def dv (n : Fin 100000) : ℝ := (Real.sqrt (((into a n).card : ℝ) + 1))⁻¹

private theorem dinv_eq (n : Fin 100000) : dinv a n = (dv a n : EReal) := by
  have h : (0 : ℝ) < ((into a n).card : ℝ) + 1 := by positivity
  unfold dinv dv
  rw [deg_eq, Ideal.rsqrt_coe, if_neg (not_lt.mpr h.le), if_neg h.ne']

private theorem dinv2_eq (n : Fin 100000) : dinv2 a n = ((dv a n * dv a n : ℝ) : EReal) := by
  unfold dinv2
  rw [dinv_eq, EReal.coe_mul]

private theorem norm_eq (e : Fin 1600000) :
    norm a e = ((dv a (row (srcW a e)) * dv a (row (dstW a e)) : ℝ) : EReal) := by
  unfold norm
  rw [dinv_eq, dinv_eq, EReal.coe_mul]

/-! ## The first layer -/

private theorem h1K_eq (hx : ∀ i, a.x i ≠ ⊤ ∧ a.x i ≠ ⊥) (hW : ∀ i, a.W1 i ≠ ⊤ ∧ a.W1 i ≠ ⊥)
    (n : Fin 100000) (k : Fin 64) : h1K a n k = h1 a n k := by
  obtain ⟨xr, hxr⟩ : ∃ xr : SX.Idx → ℝ, ∀ i, a.x i = (xr i : EReal) :=
    ⟨fun i => (a.x i).toReal, fun i => (EReal.coe_toReal (hx i).1 (hx i).2).symm⟩
  obtain ⟨wr, hwr⟩ : ∃ wr : SW1.Idx → ℝ, ∀ i, a.W1 i = (wr i : EReal) :=
    ⟨fun i => (a.W1 i).toReal, fun i => (EReal.coe_toReal (hW i).1 (hW i).2).symm⟩
  unfold h1K h1 aggx agg1 xw
  simp only [hxr, hwr, norm_eq, dinv2_eq, zero_eq]
  exact congrArg (fun v => max (v + a.b1 (ix1 k)) 0)
    (ereal_law (into a n) (fun e i => xr (ix2 (row (srcW a e)) i))
      (fun e => dv a (row (srcW a e)) * dv a (row (dstW a e)))
      (fun i => xr (ix2 n i)) (fun i => wr (ix2 i k)) (dv a n * dv a n))

private theorem h1K_fun (hx : ∀ i, a.x i ≠ ⊤ ∧ a.x i ≠ ⊥) (hW : ∀ i, a.W1 i ≠ ⊤ ∧ a.W1 i ≠ ⊥) :
    h1K a = h1 a := funext fun n => funext fun k => h1K_eq a hx hW n k

/-! ## The second layer, by congruence -/

private theorem hw2K_fun (hx : ∀ i, a.x i ≠ ⊤ ∧ a.x i ≠ ⊥) (hW : ∀ i, a.W1 i ≠ ⊤ ∧ a.W1 i ≠ ⊥) :
    hw2K a = hw2 a := by
  funext n j
  unfold hw2K hw2
  rw [h1K_fun a hx hW]

private theorem agg2K_fun (hx : ∀ i, a.x i ≠ ⊤ ∧ a.x i ≠ ⊥) (hW : ∀ i, a.W1 i ≠ ⊤ ∧ a.W1 i ≠ ⊥) :
    agg2K a = agg2 a := by
  funext n j
  unfold agg2K agg2
  rw [hw2K_fun a hx hW]

private theorem h2K_fun (hx : ∀ i, a.x i ≠ ⊤ ∧ a.x i ≠ ⊥) (hW : ∀ i, a.W1 i ≠ ⊤ ∧ a.W1 i ≠ ⊥) :
    h2K a = h2 a := by
  funext n j
  unfold h2K h2
  rw [agg2K_fun a hx hW, hw2K_fun a hx hW]

/-! ## Twenty blocks of 5000 rows are the whole node axis -/

/-- Block number and row within the block, against the node index. -/
private def blk : Fin 20 × Fin 5000 ≃ Fin 100000 where
  toFun x := ⟨5000 * x.1.val + x.2.val, by have := x.1.isLt; have := x.2.isLt; omega⟩
  invFun n := (⟨n.val / 5000, by have := n.isLt; omega⟩, ⟨n.val % 5000, Nat.mod_lt _ (by norm_num)⟩)
  left_inv x := by
    have := x.1.isLt; have := x.2.isLt
    refine Prod.ext (Fin.ext ?_) (Fin.ext ?_)
    · show (5000 * x.1.val + x.2.val) / 5000 = x.1.val
      omega
    · show (5000 * x.1.val + x.2.val) % 5000 = x.2.val
      omega
  right_inv n := by
    refine Fin.ext ?_
    show 5000 * (n.val / 5000) + n.val % 5000 = n.val
    omega

private theorem blk_apply (x : Fin 20 × Fin 5000) : blk x = rowAt x.1.val x.2 := by
  have := x.1.isLt; have := x.2.isLt
  refine Fin.ext ?_
  show 5000 * x.1.val + x.2.val = (5000 * x.1.val + x.2.val) % 100000
  omega

private theorem blocks_sum (F : Fin 100000 → EReal) :
    ∑ s ∈ Finset.range 20, ∑ r : Fin 5000, F (rowAt s r) = ∑ n : Fin 100000, F n := by
  refine (Finset.sum_range (fun s => ∑ r : Fin 5000, F (rowAt s r))).trans ?_
  refine (Fintype.sum_prod_type' (fun (s : Fin 20) (r : Fin 5000) => F (rowAt s.val r))).symm.trans ?_
  exact Fintype.sum_equiv blk _ _ (fun x => by rw [blk_apply])

/-! ## The accumulated per-graph sums and counts -/

private theorem accK_range (t : ℕ) (g j : Fin 64) :
    accK a t g j = zero + ∑ s ∈ Finset.range t, ∑ r : Fin 5000,
      oh (a.batch (ix1 (rowAt s r))) g * h2K a (rowAt s r) j := by
  induction t with
  | zero => rw [accK, Finset.range_zero, Finset.sum_empty, add_zero]
  | succ t ih => rw [accK, ih, Finset.sum_range_succ, add_assoc]

private theorem cntK_range (t : ℕ) (g : Fin 64) :
    cntK a t g = zero + ∑ s ∈ Finset.range t, ∑ r : Fin 5000, oh (a.batch (ix1 (rowAt s r))) g * oneB := by
  induction t with
  | zero => rw [cntK, Finset.range_zero, Finset.sum_empty, add_zero]
  | succ t ih => rw [cntK, ih, Finset.sum_range_succ, add_assoc]

private theorem accK_pool (hx : ∀ i, a.x i ≠ ⊤ ∧ a.x i ≠ ⊥) (hW : ∀ i, a.W1 i ≠ ⊤ ∧ a.W1 i ≠ ⊥)
    (g j : Fin 64) : accK a 20 g j = pool a g j := by
  have hb := blocks_sum (fun n => oh (a.batch (ix1 n)) g * h2K a n j)
  rw [accK_range, hb]
  unfold pool members
  rw [Finset.sum_filter, h2K_fun a hx hW]
  refine congrArg (zero + ·) (Finset.sum_congr rfl fun n _ => ?_)
  rw [oh_eq]
  split_ifs
  · rw [one_mul]
  · rw [zero_mul]

private theorem cntK_cnt (g : Fin 64) : cntK a 20 g = cnt a g := by
  have hb := blocks_sum (fun n => oh (a.batch (ix1 n)) g * oneB)
  rw [cntK_range, hb]
  unfold cnt members
  rw [Finset.sum_filter]
  refine congrArg (zero + ·) (Finset.sum_congr rfl fun n _ => ?_)
  rw [oh_eq, oneB_eq, one_eq]
  split_ifs
  · rw [one_mul]
  · rw [zero_mul]

/-- The kernel's arrangement computes the reference's values wherever the node features and the first weight
    matrix are real. -/
theorem outK_eq_out (hx : ∀ i, a.x i ≠ ⊤ ∧ a.x i ≠ ⊥) (hW : ∀ i, a.W1 i ≠ ⊤ ∧ a.W1 i ≠ ⊥)
    (g : Fin 64) (o : Fin 10) : outK a g o = out a g o := by
  unfold outK out
  rw [cntK_cnt]
  refine congrArg (· + a.bfc (ix1 o)) (Finset.sum_congr rfl fun j _ => ?_)
  rw [accK_pool a hx hW]

end Cert.Spec

end
-- ==== Proof.Finite.lean ====
/-
  From the printed finiteness test to finiteness. The test is a conjunction of one "every |entry| is below
  +infinity" per float argument; each conjunct is a reduction by "and" into a single word, so the word being 1
  gives the comparison at every index, and at the extended reals |v| < +infinity says v is neither infinity.
-/
import proofs.«428876_j16381005267207_3_alg».proof.Pre_finite_inputs
import proofs.«428876_j16381005267207_3_alg».proof.Proof.Gen.Pre_finite_inputs
import Idealize.ShloMosaic.Lib.ReduceAll
import Idealize.ShloMosaic.Lib.ValueIdx
import Idealize.ShloMosaic.PureOps.Ideal
import Mathlib.Data.EReal.Basic

noncomputable section

namespace Cert.FiniteIn

open Idealize.ShloMosaic
open Cert.Pre_finite_inputs

/-- The f32 word 0x7F800000 is +infinity. -/
private theorem inf_word : Ideal.ofBits .f32 0x7F800000#32 = ⊤ := by
  simp [Ideal.ofBits, Ideal.ieee]

/-- |v| < +infinity at the extended reals: v is neither infinity. -/
private theorem real_of_abs_lt (v c : EReal) (hc : c = Ideal.ofBits .f32 0x7F800000#32)
    (h : Ideal.cmp .olt (max v (-v)) c = 1#1) : v ≠ ⊤ ∧ v ≠ ⊥ := by
  rw [hc, inf_word] at h
  have h' : max v (-v) < (⊤ : EReal) := by
    by_contra hlt
    have h2 : Ideal.cmp .olt (max v (-v)) ⊤ = BitVec.ofBool (decide (max v (-v) < (⊤ : EReal))) := rfl
    rw [h2, decide_eq_false hlt] at h
    exact absurd h (by decide)
  obtain ⟨h1, h2⟩ := max_lt_iff.mp h'
  refine ⟨h1.ne, fun e => ?_⟩
  rw [e, EReal.neg_bot] at h2
  exact lt_irrefl _ h2

/-- The result shape of a reduction over every axis has one index. -/
private theorem sub_S_ : Subsingleton S_.Idx := ⟨fun a b => funext fun d => d.elim0⟩

theorem finite_of_pre [Cert.Pre_finite_inputs.Facts]
    (x : FVec Ideal Cert.Pre_finite_inputs.S100000x3 .f32) (ei : IVec Cert.Pre_finite_inputs.S2x1600000 32)
    (batch : IVec Cert.Pre_finite_inputs.S100000 32) (W1 : FVec Ideal Cert.Pre_finite_inputs.S3x64 .f32)
    (b1 : FVec Ideal Cert.Pre_finite_inputs.S64 .f32) (W2 : FVec Ideal Cert.Pre_finite_inputs.S64x64 .f32)
    (b2 : FVec Ideal Cert.Pre_finite_inputs.S64 .f32) (Wfc : FVec Ideal Cert.Pre_finite_inputs.S64x10 .f32)
    (bfc : FVec Ideal Cert.Pre_finite_inputs.S10 .f32)
    (h : Cert.Pre_finite_inputs.fn (F := Ideal) x ei batch W1 b1 W2 b2 Wfc bfc = fun _ => 1#1) :
    (∀ i, x i ≠ ⊤ ∧ x i ≠ ⊥) ∧ (∀ i, W1 i ≠ ⊤ ∧ W1 i ≠ ⊥) := by
  haveI := sub_S_
  have h0 := congrFun h ValueIdx.ix0
  dsimp only [fn, fn_part1] at h0
  simp only [Idealize.ShloMosaic.andi, IntOp.andi_eq_one] at h0
  obtain ⟨⟨⟨⟨⟨⟨hx, hW⟩, -⟩, -⟩, -⟩, -⟩, -⟩ := h0
  exact ⟨fun i => real_of_abs_lt (x i) _ rfl (Host.reduce_andi_all _ _ _ _ _ hx i),
    fun i => real_of_abs_lt (W1 i) _ rfl (Host.reduce_andi_all _ _ _ _ _ hW i)⟩

end Cert.FiniteIn

end
-- ==== Proof.lean ====
/-
  A two-layer graph-convolution network with mean pooling and a linear head — 100000 nodes, 1600000 directed edges, 64
  graphs — as a Pallas program of two kernel regions among host operations, against its plain reference, at the
  extended reals.

  Both programs compute, per node, the degree (the edges whose target is the node, plus one for the self loop) and,
  per edge, the product of the inverse square roots of its end nodes' degrees. The reference's first layer multiplies
  the node features by the weight matrix and then sums the weighted rows over the edges into each node; the kernel
  program sums the raw three-column features over the edges on the host and multiplies by the weight matrix inside its
  first kernel region (which also applies the second layer's weight matrix). The two agree because a matrix product
  distributes over a finite sum of REAL rows: every feature and weight entry is finite by the precondition, and the
  edge weights are real because every degree is a real number at least 1. From there on the programs apply the same
  operations: the second layer's sum over the edges, the rectifier, and the mean over each graph — which the second
  kernel region accumulates over twenty blocks of 5000 nodes as products with 0/1 membership factors, where the
  reference scatters with the graph words as indices; a graph word naming no graph contributes to neither — and the
  linear head.

  The three frames: the reference's is its run with the result dropped; each kernel program's is the run of its
  four items (host stretch, region 0, host stretch, region 1) with every argument array read back at the end. The
  idealization rewrote no operation, so there is nothing to preserve.
-/
import proofs.«428876_j16381005267207_3_alg».proof.Defs
import proofs.«428876_j16381005267207_3_alg».proof.Proof.Gen.Kernel
import proofs.«428876_j16381005267207_3_alg».proof.Proof.Gen.KernelIdeal
import proofs.«428876_j16381005267207_3_alg».proof.Proof.Gen.ReferenceIdeal
import proofs.«428876_j16381005267207_3_alg».proof.Proof.Gen.Pre_finite_inputs
import proofs.«428876_j16381005267207_3_alg».proof.Proof.Gen.ReferenceIdeal.Run
import proofs.«428876_j16381005267207_3_alg».proof.Proof.KRun
import proofs.«428876_j16381005267207_3_alg».proof.Proof.KIValue
import proofs.«428876_j16381005267207_3_alg».proof.Proof.RefSide
import proofs.«428876_j16381005267207_3_alg».proof.Proof.SpecLaw
import proofs.«428876_j16381005267207_3_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's frame is its run with the result dropped. -/
theorem frame_r : Cert.frame_ReferenceIdeal := fun m ρ _ =>
  (θ_run Cert.ReferenceIdeal.defs _ _).mono (fun _ h c => (h c).2) (Cert.ReferenceIdeal.Value.run (F := Ideal) m ρ)

/-- Memories that agree on the nine arguments give the two sides the same inputs. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.RefSide.inOf m' c = Cert.KSide.inOf m c := by
  obtain ⟨h0, h1, h2, h3, h4, h5, h6, h7, h8⟩ := h
  unfold Cert.RefSide.inOf Cert.KSide.inOf
  rw [h0, h1, h2, h3, h4, h5, h6, h7, h8]

/-- From memories agreeing on the arguments both idealized programs run, and both end with the result array at the
    reference's formula of the arguments: the reference by its run read stage by stage, the kernel program by its
    run, the two regions' write-backs and the law that joins the two arrangements (under the arguments' finiteness). -/
theorem algebraic : Cert.algebraic_KernelIdeal_ReferenceIdeal := by
  intro m ρ m' ρ' hpre hagree
  refine ⟨fun c j => Cert.Spec.out (Cert.KSide.inOf m c) (j 0) (j 1), ?_, ?_⟩
  · refine (θ_run (Cert.KernelIdeal.defs (F := Ideal)) _ _).mono (fun _ h c => ⟨(h c).1.trans ?_, (h c).2⟩)
      (Cert.KSide.run_outK m ρ)
    funext j
    obtain ⟨hx, hW⟩ := Cert.FiniteIn.finite_of_pre _ _ _ _ _ _ _ _ _ (hpre c)
    exact Cert.Spec.outK_eq_out (Cert.KSide.inOf m c) hx hW (j 0) (j 1)
  · refine (θ_run (Cert.ReferenceIdeal.defs (F := Ideal)) _ _).mono (fun _ h c => ⟨(h c).1.trans ?_, (h c).2⟩)
      (Cert.RefSide.run_spec m' ρ')
    exact congrArg (fun a : Cert.Spec.In => fun j : Cert.ReferenceIdeal.S64x10.Idx => Cert.Spec.out a (j 0) (j 1)) (inputs_agree m m' c (hagree c))

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
